-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_1)) (v1 : (c : Dev Cert.KernelIdeal.nD) → Buf (Elt Ideal) ((c.tc : Thread Cert.KernelIdeal.nD Cert.KernelIdeal.τ).loc Cert.KernelIdeal.main_v4_2)) (v2 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_1) = v0 c
          ∧ r.2.mem ((c.tc : Thread Cert.KernelIdeal.nD Cert.KernelIdeal.τ).loc Cert.KernelIdeal.main_v4_2) = v1 c
          ∧ r.2.mem ((c.tc : Thread Cert.KernelIdeal.nD Cert.KernelIdeal.τ).loc Cert.KernelIdeal.main_v4_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x256 : Shape := ⟨2, ![4096, 256]⟩
abbrev S256x128 : Shape := ⟨2, ![256, 128]⟩
abbrev S128x128 : Shape := ⟨2, ![128, 128]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128x128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  main_v38

def fn_part1 {F : FTy → Type} [FloatOps F] (main_arg4 : FVec F S256x128 .f32) (main_arg5 : FVec F S128x128 .f32) (main_arg6 : FVec F S128x128 .f32) (main_arg7 : FVec F S128x128 .f32) (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S4096x4096 .f32) (main_arg1 : FVec F S4096x256 .f32) (main_arg2 : FVec F S4096x4096 .f32) (main_arg3 : FVec F S4096x256 .f32) (main_arg4 : FVec F S256x128 .f32) (main_arg5 : FVec F S128x128 .f32) (main_arg6 : FVec F S128x128 .f32) (main_arg7 : FVec F S128x128 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x256 .f32 := Host.absf main_arg3
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_arg4 main_arg5 main_arg6 main_arg7 main_v13 main_v16
-- ==== Kernel.lean ====
abbrev S4096x4096 : Shape := ⟨2, ![4096, 4096]⟩
abbrev S4096x256 : Shape := ⟨2, ![4096, 256]⟩
abbrev S256x128 : Shape := ⟨2, ![256, 128]⟩
abbrev S128x128 : Shape := ⟨2, ![128, 128]⟩
abbrev S4096x128 : Shape := ⟨2, ![4096, 128]⟩
abbrev S512x4096 : Shape := ⟨2, ![512, 4096]⟩
abbrev S512x128 : Shape := ⟨2, ![512, 128]⟩
abbrev S512x256 : Shape := ⟨2, ![512, 256]⟩
abbrev S1024x128 : Shape := ⟨2, ![1024, 128]⟩
abbrev S1024x1024 : Shape := ⟨2, ![1024, 1024]⟩
abbrev S128x1024 : Shape := ⟨2, ![128, 1024]⟩

abbrev nBuf : Space → Nat
  | .hbm => 15
  | .vmem => 40
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S4096x4096, .f32⟩
  | .hbm, ⟨3, _⟩ => ⟨S4096x256, .f32⟩
  | .hbm, ⟨4, _⟩ => ⟨S256x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S4096x128, .f32⟩
  | .hbm, ⟨12, _⟩ => ⟨S4096x4096, .f32⟩
  | .hbm, ⟨13, _⟩ => ⟨S4096x128, .f32⟩
  | .hbm, ⟨14, _⟩ => ⟨S4096x128, .f32⟩
  | .local _ .vmem, ⟨0, _⟩ => ⟨S512x4096, .f32⟩
  | .local _ .vmem, ⟨1, _⟩ => ⟨S512x4096, .f32⟩
  | .local _ .vmem, ⟨2, _⟩ => ⟨S4096x256, .f32⟩
  | .local _ .vmem, ⟨3, _⟩ => ⟨S256x128, .f32⟩
  | .local _ .vmem, ⟨4, _⟩ => ⟨S512x128, .f32⟩
  | .local _ .vmem, ⟨5, _⟩ => ⟨S512x128, .f32⟩
  | .local _ .vmem, ⟨6, _⟩ => ⟨S512x4096, .f32⟩
  | .local _ .vmem, ⟨7, _⟩ => ⟨S512x4096, .f32⟩
  | .local _ .vmem, ⟨8, _⟩ => ⟨S4096x128, .f32⟩
  | .local _ .vmem, ⟨9, _⟩ => ⟨S128x128, .f32⟩
  | .local _ .vmem, ⟨10, _⟩ => ⟨S512x128, .f32⟩
  | .local _ .vmem, ⟨11, _⟩ => ⟨S512x128, .f32⟩
  | .local _ .vmem, ⟨12, _⟩ => ⟨S512x4096, .f32⟩
  | .local _ .vmem, ⟨13, _⟩ => ⟨S512x4096, .f32⟩
  | .local _ .vmem, ⟨14, _⟩ => ⟨S4096x256, .f32⟩
  | .local _ .vmem, ⟨15, _⟩ => ⟨S256x128, .f32⟩
  | .local _ .vmem, ⟨16, _⟩ => ⟨S512x128, .f32⟩
  | .local _ .vmem, ⟨17, _⟩ => ⟨S512x128, .f32⟩
  | .local _ .vmem, ⟨18, _⟩ => ⟨S512x4096, .f32⟩
  | .local _ .vmem, ⟨19, _⟩ => ⟨S512x4096, .f32⟩
  | .local _ .vmem, ⟨20, _⟩ => ⟨S4096x128, .f32⟩
  | .local _ .vmem, ⟨21, _⟩ => ⟨S128x128, .f32⟩
  | .local _ .vmem, ⟨22, _⟩ => ⟨S512x128, .f32⟩
  | .local _ .vmem, ⟨23, _⟩ => ⟨S512x128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | .local _ .vmem, ⟨30, _⟩ => ⟨S128x128, .f32⟩
  | .local _ .vmem, ⟨31, _⟩ => ⟨S128x128, .f32⟩
  | .local _ .vmem, ⟨32, _⟩ => ⟨S1024x1024, .f32⟩
  | .local _ .vmem, ⟨33, _⟩ => ⟨S1024x1024, .f32⟩
  | .local _ .vmem, ⟨34, _⟩ => ⟨S1024x128, .f32⟩
  | .local _ .vmem, ⟨35, _⟩ => ⟨S1024x128, .f32⟩
  | .local _ .vmem, ⟨36, _⟩ => ⟨S1024x128, .f32⟩
  | .local _ .vmem, ⟨37, _⟩ => ⟨S1024x128, .f32⟩
  | .local _ .vmem, ⟨38, _⟩ => ⟨S1024x128, .f32⟩
  | .local _ .vmem, ⟨39, _⟩ => ⟨S1024x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg4_0 : Ref sig .tc := ⟨.vmem, 31, rfl⟩
abbrev cc4_stg5_0 : Ref sig .tc := ⟨.vmem, 32, rfl⟩
abbrev cc4_stg5_1 : Ref sig .tc := ⟨.vmem, 33, rfl⟩
abbrev cc4_stg6_0 : Ref sig .tc := ⟨.vmem, 34, rfl⟩
abbrev cc4_stg6_1 : Ref sig .tc := ⟨.vmem, 35, rfl⟩
abbrev cc4_stg7_0 : Ref sig .tc := ⟨.vmem, 36, rfl⟩
abbrev cc4_stg7_1 : Ref sig .tc := ⟨.vmem, 37, rfl⟩
abbrev cc4_scratch0 : Ref sig .tc := ⟨.vmem, 38, rfl⟩
abbrev cc4_scratch1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem4_0 : DmaSem sig := 31
abbrev cc4_sem5_0 : DmaSem sig := 32
abbrev cc4_sem5_1 : DmaSem sig := 33
abbrev cc4_sem6_0 : DmaSem sig := 34
abbrev cc4_sem6_1 : DmaSem sig := 35
abbrev cc4_sem7_0 : DmaSem sig := 36
abbrev cc4_sem7_1 : DmaSem sig := 37

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![4, 4], ![false, false]⟩

def k4_cond2 (i : grid4.Coords) : BitVec 1 :=
  let arg1 : BitVec 32 := BitVec.ofNat 32 (i 1).val
  let c3_i32 : BitVec 32 := 3#32
  let v33 : BitVec 1 := Scalar.cmpi .eq arg1 c3_i32
  let v34 : BitVec 32 := Scalar.extui v33
  let c0_i32_21 : BitVec 32 := 0#32
  let v35 : BitVec 1 := Scalar.cmpi .ne v34 c0_i32_21
  v35

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1024x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 2 → Memref sig .tc .vmem S1024x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S1024x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, false]

abbrev stage4_7 : Fin 2 → Memref sig .tc .vmem S1024x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, false]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S256x128_S256x128_0_0 : ∀ a, (![0, 0] : Fin 2 → Nat) a + S256x128.size a ≤ S256x128.size a
  h_S256x128 : 0 < S256x128.numel
  inb_S512x128_S512x128_0_0 : ∀ a, (![0, 0] : Fin 2 → Nat) a + S512x128.size a ≤ S512x128.size a
  h_S512x128 : 0 < S512x128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  inb_S1024x1024_S1024x1024_0_0 : ∀ a, (![0, 0] : Fin 2 → Nat) a + S1024x1024.size a ≤ S1024x1024.size a
  h_S1024x1024 : 0 < S1024x1024.numel
  dot_S512x4096_S4096x256_S512x256_1_0_0_1_n_n_wf : DotDims.WF S512x4096 S4096x256 S512x256 [1] [0] [0] [1] [] []
  dot_S512x256_S256x128_S512x128_1_0_0_1_n_n_wf : DotDims.WF S512x256 S256x128 S512x128 [1] [0] [0] [1] [] []
  dot_S512x4096_S4096x128_S512x128_1_0_0_1_n_n_wf : DotDims.WF S512x4096 S4096x128 S512x128 [1] [0] [0] [1] [] []
  dot_S512x128_S128x128_S512x128_1_0_0_1_n_n_wf : DotDims.WF S512x128 S128x128 S512x128 [1] [0] [0] [1] [] []
  dot_S1024x128_S128x128_S1024x128_1_0_0_1_n_n_wf : DotDims.WF S1024x128 S128x128 S1024x128 [1] [0] [0] [1] [] []
  dot_S1024x128_S128x1024_S1024x1024_1_0_0_1_n_n_wf : DotDims.WF S1024x128 S128x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S4096x128.size a
  hwx0_3 : ∀ i : grid0.Coords, EltTy.bits .f32 = 32 ∨ (Rect.block (s := S4096x128) S512x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .f32 = 32 ∨ (Rect.block (s := S4096x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S4096x128.size a
  hwx1_3 : ∀ i : grid1.Coords, EltTy.bits .f32 = 32 ∨ (Rect.block (s := S4096x128) S512x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .f32 = 32 ∨ (Rect.block (s := S4096x4096) S512x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S4096x256.size a
  hwx2_1 : ∀ i : grid2.Coords, EltTy.bits .f32 = 32 ∨ (Rect.block (s := S4096x256) S4096x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S4096x128.size a
  hwx2_3 : ∀ i : grid2.Coords, EltTy.bits .f32 = 32 ∨ (Rect.block (s := S4096x128) S512x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x4096.size a ≤ S4096x4096.size a
  hwx3_0 : ∀ i : grid3.Coords, EltTy.bits .f32 = 32 ∨ (Rect.block (s := S4096x4096) S512x4096.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4096x128.size a ≤ S4096x128.size a
  hwx3_1 : ∀ i : grid3.Coords, EltTy.bits .f32 = 32 ∨ (Rect.block (s := S4096x128) S4096x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x128.size a ≤ S4096x128.size a
  hwx3_3 : ∀ i : grid3.Coords, EltTy.bits .f32 = 32 ∨ (Rect.block (s := S4096x128) S512x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x128.size a ≤ S4096x128.size a
  hwx4_0 : ∀ i : grid4.Coords, EltTy.bits .f32 = 32 ∨ (Rect.block (s := S4096x128) S1024x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x128.size a ≤ S4096x128.size a
  hwx4_1 : ∀ i : grid4.Coords, EltTy.bits .f32 = 32 ∨ (Rect.block (s := S4096x128) S1024x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x128.size a ≤ S4096x128.size a
  hwx4_2 : ∀ i : grid4.Coords, EltTy.bits .f32 = 32 ∨ (Rect.block (s := S4096x128) S1024x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1024x1024.size a ≤ S4096x4096.size a
  hwx4_5 : ∀ i : grid4.Coords, EltTy.bits .f32 = 32 ∨ (Rect.block (s := S4096x4096) S1024x1024.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1024x128.size a ≤ S4096x128.size a
  hwx4_6 : ∀ i : grid4.Coords, EltTy.bits .f32 = 32 ∨ (Rect.block (s := S4096x128) S1024x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1024x128.size a ≤ S4096x128.size a
  hwx4_7 : ∀ i : grid4.Coords, EltTy.bits .f32 = 32 ∨ (Rect.block (s := S4096x128) S1024x128.size (cc4_transform_7 i) (hinb4_7 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S4096x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S512x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg2) S512x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S4096x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v3) S512x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v1) S1024x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S1024x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v3) S1024x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg6) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg7) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v4_0) S1024x1024.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v4_1) S1024x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v4_2) S1024x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev idle4 : Fin 8 → grid4.Coords → Bool := fun | 0 => fun _ => false | 1 => fun _ => false | 2 => fun _ => false | 3 => fun _ => false | 4 => fun _ => false | 5 => fun _ => false | 6 => fun i => !(k4_cond2 i == 1#1) | 7 => fun i => !(k4_cond2 i == 1#1) | ⟨_ + 8, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x256 : Shape := ⟨2, ![4096, 256]⟩
abbrev S256x128 : Shape := ⟨2, ![256, 128]⟩
abbrev S128x128 : Shape := ⟨2, ![128, 128]⟩
abbrev S4096x128 : Shape := ⟨2, ![4096, 128]⟩
abbrev S_ : Shape := ⟨0, ![]⟩
abbrev S128x4096 : Shape := ⟨2, ![128, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S4096x4096, .f32⟩
  | .hbm, ⟨3, _⟩ => ⟨S4096x256, .f32⟩
  | .hbm, ⟨4, _⟩ => ⟨S256x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S4096x256, .f32⟩
  | .hbm, ⟨9, _⟩ => ⟨S4096x128, .f32⟩
  | .hbm, ⟨10, _⟩ => ⟨S_, .f32⟩
  | .hbm, ⟨11, _⟩ => ⟨S4096x128, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S_, .f32⟩
  | .hbm, ⟨16, _⟩ => ⟨S4096x128, .f32⟩
  | .hbm, ⟨17, _⟩ => ⟨S4096x128, .f32⟩
  | .hbm, ⟨18, _⟩ => ⟨S4096x256, .f32⟩
  | .hbm, ⟨19, _⟩ => ⟨S4096x128, .f32⟩
  | .hbm, ⟨20, _⟩ => ⟨S_, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S_, .f32⟩
  | .hbm, ⟨26, _⟩ => ⟨S4096x128, .f32⟩
  | .hbm, ⟨27, _⟩ => ⟨S4096x128, .f32⟩
  | .hbm, ⟨28, _⟩ => ⟨S4096x128, .f32⟩
  | .hbm, ⟨29, _⟩ => ⟨S128x4096, .f32⟩
  | .hbm, ⟨30, _⟩ => ⟨S4096x4096, .f32⟩
  | .hbm, ⟨31, _⟩ => ⟨S4096x4096, .f32⟩
  | .hbm, ⟨32, _⟩ => ⟨S4096x128, .f32⟩
  | .hbm, ⟨33, _⟩ => ⟨S4096x128, .f32⟩
  | .hbm, ⟨34, _⟩ => ⟨S4096x128, .f32⟩
  | .hbm, ⟨35, _⟩ => ⟨S4096x128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_cst : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call1_cst : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call2_cst : Ref sig .tc := ⟨.hbm, 20, rfl⟩
abbrev main_call2_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call3_cst : Ref sig .tc := ⟨.hbm, 25, rfl⟩
abbrev main_call3_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]

class Facts₀ : Prop where
  bcast_S_S4096x128 : S_.BroadcastsInDim S4096x128 (![] : Fin 0 → Fin S4096x128.rank)
  transposes_S4096x128_S128x4096_1_0 : S4096x128.Transposes [1, 0] S128x4096
  dot_S4096x4096_S4096x256_S4096x256_1_0_0_1_n_n_wf : DotDims.WF S4096x4096 S4096x256 S4096x256 [1] [0] [0] [1] [] []
  dot_S4096x256_S256x128_S4096x128_1_0_0_1_n_n_wf : DotDims.WF S4096x256 S256x128 S4096x128 [1] [0] [0] [1] [] []
  dot_S4096x4096_S4096x128_S4096x128_1_0_0_1_n_n_wf : DotDims.WF S4096x4096 S4096x128 S4096x128 [1] [0] [0] [1] [] []
  dot_S4096x128_S128x128_S4096x128_1_0_0_1_n_n_wf : DotDims.WF S4096x128 S128x128 S4096x128 [1] [0] [0] [1] [] []
  dot_S4096x128_S128x4096_S4096x4096_1_0_0_1_n_n_wf : DotDims.WF S4096x128 S128x4096 S4096x4096 [1] [0] [0] [1] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf

class Facts : Prop extends Facts₀ where

variable [Facts]
-- ==== Proof.Gcn0.lean ====
/-
  Graph-layer region 0 (the pallas_call that computes one `relu ((A · X) · W)` row block per grid point), at the
  contents `V` the region is entered with: each window's block at a point, the proof data (inputs left as fetched, the
  output block the body's one stored value of the three input blocks), and the body's obligation at every point.
-/
import proofs.«178143_j39779987096265_1_alg».proof.Proof.Gen.KernelIdeal.Launch
import proofs.«178143_j39779987096265_1_alg».proof.Proof.Gen.KernelIdeal.Skeleton
import proofs.«178143_j39779987096265_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]

/-! ## The input windows' staging buffers hold their blocks -/

/-- Input window 0's current staging buffer holds its block at every point (it is fetched at every point), for any
    proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 is fetched at the first point only and kept: its block index never moves, so at every point the
    buffer still holds the block of that point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2, likewise fetched once and kept. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's accesses: every load and the one store go through the whole buffer at offset zero -/

/-- The offsets `![0, 0]` are zero on both axes. -/
theorem hz0 : (![0, 0] : Fin 2 → Nat) = fun _ => 0 := funext fun a => by fin_cases a <;> rfl

abbrev r0_0 : Rect S512x4096 := Rect.unit (s := S512x4096) ![0, 0] S512x4096.size inb_S512x4096_S512x4096_0_0
abbrev r0_1 : Rect S4096x256 := Rect.unit (s := S4096x256) ![0, 0] S4096x256.size inb_S4096x256_S4096x256_0_0
abbrev r0_2 : Rect S256x128 := Rect.unit (s := S256x128) ![0, 0] S256x128.size inb_S256x128_S256x128_0_0
abbrev r0_3 : Rect S512x128 := Rect.unit (s := S512x128) ![0, 0] S512x128.size inb_S512x128_S512x128_0_0

/-- Window 3's staging buffer after the body, from the input windows' blocks: its one store as a piece over the
    loads of the three inputs. -/
def out0_3 (x0 : Vec F S512x4096 .f32) (x1 : Vec F S4096x256 .f32) (x2 : Vec F S256x128 .f32) : Vec F S512x128 .f32 :=
  View.canon [⟨r0_3, k0_pay1 (View.ld x0 r0_0) (View.ld x1 r0_1) (View.ld x2 r0_2)⟩]

/-- The one store covers the buffer: its rectangle is the whole shape. -/
theorem cover0_3 (p0 : Vec F S512x128 .f32) (y : S512x128.Idx) :
    ∃ pc ∈ ([⟨r0_3, p0⟩] : List (View.Piece (Elt F) S512x128 .f32)), y ∈ pc.1.set :=
  ⟨⟨r0_3, p0⟩, List.mem_singleton_self _, View.mem_set_unit_zero hz0 inb_S512x128_S512x128_0_0 y⟩

/-- Each load reads its whole buffer and the store writes the whole buffer, so what is left is the bare payload of
    the three input contents. -/
theorem out0_3_eq (x0 : Vec F S512x4096 .f32) (x1 : Vec F S4096x256 .f32) (x2 : Vec F S256x128 .f32) :
    out0_3 x0 x1 x2 = k0_pay1 x0 x1 x2 := by
  unfold out0_3
  rw [View.canon_unit_zero hz0]
  simp only [View.ld_unit_zero (S := S512x4096) hz0, View.ld_unit_zero (S := S4096x256) hz0, View.ld_unit_zero (S := S256x128) hz0]

/-! ## The body's triple -/

set_option maxHeartbeats 1000000 in
/-- The kernel body on whole staging memrefs, the inputs' at read contents `x0 x1 x2` and the output's at anything, runs
    to the continuation holding the inputs' as they were and the output's at `out0_3` of the inputs' (the load of the
    output buffer before the store reads a value nothing uses). -/
theorem sound_kernel0 (c : Dev nD) (E : Set ℕ) (i : grid0.Coords)
    (arg1 : Memref sig .tc .vmem S512x4096 .f32) (harg1 : arg1.IsWhole) (arg2 : Memref sig .tc .vmem S4096x256 .f32) (harg2 : arg2.IsWhole)
    (arg3 : Memref sig .tc .vmem S256x128 .f32) (harg3 : arg3.IsWhole) (arg4 : Memref sig .tc .vmem S512x128 .f32) (harg4 : arg4.IsWhole)
    (x0 : Vec F S512x4096 .f32) (x1 : Vec F S4096x256 .f32) (x2 : Vec F S256x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__gcn_kernel i arg1 harg1 arg2 harg2 arg3 harg3 arg4 harg4) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, ← out0_3_eq]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Gcn1.lean ====
/-
  Graph-layer region 1 (the pallas_call that computes one `relu ((A · X) · W)` row block per grid point), at the
  contents `V` the region is entered with: each window's block at a point, the proof data (inputs left as fetched, the
  output block the body's one stored value of the three input blocks), and the body's obligation at every point.
-/
import proofs.«178143_j39779987096265_1_alg».proof.Proof.Gen.KernelIdeal.Launch
import proofs.«178143_j39779987096265_1_alg».proof.Proof.Gen.KernelIdeal.Skeleton
import proofs.«178143_j39779987096265_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]

/-! ## The input windows' staging buffers hold their blocks -/

/-- Input window 0's current staging buffer holds its block at every point (it is fetched at every point), for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 is fetched at the first point only and kept: its block index never moves, so at every point the
    buffer still holds the block of that point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2, likewise fetched once and kept. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body's accesses: every load and the one store go through the whole buffer at offset zero -/

/-- The offsets `![0, 0]` are zero on both axes. -/
theorem hz1 : (![0, 0] : Fin 2 → Nat) = fun _ => 0 := funext fun a => by fin_cases a <;> rfl

abbrev r1_0 : Rect S512x4096 := Rect.unit (s := S512x4096) ![0, 0] S512x4096.size inb_S512x4096_S512x4096_0_0
abbrev r1_1 : Rect S4096x128 := Rect.unit (s := S4096x128) ![0, 0] S4096x128.size inb_S4096x128_S4096x128_0_0
abbrev r1_2 : Rect S128x128 := Rect.unit (s := S128x128) ![0, 0] S128x128.size inb_S128x128_S128x128_0_0
abbrev r1_3 : Rect S512x128 := Rect.unit (s := S512x128) ![0, 0] S512x128.size inb_S512x128_S512x128_0_0

/-- Window 3's staging buffer after the body, from the input windows' blocks: its one store as a piece over the
    loads of the three inputs. -/
def out1_3 (x0 : Vec F S512x4096 .f32) (x1 : Vec F S4096x128 .f32) (x2 : Vec F S128x128 .f32) : Vec F S512x128 .f32 :=
  View.canon [⟨r1_3, k1_pay1 (View.ld x0 r1_0) (View.ld x1 r1_1) (View.ld x2 r1_2)⟩]

/-- The one store covers the buffer: its rectangle is the whole shape. -/
theorem cover1_3 (p0 : Vec F S512x128 .f32) (y : S512x128.Idx) :
    ∃ pc ∈ ([⟨r1_3, p0⟩] : List (View.Piece (Elt F) S512x128 .f32)), y ∈ pc.1.set :=
  ⟨⟨r1_3, p0⟩, List.mem_singleton_self _, View.mem_set_unit_zero hz1 inb_S512x128_S512x128_0_0 y⟩

/-- Each load reads its whole buffer and the store writes the whole buffer, so what is left is the bare payload of
    the three input contents. -/
theorem out1_3_eq (x0 : Vec F S512x4096 .f32) (x1 : Vec F S4096x128 .f32) (x2 : Vec F S128x128 .f32) :
    out1_3 x0 x1 x2 = k1_pay1 x0 x1 x2 := by
  unfold out1_3
  rw [View.canon_unit_zero hz1]
  simp only [View.ld_unit_zero (S := S512x4096) hz1, View.ld_unit_zero (S := S4096x128) hz1, View.ld_unit_zero (S := S128x128) hz1]

/-! ## The body's triple -/

set_option maxHeartbeats 1000000 in
/-- The kernel body on whole staging memrefs, the inputs' at read contents `x0 x1 x2` and the output's at anything, runs
    to the continuation holding the inputs' as they were and the output's at `out1_3` of the inputs' (the load of the
    output buffer before the store reads a value nothing uses). -/
theorem sound_kernel1 (c : Dev nD) (E : Set ℕ) (i : grid1.Coords)
    (arg1 : Memref sig .tc .vmem S512x4096 .f32) (harg1 : arg1.IsWhole) (arg2 : Memref sig .tc .vmem S4096x128 .f32) (harg2 : arg2.IsWhole)
    (arg3 : Memref sig .tc .vmem S128x128 .f32) (harg3 : arg3.IsWhole) (arg4 : Memref sig .tc .vmem S512x128 .f32) (harg4 : arg4.IsWhole)
    (x0 : Vec F S512x4096 .f32) (x1 : Vec F S4096x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__gcn_kernel i arg1 harg1 arg2 harg2 arg3 harg3 arg4 harg4) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, ← out1_3_eq]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Gcn2.lean ====
/-
  Graph-layer region 2 (the pallas_call that computes one `relu ((A · X) · W)` row block per grid point), at the
  contents `V` the region is entered with: each window's block at a point, the proof data (inputs left as fetched, the
  output block the body's one stored value of the three input blocks), and the body's obligation at every point.
-/
import proofs.«178143_j39779987096265_1_alg».proof.Proof.Gen.KernelIdeal.Launch
import proofs.«178143_j39779987096265_1_alg».proof.Proof.Gen.KernelIdeal.Skeleton
import proofs.«178143_j39779987096265_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data of region 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay1 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay1 (iblk2 V c 0 t) (iblk2 V c 1 t) (iblk2 V c 2 t) := by dsimp only [dat2]

/-! ## The input windows' staging buffers hold their blocks -/

/-- Input window 0's current staging buffer holds its block at every point (it is fetched at every point), for any
    proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 is fetched at the first point only and kept: its block index never moves, so at every point the
    buffer still holds the block of that point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2, likewise fetched once and kept. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body's accesses: every load and the one store go through the whole buffer at offset zero -/

/-- The offsets `![0, 0]` are zero on both axes. -/
theorem hz2 : (![0, 0] : Fin 2 → Nat) = fun _ => 0 := funext fun a => by fin_cases a <;> rfl

abbrev r2_0 : Rect S512x4096 := Rect.unit (s := S512x4096) ![0, 0] S512x4096.size inb_S512x4096_S512x4096_0_0
abbrev r2_1 : Rect S4096x256 := Rect.unit (s := S4096x256) ![0, 0] S4096x256.size inb_S4096x256_S4096x256_0_0
abbrev r2_2 : Rect S256x128 := Rect.unit (s := S256x128) ![0, 0] S256x128.size inb_S256x128_S256x128_0_0
abbrev r2_3 : Rect S512x128 := Rect.unit (s := S512x128) ![0, 0] S512x128.size inb_S512x128_S512x128_0_0

/-- Window 3's staging buffer after the body, from the input windows' blocks: its one store as a piece over the
    loads of the three inputs. -/
def out2_3 (x0 : Vec F S512x4096 .f32) (x1 : Vec F S4096x256 .f32) (x2 : Vec F S256x128 .f32) : Vec F S512x128 .f32 :=
  View.canon [⟨r2_3, k2_pay1 (View.ld x0 r2_0) (View.ld x1 r2_1) (View.ld x2 r2_2)⟩]

/-- The one store covers the buffer: its rectangle is the whole shape. -/
theorem cover2_3 (p0 : Vec F S512x128 .f32) (y : S512x128.Idx) :
    ∃ pc ∈ ([⟨r2_3, p0⟩] : List (View.Piece (Elt F) S512x128 .f32)), y ∈ pc.1.set :=
  ⟨⟨r2_3, p0⟩, List.mem_singleton_self _, View.mem_set_unit_zero hz2 inb_S512x128_S512x128_0_0 y⟩

/-- Each load reads its whole buffer and the store writes the whole buffer, so what is left is the bare payload of
    the three input contents. -/
theorem out2_3_eq (x0 : Vec F S512x4096 .f32) (x1 : Vec F S4096x256 .f32) (x2 : Vec F S256x128 .f32) :
    out2_3 x0 x1 x2 = k2_pay1 x0 x1 x2 := by
  unfold out2_3
  rw [View.canon_unit_zero hz2]
  simp only [View.ld_unit_zero (S := S512x4096) hz2, View.ld_unit_zero (S := S4096x256) hz2, View.ld_unit_zero (S := S256x128) hz2]

/-! ## The body's triple -/

set_option maxHeartbeats 1000000 in
/-- The kernel body on whole staging memrefs, the inputs' at read contents `x0 x1 x2` and the output's at anything, runs
    to the continuation holding the inputs' as they were and the output's at `out2_3` of the inputs' (the load of the
    output buffer before the store reads a value nothing uses). -/
theorem sound_kernel2 (c : Dev nD) (E : Set ℕ) (i : grid2.Coords)
    (arg1 : Memref sig .tc .vmem S512x4096 .f32) (harg1 : arg1.IsWhole) (arg2 : Memref sig .tc .vmem S4096x256 .f32) (harg2 : arg2.IsWhole)
    (arg3 : Memref sig .tc .vmem S256x128 .f32) (harg3 : arg3.IsWhole) (arg4 : Memref sig .tc .vmem S512x128 .f32) (harg4 : arg4.IsWhole)
    (x0 : Vec F S512x4096 .f32) (x1 : Vec F S4096x256 .f32) (x2 : Vec F S256x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__gcn_kernel i arg1 harg1 arg2 harg2 arg3 harg3 arg4 harg4) K := by
  simp only [cc2__gcn_kernel_eq_skeleton]; unfold cc2__gcn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, ← out2_3_eq]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Gcn3.lean ====
/-
  Graph-layer region 3 (the pallas_call that computes one `relu ((A · X) · W)` row block per grid point), at the
  contents `V` the region is entered with: each window's block at a point, the proof data (inputs left as fetched, the
  output block the body's one stored value of the three input blocks), and the body's obligation at every point.
-/
import proofs.«178143_j39779987096265_1_alg».proof.Proof.Gen.KernelIdeal.Launch
import proofs.«178143_j39779987096265_1_alg».proof.Proof.Gen.KernelIdeal.Skeleton
import proofs.«178143_j39779987096265_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The proof data of region 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay1 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k3_pay1 (iblk3 V c 0 t) (iblk3 V c 1 t) (iblk3 V c 2 t) := by dsimp only [dat3]

/-! ## The input windows' staging buffers hold their blocks -/

/-- Input window 0's current staging buffer holds its block at every point (it is fetched at every point), for any
    proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 is fetched at the first point only and kept: its block index never moves, so at every point the
    buffer still holds the block of that point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2, likewise fetched once and kept. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body's accesses: every load and the one store go through the whole buffer at offset zero -/

/-- The offsets `![0, 0]` are zero on both axes. -/
theorem hz3 : (![0, 0] : Fin 2 → Nat) = fun _ => 0 := funext fun a => by fin_cases a <;> rfl

abbrev r3_0 : Rect S512x4096 := Rect.unit (s := S512x4096) ![0, 0] S512x4096.size inb_S512x4096_S512x4096_0_0
abbrev r3_1 : Rect S4096x128 := Rect.unit (s := S4096x128) ![0, 0] S4096x128.size inb_S4096x128_S4096x128_0_0
abbrev r3_2 : Rect S128x128 := Rect.unit (s := S128x128) ![0, 0] S128x128.size inb_S128x128_S128x128_0_0
abbrev r3_3 : Rect S512x128 := Rect.unit (s := S512x128) ![0, 0] S512x128.size inb_S512x128_S512x128_0_0

/-- Window 3's staging buffer after the body, from the input windows' blocks: its one store as a piece over the
    loads of the three inputs. -/
def out3_3 (x0 : Vec F S512x4096 .f32) (x1 : Vec F S4096x128 .f32) (x2 : Vec F S128x128 .f32) : Vec F S512x128 .f32 :=
  View.canon [⟨r3_3, k3_pay1 (View.ld x0 r3_0) (View.ld x1 r3_1) (View.ld x2 r3_2)⟩]

/-- The one store covers the buffer: its rectangle is the whole shape. -/
theorem cover3_3 (p0 : Vec F S512x128 .f32) (y : S512x128.Idx) :
    ∃ pc ∈ ([⟨r3_3, p0⟩] : List (View.Piece (Elt F) S512x128 .f32)), y ∈ pc.1.set :=
  ⟨⟨r3_3, p0⟩, List.mem_singleton_self _, View.mem_set_unit_zero hz3 inb_S512x128_S512x128_0_0 y⟩

/-- Each load reads its whole buffer and the store writes the whole buffer, so what is left is the bare payload of
    the three input contents. -/
theorem out3_3_eq (x0 : Vec F S512x4096 .f32) (x1 : Vec F S4096x128 .f32) (x2 : Vec F S128x128 .f32) :
    out3_3 x0 x1 x2 = k3_pay1 x0 x1 x2 := by
  unfold out3_3
  rw [View.canon_unit_zero hz3]
  simp only [View.ld_unit_zero (S := S512x4096) hz3, View.ld_unit_zero (S := S4096x128) hz3, View.ld_unit_zero (S := S128x128) hz3]

/-! ## The body's triple -/

set_option maxHeartbeats 1000000 in
/-- The kernel body on whole staging memrefs, the inputs' at read contents `x0 x1 x2` and the output's at anything, runs
    to the continuation holding the inputs' as they were and the output's at `out3_3` of the inputs' (the load of the
    output buffer before the store reads a value nothing uses). -/
theorem sound_kernel3 (c : Dev nD) (E : Set ℕ) (i : grid3.Coords)
    (arg1 : Memref sig .tc .vmem S512x4096 .f32) (harg1 : arg1.IsWhole) (arg2 : Memref sig .tc .vmem S4096x128 .f32) (harg2 : arg2.IsWhole)
    (arg3 : Memref sig .tc .vmem S128x128 .f32) (harg3 : arg3.IsWhole) (arg4 : Memref sig .tc .vmem S512x128 .f32) (harg4 : arg4.IsWhole)
    (x0 : Vec F S512x4096 .f32) (x1 : Vec F S4096x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__gcn_kernel i arg1 harg1 arg2 harg2 arg3 harg3 arg4 harg4) K := by
  simp only [cc3__gcn_kernel_eq_skeleton]; unfold cc3__gcn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, ← out3_3_eq]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.AttnDat.lean ====
/-
  The attention region (region 4) at the contents `V` it is entered with: what is shared by its three control cases.
  A grid point is `t = 4·i + j`. The body resets its two accumulators when `j = 0`, adds the point's two products to
  them at every point, and stores the two projected row blocks when `j = 3`.
-/
import proofs.«178143_j39779987096265_1_alg».proof.Proof.Gen.KernelIdeal.Launch
import proofs.«178143_j39779987096265_1_alg».proof.Proof.Gen.KernelIdeal.Skeleton
import proofs.«178143_j39779987096265_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- The accumulators are reset: the condition of the body's first `scf.if`, from the grid coordinates. -/
abbrev cond4_0 (i : grid4.Coords) : Prop :=
  (Scalar.cmpi .ne (Scalar.extui (Scalar.cmpi .eq (BitVec.ofNat 32 (i 1).val) 0#32)) 0#32) = 1#1
/-- It holds exactly at the points with `j = 0`. -/
theorem hcond4_0 : ∀ t : Fin cfg4.N, cond4_0 (grid4.coords t) ↔ t.val % 4 = 0 :=
  (by decide +kernel : ∀ t : Fin grid4.N, cond4_0 (grid4.coords t) ↔ t.val % 4 = 0)
/-- The projections are stored: the condition of the body's second `scf.if`. -/
abbrev cond4_1 (i : grid4.Coords) : Prop := k4_cond2 i = 1#1
/-- It holds exactly at the points with `j = 3`. -/
theorem hcond4_1 : ∀ t : Fin cfg4.N, cond4_1 (grid4.coords t) ↔ t.val % 4 = 3 :=
  (by decide +kernel : ∀ t : Fin grid4.N, cond4_1 (grid4.coords t) ↔ t.val % 4 = 3)

/-! ## The staging memrefs at a point and the two scratch accumulators -/

abbrev ms4_0 (t : Fin cfg4.N) : Memref sig .tc .vmem S1024x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S128x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1024x1024 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1024x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1024x128 .f32 := win4_7.stage (cfg4.slots t 7)
abbrev hs4_7 (t : Fin cfg4.N) : (ms4_7 t).IsWhole := hstage4_7 ((cfg4.slots t 7).cast nbuf4_7)
/-- The accumulator of `S · Xs` rows and the accumulator of `S · Xt` rows: whole scoped buffers of the kernel's own. -/
abbrev scM4_0 : Memref sig .tc .vmem S1024x128 .f32 := Memref.whole cc4_scratch0
abbrev scM4_1 : Memref sig .tc .vmem S1024x128 .f32 := Memref.whole cc4_scratch1

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The five input blocks at a point, at their literal types: rows block `i` of `Xs`; rows block `j` of `Xs`; rows block
    `j` of `Xt`; `W3`; `W4`. -/
abbrev xsI (c : Dev nD) (t : Fin cfg4.N) : Vec F S1024x128 .f32 := iblk4 V c 0 t
abbrev xsJ (c : Dev nD) (t : Fin cfg4.N) : Vec F S1024x128 .f32 := iblk4 V c 1 t
abbrev xtJ (c : Dev nD) (t : Fin cfg4.N) : Vec F S1024x128 .f32 := iblk4 V c 2 t
abbrev w3B (c : Dev nD) (t : Fin cfg4.N) : Vec F S128x128 .f32 := iblk4 V c 3 t
abbrev w4B (c : Dev nD) (t : Fin cfg4.N) : Vec F S128x128 .f32 := iblk4 V c 4 t

/-! ## The accumulation -/

/-- One point's update of the two accumulators from what they held: `s.1 + tile · Xs_j` and `s.2 + tile · Xt_j`, the
    tile being the point's score tile. -/
def accStep (c : Dev nD) (t : Fin cfg4.N) (s : Vec F S1024x128 .f32 × Vec F S1024x128 .f32) :
    Vec F S1024x128 .f32 × Vec F S1024x128 .f32 :=
  (k4_pay10 (xsI V c t) (w3B V c t) (xtJ V c t) (xsJ V c t) s.1,
   k4_pay1 (k4_pay11 (xsI V c t) (w3B V c t) (xtJ V c t) s.2))

/-- What the two accumulators hold after the body at position `n`: at a point with `j = 0` one update of the zero
    blocks the reset stores, otherwise one update of what the point before left. -/
def accAt4 (c : Dev nD) : (n : ℕ) → n < cfg4.N → Vec F S1024x128 .f32 × Vec F S1024x128 .f32
  | 0, hn => accStep V c ⟨0, hn⟩ (k4_pay5, k4_pay6)
  | n + 1, hn =>
    if (n + 1) % 4 = 0 then accStep V c ⟨n + 1, hn⟩ (k4_pay5, k4_pay6)
    else accStep V c ⟨n + 1, hn⟩ (accAt4 c n (Nat.lt_of_succ_lt hn))

theorem accAt4_reset (c : Dev nD) (t : Fin cfg4.N) (h0 : t.val % 4 = 0) :
    accAt4 V c t.val t.isLt = accStep V c t (k4_pay5, k4_pay6) := by
  obtain ⟨n, hn⟩ := t
  cases n with
  | zero => rfl
  | succ n => exact if_pos h0

theorem accAt4_step (c : Dev nD) (t : Fin cfg4.N) (h0 : ¬t.val % 4 = 0) :
    accAt4 V c t.val t.isLt = accStep V c t (accAt4 V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points and the proof data -/

/-- Before position `n`: at the first point the class's invariant (every scoped buffer that is no staging buffer at
    anything, the generator register at some state); afterwards the two accumulators at what the point before left,
    the other such buffers at anything, the register at some state. -/
def PhiS4 (c : Dev nD) : (n : ℕ) → n ≤ cfg4.N → sProp 𝕄
  | 0, _ => Pipeline.ΦA spec4 c
  | n + 1, hn => iprop(iprop(owns (c : Thread nD τ) scM4_0 fullShare (accAt4 V c n hn).1 ∗ owns (c : Thread nD τ) scM4_1 fullShare (accAt4 V c n hn).2
      ∗ Pipeline.scopedRestBut (Ix := Unit) (Name := ℕ) (U := UR sig nD τ) (Lvl := ℕ) (Val := Elt F) spec4 c [cc4_scratch0, cc4_scratch1]) ∗ (∃ r, prngReg c r))

/-- The proof data of region 4 on core `c`: the arrays as the region finds them; each input's buffer left at its block;
    the score tile's buffer at the point's tile; the two projection buffers at the projections of the accumulators
    (consulted only at the points with `j = 3`, where they are stored); the two windows on the one array of `Xs` each
    at half its share. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => k4_pay8 (xsI V c t) (w3B V c t) (xtJ V c t)
    | ⟨6, _⟩ => k4_pay3 (w4B V c t) (accAt4 V c t.val t.isLt).1
    | ⟨7, _⟩ => k4_pay4 (w4B V c t) (accAt4 V c t.val t.isLt).2
  Φ t := PhiS4 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = k4_pay8 (xsI V c t) (w3B V c t) (xtJ V c t) := by dsimp only [dat4]
theorem after4_6 (c : Dev nD) (t : Fin cfg4.N) :
    (dat4 V c).after 6 t = k4_pay3 (w4B V c t) (accAt4 V c t.val t.isLt).1 := by dsimp only [dat4]
theorem after4_7 (c : Dev nD) (t : Fin cfg4.N) :
    (dat4 V c).after 7 t = k4_pay4 (w4B V c t) (accAt4 V c t.val t.isLt).2 := by dsimp only [dat4]

end Cert.KernelIdeal.Hand

end
-- ==== Proof.Fold.lean ====
/-
  What the unscoped buffers hold between the five regions: the launch contents, updated by what each region so far wrote
  into its output arrays (`Dat.arrAt … N`: the write-backs folded over the grid). No region writes an argument, and a
  region changes its own output arrays only.
-/
import proofs.«178143_j39779987096265_1_alg».proof.Proof.Gen.KernelIdeal.Launch
import proofs.«178143_j39779987096265_1_alg».proof.Proof.Gen.KernelIdeal.Skeleton
import proofs.«178143_j39779987096265_1_alg».proof.Proof.Gen.KernelIdeal.Points
import proofs.«178143_j39779987096265_1_alg».proof.Proof.Gcn0
import proofs.«178143_j39779987096265_1_alg».proof.Proof.Gcn1
import proofs.«178143_j39779987096265_1_alg».proof.Proof.Gcn2
import proofs.«178143_j39779987096265_1_alg».proof.Proof.Gcn3
import proofs.«178143_j39779987096265_1_alg».proof.Proof.AttnDat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s unscoped buffers at launch. -/
abbrev W0 (c : Dev nD) : Valuation τ sig (Elt F) := fun b => m (c, b)
abbrev VV0 : (c : Dev nD) → (b : Ref sig .tc) → Buf (Elt F) ((c : Thread nD τ).loc b) := fun c b => W0 m c b
/-- After region 0: `main_v0` holds the first source layer. -/
def W1 (c : Dev nD) : Valuation τ sig (Elt F) := Function.update (W0 m c) main_v0 ((dat0 (VV0 m) c).arrAt 3 cfg0.N)
abbrev VV1 : (c : Dev nD) → (b : Ref sig .tc) → Buf (Elt F) ((c : Thread nD τ).loc b) := fun c b => W1 m c b
/-- After region 1: `main_v1` holds the second source layer. -/
def W2 (c : Dev nD) : Valuation τ sig (Elt F) := Function.update (W1 m c) main_v1 ((dat1 (VV1 m) c).arrAt 3 cfg1.N)
abbrev VV2 : (c : Dev nD) → (b : Ref sig .tc) → Buf (Elt F) ((c : Thread nD τ).loc b) := fun c b => W2 m c b
/-- After region 2: `main_v2` holds the first target layer. -/
def W3 (c : Dev nD) : Valuation τ sig (Elt F) := Function.update (W2 m c) main_v2 ((dat2 (VV2 m) c).arrAt 3 cfg2.N)
abbrev VV3 : (c : Dev nD) → (b : Ref sig .tc) → Buf (Elt F) ((c : Thread nD τ).loc b) := fun c b => W3 m c b
/-- After region 3: `main_v3` holds the second target layer. -/
def W4 (c : Dev nD) : Valuation τ sig (Elt F) := Function.update (W3 m c) main_v3 ((dat3 (VV3 m) c).arrAt 3 cfg3.N)
abbrev VV4 : (c : Dev nD) → (b : Ref sig .tc) → Buf (Elt F) ((c : Thread nD τ).loc b) := fun c b => W4 m c b
/-- After region 4: the score matrix and the two projections. -/
def W5 (c : Dev nD) : Valuation τ sig (Elt F) :=
  Function.update (Function.update (Function.update (W4 m c) main_v4_0 ((dat4 (VV4 m) c).arrAt 5 cfg4.N))
    main_v4_1 ((dat4 (VV4 m) c).arrAt 6 cfg4.N)) main_v4_2 ((dat4 (VV4 m) c).arrAt 7 cfg4.N)
abbrev VV5 : (c : Dev nD) → (b : Ref sig .tc) → Buf (Elt F) ((c : Thread nD τ).loc b) := fun c b => W5 m c b

/-- A buffer other than region 0's output holds after the region what it held before; the output holds the region's write-backs. -/
theorem W1_of (c : Dev nD) (r : Ref sig .tc) (h : r ≠ main_v0) : W1 m c r = W0 m c r := by
  unfold W1; exact Function.update_of_ne (StableHlo.devRef_ne_of_ne h) _ _
theorem W1_out (c : Dev nD) : W1 m c main_v0 = (dat0 (VV0 m) c).arrAt 3 cfg0.N := by
  unfold W1; exact Function.update_self _ _ _

/-- A buffer other than region 1's output holds after the region what it held before; the output holds the region's write-backs. -/
theorem W2_of (c : Dev nD) (r : Ref sig .tc) (h : r ≠ main_v1) : W2 m c r = W1 m c r := by
  unfold W2; exact Function.update_of_ne (StableHlo.devRef_ne_of_ne h) _ _
theorem W2_out (c : Dev nD) : W2 m c main_v1 = (dat1 (VV1 m) c).arrAt 3 cfg1.N := by
  unfold W2; exact Function.update_self _ _ _

/-- A buffer other than region 2's output holds after the region what it held before; the output holds the region's write-backs. -/
theorem W3_of (c : Dev nD) (r : Ref sig .tc) (h : r ≠ main_v2) : W3 m c r = W2 m c r := by
  unfold W3; exact Function.update_of_ne (StableHlo.devRef_ne_of_ne h) _ _
theorem W3_out (c : Dev nD) : W3 m c main_v2 = (dat2 (VV2 m) c).arrAt 3 cfg2.N := by
  unfold W3; exact Function.update_self _ _ _

/-- A buffer other than region 3's output holds after the region what it held before; the output holds the region's write-backs. -/
theorem W4_of (c : Dev nD) (r : Ref sig .tc) (h : r ≠ main_v3) : W4 m c r = W3 m c r := by
  unfold W4; exact Function.update_of_ne (StableHlo.devRef_ne_of_ne h) _ _
theorem W4_out (c : Dev nD) : W4 m c main_v3 = (dat3 (VV3 m) c).arrAt 3 cfg3.N := by
  unfold W4; exact Function.update_self _ _ _

theorem W5_of (c : Dev nD) (r : Ref sig .tc) (h : r ∉ ([main_v4_0, main_v4_1, main_v4_2] : List (Ref sig .tc))) : W5 m c r = W4 m c r := by
  unfold W5
  rw [Function.update_of_ne (StableHlo.devRef_ne_of_ne (List.ne_of_not_mem_cons (List.not_mem_of_not_mem_cons (List.not_mem_of_not_mem_cons h))) : (Proc.devRef .tc r : DevRef τ sig) ≠ Proc.devRef .tc main_v4_2),
    Function.update_of_ne (StableHlo.devRef_ne_of_ne (List.ne_of_not_mem_cons (List.not_mem_of_not_mem_cons h)) : (Proc.devRef .tc r : DevRef τ sig) ≠ Proc.devRef .tc main_v4_1),
    Function.update_of_ne (StableHlo.devRef_ne_of_ne (List.ne_of_not_mem_cons h) : (Proc.devRef .tc r : DevRef τ sig) ≠ Proc.devRef .tc main_v4_0)]
theorem W5_out0 (c : Dev nD) : W5 m c main_v4_0 = (dat4 (VV4 m) c).arrAt 5 cfg4.N := by
  unfold W5
  rw [Function.update_of_ne (StableHlo.devRef_ne_of_ne (by decide) : (Proc.devRef .tc main_v4_0 : DevRef τ sig) ≠ Proc.devRef .tc main_v4_2),
    Function.update_of_ne (StableHlo.devRef_ne_of_ne (by decide) : (Proc.devRef .tc main_v4_0 : DevRef τ sig) ≠ Proc.devRef .tc main_v4_1),
    Function.update_self]
theorem W5_out1 (c : Dev nD) : W5 m c main_v4_1 = (dat4 (VV4 m) c).arrAt 6 cfg4.N := by
  unfold W5
  rw [Function.update_of_ne (StableHlo.devRef_ne_of_ne (by decide) : (Proc.devRef .tc main_v4_1 : DevRef τ sig) ≠ Proc.devRef .tc main_v4_2),
    Function.update_self]
theorem W5_out2 (c : Dev nD) : W5 m c main_v4_2 = (dat4 (VV4 m) c).arrAt 7 cfg4.N := by
  unfold W5; rw [Function.update_self]

/-- An argument's buffer is never written: at the end it holds its launch contents. -/
theorem W5_arg (c : Dev nD) (r : Ref sig .tc)
    (h : r ∉ ([main_v0, main_v1, main_v2, main_v3, main_v4_0, main_v4_1, main_v4_2] : List (Ref sig .tc))) :
    W5 m c r = m ((c : Thread nD τ).loc r) := by
  have n0 : r ≠ main_v0 := List.ne_of_not_mem_cons h
  have h1 := List.not_mem_of_not_mem_cons h
  have n1 : r ≠ main_v1 := List.ne_of_not_mem_cons h1
  have h2 := List.not_mem_of_not_mem_cons h1
  have n2 : r ≠ main_v2 := List.ne_of_not_mem_cons h2
  have h3 := List.not_mem_of_not_mem_cons h2
  have n3 : r ≠ main_v3 := List.ne_of_not_mem_cons h3
  have h4 := List.not_mem_of_not_mem_cons h3
  exact (W5_of m c r h4).trans ((W4_of m c r n3).trans ((W3_of m c r n2).trans ((W2_of m c r n1).trans (W1_of m c r n0))))

end Cert.KernelIdeal.Hand

end
-- ==== Proof.AttnRuns.lean ====
/-
  The attention body (region 4), run once in each of its three control cases on whole staging memrefs: the input
  blocks are left as they were, the score tile's buffer ends at the tile `exp ((x0 · x3) · x2ᵀ)`, the two
  accumulators end at one update of what they held (of the zero blocks when the case resets them), and in the last
  case the two projection buffers end at the accumulators' products with `x4`; a projection buffer the case does not
  store into is handed back as it was.
-/
import proofs.«178143_j39779987096265_1_alg».proof.Proof.Gen.KernelIdeal.Launch
import proofs.«178143_j39779987096265_1_alg».proof.Proof.Gen.KernelIdeal.Skeleton
import proofs.«178143_j39779987096265_1_alg».proof.Proof.Gen.KernelIdeal.Points
import proofs.«178143_j39779987096265_1_alg».proof.Proof.AttnDat
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (c : Dev nD) (E : Set ℕ)

/-- The offsets `![0, 0]` of a whole-shape rectangle of rank 2 are the zero function. -/
private theorem hz2 : (![0, 0] : Fin 2 → ℕ) = fun _ => 0 := by funext a; fin_cases a <;> rfl

set_option maxHeartbeats 4000000 in
/-- Case `j = 0`: the accumulators are reset, then updated; nothing is stored into the projection buffers. -/
theorem sound_kernel4_A (i : grid4.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole)
    (hc0 : cond4_0 i) (hc1 : ¬cond4_1 i)
    (x0 x1 x2 : Vec F S1024x128 .f32) (x3 x4 : Vec F S128x128 .f32) (xi6 xi7 : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare xi6 ∗ owns (c : Thread nD τ) arg9 fullShare xi7
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k4_pay8 x0 x3 x2) ∗ owns (c : Thread nD τ) arg8 fullShare xi6 ∗ owns (c : Thread nD τ) arg9 fullShare xi7
            ∗ owns (c : Thread nD τ) arg10 fullShare (k4_pay10 x0 x3 x2 x1 k4_pay5) ∗ owns (c : Thread nD τ) arg11 fullShare (k4_pay1 (k4_pay11 x0 x3 x2 k4_pay6))) -∗ K ⟨⟩))
      ⊢ wp frame (wpE (defs₀ (F := F)) Variants.none c none) E (cc4__attn_kernel i arg2 harg2 arg3 harg3 arg4 harg4 arg5 harg5 arg6 harg6 arg7 harg7 arg8 harg8 arg9 harg9 arg10 harg10 arg11 harg11) K := by
  simp only [cc4__attn_kernel_eq_skeleton]; unfold cc4__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, ⟨%d11, %f11, -, H11⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.Mem.head _, View.mem_set_unit_zero hz2 inb_S1024x1024_S1024x1024_0_0 y⟩),
      View.canon_cons_unit_zero hz2]
    simp only [View.readAt_eq_ld, harg2.read_unread, harg3.read_unread, harg4.read_unread, harg5.read_unread,
      harg6.read_unread, harg10.read_unread, harg11.read_unread, View.readCov_unit_zero (S := S1024x128) _ hz2,
      View.ld_unit_zero (S := S1024x128) hz2, View.ld_unit_zero (S := S128x128) hz2]
  isplitl [H8]
  · iexists _; isplitr; · ipureintro; exact hf8
    iexact H8
  isplitl [H9]
  · iexists _; isplitr; · ipureintro; exact hf9
    iexact H9
  isplitl [H10]
  · iexists _; isplitr
    swap; · iexact H10
    ipureintro
    sl_unfold_words
    rw [View.read_writes_eq_canon _ _ _ (fun y => ⟨_, List.Mem.head _, View.mem_set_unit_zero hz2 inb_S1024x128_S1024x128_0_0 y⟩),
      View.canon_cons_unit_zero hz2]
    simp only [View.readAt_eq_ld, harg2.read_unread, harg3.read_unread, harg4.read_unread, harg5.read_unread,
      harg6.read_unread, harg10.read_unread, harg11.read_unread, View.readCov_unit_zero (S := S1024x128) _ hz2,
      View.ld_unit_zero (S := S1024x128) hz2, View.ld_unit_zero (S := S128x128) hz2]
  iexists _; isplitr
  swap; · iexact H11
  ipureintro
  sl_unfold_words
  rw [View.read_writes_eq_canon _ _ _ (fun y => ⟨_, List.Mem.head _, View.mem_set_unit_zero hz2 inb_S1024x128_S1024x128_0_0 y⟩),
    View.canon_cons_unit_zero hz2]
  simp only [View.readAt_eq_ld, harg2.read_unread, harg3.read_unread, harg4.read_unread, harg5.read_unread,
    harg6.read_unread, harg10.read_unread, harg11.read_unread, View.readCov_unit_zero (S := S1024x128) _ hz2,
    View.ld_unit_zero (S := S1024x128) hz2, View.ld_unit_zero (S := S128x128) hz2]

set_option maxHeartbeats 4000000 in
/-- Case `j = 1, 2`: the accumulators are updated from what the point before left; nothing is stored into the projection buffers. -/
theorem sound_kernel4_B (i : grid4.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole)
    (hc0 : ¬cond4_0 i) (hc1 : ¬cond4_1 i)
    (x0 x1 x2 : Vec F S1024x128 .f32) (x3 x4 : Vec F S128x128 .f32) (xi6 xi7 xs0 xs1 : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare xi6 ∗ owns (c : Thread nD τ) arg9 fullShare xi7
        ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k4_pay8 x0 x3 x2) ∗ owns (c : Thread nD τ) arg8 fullShare xi6 ∗ owns (c : Thread nD τ) arg9 fullShare xi7
            ∗ owns (c : Thread nD τ) arg10 fullShare (k4_pay10 x0 x3 x2 x1 xs0) ∗ owns (c : Thread nD τ) arg11 fullShare (k4_pay1 (k4_pay11 x0 x3 x2 xs1))) -∗ K ⟨⟩))
      ⊢ wp frame (wpE (defs₀ (F := F)) Variants.none c none) E (cc4__attn_kernel i arg2 harg2 arg3 harg3 arg4 harg4 arg5 harg5 arg6 harg6 arg7 harg7 arg8 harg8 arg9 harg9 arg10 harg10 arg11 harg11) K := by
  simp only [cc4__attn_kernel_eq_skeleton]; unfold cc4__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4
  obtain rfl := harg5.eq_unread hf5; obtain rfl := harg6.eq_unread hf6
  obtain rfl := harg10.eq_unread hf10; obtain rfl := harg11.eq_unread hf11
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.Mem.head _, View.mem_set_unit_zero hz2 inb_S1024x1024_S1024x1024_0_0 y⟩),
      View.canon_cons_unit_zero hz2]
    simp only [View.readAt_eq_ld, harg2.read_unread, harg3.read_unread, harg4.read_unread, harg5.read_unread,
      harg6.read_unread, harg10.read_unread, harg11.read_unread, View.readCov_unit_zero (S := S1024x128) _ hz2,
      View.ld_unit_zero (S := S1024x128) hz2, View.ld_unit_zero (S := S128x128) hz2]
  isplitl [H8]
  · iexists _; isplitr; · ipureintro; exact hf8
    iexact H8
  isplitl [H9]
  · iexists _; isplitr; · ipureintro; exact hf9
    iexact H9
  isplitl [H10]
  · iexists _; isplitr
    swap; · iexact H10
    ipureintro
    sl_unfold_words
    rw [View.read_writes_eq_canon _ _ _ (fun y => ⟨_, List.Mem.head _, View.mem_set_unit_zero hz2 inb_S1024x128_S1024x128_0_0 y⟩),
      View.canon_cons_unit_zero hz2]
    simp only [View.readAt_eq_ld, harg2.read_unread, harg3.read_unread, harg4.read_unread, harg5.read_unread,
      harg6.read_unread, harg10.read_unread, harg11.read_unread, View.readCov_unit_zero (S := S1024x128) _ hz2,
      View.ld_unit_zero (S := S1024x128) hz2, View.ld_unit_zero (S := S128x128) hz2]
  iexists _; isplitr
  swap; · iexact H11
  ipureintro
  sl_unfold_words
  rw [View.read_writes_eq_canon _ _ _ (fun y => ⟨_, List.Mem.head _, View.mem_set_unit_zero hz2 inb_S1024x128_S1024x128_0_0 y⟩),
    View.canon_cons_unit_zero hz2]
  simp only [View.readAt_eq_ld, harg2.read_unread, harg3.read_unread, harg4.read_unread, harg5.read_unread,
    harg6.read_unread, harg10.read_unread, harg11.read_unread, View.readCov_unit_zero (S := S1024x128) _ hz2,
    View.ld_unit_zero (S := S1024x128) hz2, View.ld_unit_zero (S := S128x128) hz2]

set_option maxHeartbeats 4000000 in
/-- Case `j = 3`: the accumulators are updated, and their products with `x4` are stored into the two projection buffers. -/
theorem sound_kernel4_C (i : grid4.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole)
    (hc0 : ¬cond4_0 i) (hc1 : cond4_1 i)
    (x0 x1 x2 : Vec F S1024x128 .f32) (x3 x4 : Vec F S128x128 .f32) (xs0 xs1 : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k4_pay8 x0 x3 x2)
            ∗ owns (c : Thread nD τ) arg8 fullShare (k4_pay3 x4 (k4_pay10 x0 x3 x2 x1 xs0)) ∗ owns (c : Thread nD τ) arg9 fullShare (k4_pay4 x4 (k4_pay1 (k4_pay11 x0 x3 x2 xs1)))
            ∗ owns (c : Thread nD τ) arg10 fullShare (k4_pay10 x0 x3 x2 x1 xs0) ∗ owns (c : Thread nD τ) arg11 fullShare (k4_pay1 (k4_pay11 x0 x3 x2 xs1))) -∗ K ⟨⟩))
      ⊢ wp frame (wpE (defs₀ (F := F)) Variants.none c none) E (cc4__attn_kernel i arg2 harg2 arg3 harg3 arg4 harg4 arg5 harg5 arg6 harg6 arg7 harg7 arg8 harg8 arg9 harg9 arg10 harg10 arg11 harg11) K := by
  simp only [cc4__attn_kernel_eq_skeleton]; unfold cc4__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, Hk⟩
  obtain rfl := harg2.eq_unread hf2; obtain rfl := harg3.eq_unread hf3; obtain rfl := harg4.eq_unread hf4
  obtain rfl := harg5.eq_unread hf5; obtain rfl := harg6.eq_unread hf6
  obtain rfl := harg10.eq_unread hf10; obtain rfl := harg11.eq_unread hf11
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.Mem.head _, View.mem_set_unit_zero hz2 inb_S1024x1024_S1024x1024_0_0 y⟩),
      View.canon_cons_unit_zero hz2]
    simp only [View.readAt_eq_ld, harg2.read_unread, harg3.read_unread, harg4.read_unread, harg5.read_unread,
      harg6.read_unread, harg10.read_unread, harg11.read_unread, View.readCov_unit_zero (S := S1024x128) _ hz2,
      View.ld_unit_zero (S := S1024x128) hz2, View.ld_unit_zero (S := S128x128) hz2]
  isplitl [H8]
  · iexists _; isplitr
    swap; · iexact H8
    ipureintro
    sl_unfold_words
    rw [View.read_writes_eq_canon _ _ _ (fun y => ⟨_, List.Mem.head _, View.mem_set_unit_zero hz2 inb_S1024x128_S1024x128_0_0 y⟩),
      View.canon_cons_unit_zero hz2]
    simp only [View.readAt_eq_ld, harg2.read_unread, harg3.read_unread, harg4.read_unread, harg5.read_unread,
      harg6.read_unread, harg10.read_unread, harg11.read_unread, View.readCov_unit_zero (S := S1024x128) _ hz2,
      View.ld_unit_zero (S := S1024x128) hz2, View.ld_unit_zero (S := S128x128) hz2]
  isplitl [H9]
  · iexists _; isplitr
    swap; · iexact H9
    ipureintro
    sl_unfold_words
    rw [View.read_writes_eq_canon _ _ _ (fun y => ⟨_, List.Mem.head _, View.mem_set_unit_zero hz2 inb_S1024x128_S1024x128_0_0 y⟩),
      View.canon_cons_unit_zero hz2]
    simp only [View.readAt_eq_ld, harg2.read_unread, harg3.read_unread, harg4.read_unread, harg5.read_unread,
      harg6.read_unread, harg10.read_unread, harg11.read_unread, View.readCov_unit_zero (S := S1024x128) _ hz2,
      View.ld_unit_zero (S := S1024x128) hz2, View.ld_unit_zero (S := S128x128) hz2]
  isplitl [H10]
  · iexists _; isplitr
    swap; · iexact H10
    ipureintro
    sl_unfold_words
    rw [View.read_writes_eq_canon _ _ _ (fun y => ⟨_, List.Mem.head _, View.mem_set_unit_zero hz2 inb_S1024x128_S1024x128_0_0 y⟩),
      View.canon_cons_unit_zero hz2]
    simp only [View.readAt_eq_ld, harg2.read_unread, harg3.read_unread, harg4.read_unread, harg5.read_unread,
      harg6.read_unread, harg10.read_unread, harg11.read_unread, View.readCov_unit_zero (S := S1024x128) _ hz2,
      View.ld_unit_zero (S := S1024x128) hz2, View.ld_unit_zero (S := S128x128) hz2]
  iexists _; isplitr
  swap; · iexact H11
  ipureintro
  sl_unfold_words
  rw [View.read_writes_eq_canon _ _ _ (fun y => ⟨_, List.Mem.head _, View.mem_set_unit_zero hz2 inb_S1024x128_S1024x128_0_0 y⟩),
    View.canon_cons_unit_zero hz2]
  simp only [View.readAt_eq_ld, harg2.read_unread, harg3.read_unread, harg4.read_unread, harg5.read_unread,
    harg6.read_unread, harg10.read_unread, harg11.read_unread, View.readCov_unit_zero (S := S1024x128) _ hz2,
    View.ld_unit_zero (S := S1024x128) hz2, View.ld_unit_zero (S := S128x128) hz2]

end Cert.KernelIdeal.Hand

end
-- ==== Proof.AttnBody.lean ====
/-
  The attention region's body obligation at every grid point, and how its invariant starts from and gives back the
  class's: at a point the inputs' staging buffers hold their blocks, the case is read off `j`, the accumulators are
  what the point before left (anything before the first point), and the case's run applies.
-/
import proofs.«178143_j39779987096265_1_alg».proof.Proof.Gen.KernelIdeal.Launch
import proofs.«178143_j39779987096265_1_alg».proof.Proof.Gen.KernelIdeal.Skeleton
import proofs.«178143_j39779987096265_1_alg».proof.Proof.Gen.KernelIdeal.Points
import proofs.«178143_j39779987096265_1_alg».proof.Proof.AttnDat
import proofs.«178143_j39779987096265_1_alg».proof.Proof.AttnRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant, by the position -/

/-- The grid has sixteen points. -/
theorem N4 : cfg4.N = 16 := N_4

theorem PhiS4_zero (c : Dev nD) (n : ℕ) (h : n ≤ cfg4.N) (hz : n = 0) : PhiS4 V c n h = Pipeline.ΦA spec4 c := by
  subst hz; rfl

/-- After point `n`: the two accumulators at that point's contents. -/
theorem PhiS4_succ (c : Dev nD) (n : ℕ) (hn : n < cfg4.N) :
    PhiS4 V c (n + 1) hn = iprop(iprop(owns (c : Thread nD τ) scM4_0 fullShare (accAt4 V c n hn).1 ∗ owns (c : Thread nD τ) scM4_1 fullShare (accAt4 V c n hn).2
      ∗ Pipeline.scopedRestBut (Ix := Unit) (Name := ℕ) (U := UR sig nD τ) (Lvl := ℕ) (Val := Elt F) spec4 c [cc4_scratch0, cc4_scratch1]) ∗ (∃ r, prngReg c r)) := rfl

/-- Before a point that is not the first: the two accumulators at what the point before left. -/
theorem PhiS4_pos (c : Dev nD) (n : ℕ) (h : n ≤ cfg4.N) (hz : n ≠ 0) :
    PhiS4 V c n h = iprop(iprop(owns (c : Thread nD τ) scM4_0 fullShare (accAt4 V c (n - 1) (by omega)).1 ∗ owns (c : Thread nD τ) scM4_1 fullShare (accAt4 V c (n - 1) (by omega)).2
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-- The class's invariant with the two accumulators as memrefs owned at some contents, the other scoped buffers
    unopened. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-- The invariant at a point's start, restated at the point's position. -/
theorem PhiS4_castSucc (c : Dev nD) (t : Fin cfg4.N) :
    (dat4 V c).Φ t.castSucc = PhiS4 V c t.val (Nat.le_of_lt t.isLt) := by
  dsimp only [dat4]; simp only [Fin.coe_castSucc]

/-! ## What the inputs' staging buffers hold at a point

An input's current buffer holds its block whether or not the point fetched it: the body leaves each input block in
place, and a window that is not fetched has the block index of the point before. -/

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4 V c 0]; try rfl) t d).trans
    (by unfold Dat.fetched Dat.blockOf iblk4; rw [A_eq4 V c 0]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4 V c 1]; try rfl) t d).trans
    (by unfold Dat.fetched Dat.blockOf iblk4; rw [A_eq4 V c 1]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4 V c 2]; try rfl) t d).trans
    (by unfold Dat.fetched Dat.blockOf iblk4; rw [A_eq4 V c 2]; try rfl)
theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4 V c 3]; try rfl) t d).trans
    (by unfold Dat.fetched Dat.blockOf iblk4; rw [A_eq4 V c 3]; try rfl)
theorem before4_4 (c : Dev nD) (t : Fin cfg4.N) (d) : (dat4 V c).before 4 t d = iblk4 V c 4 t :=
  ((dat4 V c).before_in_eq_fetched 4 rfl (fun _ => rfl) (fun _ _ _ => rfl)
    (fun t => by rw [after4_4]; unfold Dat.blockOf iblk4; rw [A_eq4 V c 4]; try rfl) t d).trans
    (by unfold Dat.fetched Dat.blockOf iblk4; rw [A_eq4 V c 4]; try rfl)

/-! ## Where the windows are live

The inputs and the score tile are live at every point. The two projection windows are stored, and written back, exactly
at the points with `j = 3`; elsewhere they are idle and their buffers are handed back as found. -/

theorem liveAt4_0 : ∀ t : Fin cfg4.N, cfg4.idle 0 (grid4.coords t) = false :=
  (by decide +kernel : ∀ t : Fin grid4.N, idle4 0 (grid4.coords t) = false)
theorem liveAt4_1 : ∀ t : Fin cfg4.N, cfg4.idle 1 (grid4.coords t) = false :=
  (by decide +kernel : ∀ t : Fin grid4.N, idle4 1 (grid4.coords t) = false)
theorem liveAt4_2 : ∀ t : Fin cfg4.N, cfg4.idle 2 (grid4.coords t) = false :=
  (by decide +kernel : ∀ t : Fin grid4.N, idle4 2 (grid4.coords t) = false)
theorem liveAt4_3 : ∀ t : Fin cfg4.N, cfg4.idle 3 (grid4.coords t) = false :=
  (by decide +kernel : ∀ t : Fin grid4.N, idle4 3 (grid4.coords t) = false)
theorem liveAt4_4 : ∀ t : Fin cfg4.N, cfg4.idle 4 (grid4.coords t) = false :=
  (by decide +kernel : ∀ t : Fin grid4.N, idle4 4 (grid4.coords t) = false)
theorem liveAt4_5 : ∀ t : Fin cfg4.N, cfg4.idle 5 (grid4.coords t) = false :=
  (by decide +kernel : ∀ t : Fin grid4.N, idle4 5 (grid4.coords t) = false)
theorem idleAt4_6 : ∀ t : Fin cfg4.N, ¬t.val % 4 = 3 → cfg4.idle 6 (grid4.coords t) = true :=
  (by decide +kernel : ∀ t : Fin grid4.N, ¬t.val % 4 = 3 → idle4 6 (grid4.coords t) = true)
theorem liveAt4_6 : ∀ t : Fin cfg4.N, t.val % 4 = 3 → cfg4.idle 6 (grid4.coords t) = false :=
  (by decide +kernel : ∀ t : Fin grid4.N, t.val % 4 = 3 → idle4 6 (grid4.coords t) = false)
theorem noFlush4_6 (t : Fin cfg4.N) (h : ¬t.val % 4 = 3) : (cfg4.win 6).flush t = false := by
  cases hf : (cfg4.win 6).flush t with
  | false => rfl
  | true => exact absurd ((flush4_6 t).mp hf) h
theorem idleAt4_7 : ∀ t : Fin cfg4.N, ¬t.val % 4 = 3 → cfg4.idle 7 (grid4.coords t) = true :=
  (by decide +kernel : ∀ t : Fin grid4.N, ¬t.val % 4 = 3 → idle4 7 (grid4.coords t) = true)
theorem liveAt4_7 : ∀ t : Fin cfg4.N, t.val % 4 = 3 → cfg4.idle 7 (grid4.coords t) = false :=
  (by decide +kernel : ∀ t : Fin grid4.N, t.val % 4 = 3 → idle4 7 (grid4.coords t) = false)
theorem noFlush4_7 (t : Fin cfg4.N) (h : ¬t.val % 4 = 3) : (cfg4.win 7).flush t = false := by
  cases hf : (cfg4.win 7).flush t with
  | false => rfl
  | true => exact absurd ((flush4_7 t).mp hf) h

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 4800000 in
/-- The body at any point. The inputs' buffers hold their blocks; `j` says which of the three cases the point is in:
    `j = 0` resets the accumulators (so what they held does not matter: anything at the first point, what the row
    block before left otherwise), `j = 1, 2` add to what the point before left, `j = 3` adds and stores the two
    projections of the accumulators. The score tile is stored at every point; the projection buffers are handed back
    as found unless `j = 3`. The invariant takes the accumulators back at this point's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  have hN : t.val < 16 := lt_of_lt_of_eq t.isLt N4
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  by_cases h0 : t.val % 4 = 0
  · have h1 : ¬t.val % 4 = 3 := by omega
    rw [Dat.leavesExact_idle (dat4 V c) 6 t (idleAt4_6 t h1) (noFlush4_6 t h1)]
    rw [Dat.leavesExact_idle (dat4 V c) 7 t (idleAt4_7 t h1) (noFlush4_7 t h1)]
    rw [accAt4_reset V c t h0]
    unfold accStep; dsimp only
    by_cases hz : t.val = 0
    · rw [PhiS4_castSucc V c t, PhiS4_zero V c _ _ hz, PhiA4_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel4_A c Set.univ (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (xsI V c t) (xsJ V c t) (xtJ V c t) (w3B V c t) (w4B V c t) ((dat4 V c).before 6 t d6) ((dat4 V c).before 7 t d7) _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7
    · rw [PhiS4_castSucc V c t, PhiS4_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel4_A c Set.univ (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (xsI V c t) (xsJ V c t) (xtJ V c t) (w3B V c t) (w4B V c t) ((dat4 V c).before 6 t d6) ((dat4 V c).before 7 t d7) _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexists _; iexact HS0
      isplitl [HS1]; · iexists _; iexact HS1
      iintro ⟨H0, H1, H2, H3, H4, H5, H6, H7, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7
  · have hz : t.val ≠ 0 := fun e => h0 (by rw [e])
    by_cases h1 : t.val % 4 = 3
    ·
      rw [show (dat4 V c).leavesExact 6 t = owns (c : Thread nD τ) (ms4_6 t) fullShare ((dat4 V c).after 6 t) from by
        unfold Dat.leavesExact; rw [liveAt4_6 t h1], after4_6]
      rw [show (dat4 V c).leavesExact 7 t = owns (c : Thread nD τ) (ms4_7 t) fullShare ((dat4 V c).after 7 t) from by
        unfold Dat.leavesExact; rw [liveAt4_7 t h1], after4_7]
      rw [accAt4_step V c t h0]
      unfold accStep; dsimp only
      rw [PhiS4_castSucc V c t, PhiS4_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel4_C c Set.univ (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (xsI V c t) (xsJ V c t) (xtJ V c t) (w3B V c t) (w4B V c t) (accAt4 V c (t.val - 1) (Nat.lt_of_le_of_lt (Nat.sub_le _ _) t.isLt)).1 (accAt4 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    ·
      rw [Dat.leavesExact_idle (dat4 V c) 6 t (idleAt4_6 t h1) (noFlush4_6 t h1)]
      rw [Dat.leavesExact_idle (dat4 V c) 7 t (idleAt4_7 t h1) (noFlush4_7 t h1)]
      rw [accAt4_step V c t h0]
      unfold accStep; dsimp only
      rw [PhiS4_castSucc V c t, PhiS4_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel4_B c Set.univ (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (xsI V c t) (xsJ V c t) (xtJ V c t) (w3B V c t) (w4B V c t) ((dat4 V c).before 6 t d6) ((dat4 V c).before 7 t d7) (accAt4 V c (t.val - 1) (Nat.lt_of_le_of_lt (Nat.sub_le _ _) t.isLt)).1 (accAt4 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 (F := F) V c).Φ 0 := by
  rw [show (dat4 V c).Φ 0 = PhiS4 V c 0 (Nat.zero_le _) from rfl, PhiS4_zero V c 0 _ rfl]
  try exact Idealize.SL.BI.Entails.refl _

/-- After any point but the first the invariant gives the class's back: what the accumulators hold is forgotten. -/
theorem Phi_out4 (c : Dev nD) (t : Fin (cfg4.N + 1)) (ht : t.val ≠ 0) : (dat4 (F := F) V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HS1, HR⟩, Hg⟩
  isplitl [HS0 HS1 HR]
  · isplitl [HS0 HS1]
    · isplitl [HS0]
      · iexists _; iexact HS0
      · iexists _; iexact HS1
    · iexact HR
  iexact Hg

/-- After the last point the invariant gives the class's back: the accumulators' contents are forgotten. -/
theorem hout4 (c : Dev nD) : (dat4 (F := F) V c).Φ (Fin.last cfg4.N) ⊢ Pipeline.ΦA spec4 c :=
  Phi_out4 V c _ (by rw [Fin.val_last]; have : cfg4.N = 16 := N_4; omega)

end Cert.KernelIdeal.Hand

end
-- ==== Proof.Regs.lean ====
/-
  The five regions as the segments of @main, over thread states "every unscoped buffer at named contents, the generator
  register at some state, nothing owed", and the run of the whole program: every weakly fair execution terminates with
  every unscoped buffer at the last contents, the arguments among them as launched.
-/
import proofs.«178143_j39779987096265_1_alg».proof.Proof.Gen.KernelIdeal.Launch
import proofs.«178143_j39779987096265_1_alg».proof.Proof.Gen.KernelIdeal.Skeleton
import proofs.«178143_j39779987096265_1_alg».proof.Proof.Gen.KernelIdeal.Points
import proofs.«178143_j39779987096265_1_alg».proof.Proof.Fold
import proofs.«178143_j39779987096265_1_alg».proof.Proof.AttnBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The proof data family and the thread state -/

abbrev adm : (p : Fin 5) → (pcfgs (F := F) p).Adm := fun p => (cfgs p).toPCfg_adm
/-- Every region's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (VV0 m) c
  | ⟨1, _⟩ => fun c => dat1 (VV1 m) c
  | ⟨2, _⟩ => fun c => dat2 (VV2 m) c
  | ⟨3, _⟩ => fun c => dat3 (VV3 m) c
  | ⟨4, _⟩ => fun c => dat4 (VV4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-! ## Region 0 -/

/-- At region 0's exit each of its arrays holds what the pipeline leaves: an input what it held, the output its write-backs. -/
theorem hF0 (c : Dev nD) (w : Fin cfg0.W) : (dat0 (VV0 m) c).arrAt w cfg0.N = VV1 m c (Pipeline.arrRef spec0 w) := by
  match w with
  | ⟨0, _⟩ => exact ((dat0 (VV0 m) c).arrAt_in 0 rfl _).trans ((A_eq0 (VV0 m) c 0).trans (W1_of m c _ (by decide)).symm)
  | ⟨1, _⟩ => exact ((dat0 (VV0 m) c).arrAt_in 1 rfl _).trans ((A_eq0 (VV0 m) c 1).trans (W1_of m c _ (by decide)).symm)
  | ⟨2, _⟩ => exact ((dat0 (VV0 m) c).arrAt_in 2 rfl _).trans ((A_eq0 (VV0 m) c 2).trans (W1_of m c _ (by decide)).symm)
  | ⟨3, _⟩ => exact (W1_out m c).symm
/-- Every other buffer holds what it held at entry. -/
theorem hrest0 (c : Dev nD) : ∀ b, b ∉ Finset.univ.image (Pipeline.arrRef spec0) → VV1 m c b = VV0 m c b :=
  fun b hb => W1_of m c b fun e => hb (Finset.mem_image.mpr ⟨3, Finset.mem_univ _, e.symm⟩)

set_option backward.isDefEq.respectTransparency.types false in
/-- Region 0 over the thread state: its arrays split out of the unscoped buffers and put back at the exit contents; the
    generator register into the class invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VV0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV0 m c) (VV1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- At region 1's exit each of its arrays holds what the pipeline leaves: an input what it held, the output its write-backs. -/
theorem hF1 (c : Dev nD) (w : Fin cfg1.W) : (dat1 (VV1 m) c).arrAt w cfg1.N = VV2 m c (Pipeline.arrRef spec1 w) := by
  match w with
  | ⟨0, _⟩ => exact ((dat1 (VV1 m) c).arrAt_in 0 rfl _).trans ((A_eq1 (VV1 m) c 0).trans (W2_of m c _ (by decide)).symm)
  | ⟨1, _⟩ => exact ((dat1 (VV1 m) c).arrAt_in 1 rfl _).trans ((A_eq1 (VV1 m) c 1).trans (W2_of m c _ (by decide)).symm)
  | ⟨2, _⟩ => exact ((dat1 (VV1 m) c).arrAt_in 2 rfl _).trans ((A_eq1 (VV1 m) c 2).trans (W2_of m c _ (by decide)).symm)
  | ⟨3, _⟩ => exact (W2_out m c).symm
/-- Every other buffer holds what it held at entry. -/
theorem hrest1 (c : Dev nD) : ∀ b, b ∉ Finset.univ.image (Pipeline.arrRef spec1) → VV2 m c b = VV1 m c b :=
  fun b hb => W2_of m c b fun e => hb (Finset.mem_image.mpr ⟨3, Finset.mem_univ _, e.symm⟩)

set_option backward.isDefEq.respectTransparency.types false in
/-- Region 1 over the thread state: its arrays split out of the unscoped buffers and put back at the exit contents; the
    generator register into the class invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (VV1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV1 m c) (VV2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- At region 2's exit each of its arrays holds what the pipeline leaves: an input what it held, the output its write-backs. -/
theorem hF2 (c : Dev nD) (w : Fin cfg2.W) : (dat2 (VV2 m) c).arrAt w cfg2.N = VV3 m c (Pipeline.arrRef spec2 w) := by
  match w with
  | ⟨0, _⟩ => exact ((dat2 (VV2 m) c).arrAt_in 0 rfl _).trans ((A_eq2 (VV2 m) c 0).trans (W3_of m c _ (by decide)).symm)
  | ⟨1, _⟩ => exact ((dat2 (VV2 m) c).arrAt_in 1 rfl _).trans ((A_eq2 (VV2 m) c 1).trans (W3_of m c _ (by decide)).symm)
  | ⟨2, _⟩ => exact ((dat2 (VV2 m) c).arrAt_in 2 rfl _).trans ((A_eq2 (VV2 m) c 2).trans (W3_of m c _ (by decide)).symm)
  | ⟨3, _⟩ => exact (W3_out m c).symm
/-- Every other buffer holds what it held at entry. -/
theorem hrest2 (c : Dev nD) : ∀ b, b ∉ Finset.univ.image (Pipeline.arrRef spec2) → VV3 m c b = VV2 m c b :=
  fun b hb => W3_of m c b fun e => hb (Finset.mem_image.mpr ⟨3, Finset.mem_univ _, e.symm⟩)

set_option backward.isDefEq.respectTransparency.types false in
/-- Region 2 over the thread state: its arrays split out of the unscoped buffers and put back at the exit contents; the
    generator register into the class invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VV2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (VV2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VV2 m c) (VV3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- At region 3's exit each of its arrays holds what the pipeline leaves: an input what it held, the output its write-backs. -/
theorem hF3 (c : Dev nD) (w : Fin cfg3.W) : (dat3 (VV3 m) c).arrAt w cfg3.N = VV4 m c (Pipeline.arrRef spec3 w) := by
  match w with
  | ⟨0, _⟩ => exact ((dat3 (VV3 m) c).arrAt_in 0 rfl _).trans ((A_eq3 (VV3 m) c 0).trans (W4_of m c _ (by decide)).symm)
  | ⟨1, _⟩ => exact ((dat3 (VV3 m) c).arrAt_in 1 rfl _).trans ((A_eq3 (VV3 m) c 1).trans (W4_of m c _ (by decide)).symm)
  | ⟨2, _⟩ => exact ((dat3 (VV3 m) c).arrAt_in 2 rfl _).trans ((A_eq3 (VV3 m) c 2).trans (W4_of m c _ (by decide)).symm)
  | ⟨3, _⟩ => exact (W4_out m c).symm
/-- Every other buffer holds what it held at entry. -/
theorem hrest3 (c : Dev nD) : ∀ b, b ∉ Finset.univ.image (Pipeline.arrRef spec3) → VV4 m c b = VV3 m c b :=
  fun b hb => W4_of m c b fun e => hb (Finset.mem_image.mpr ⟨3, Finset.mem_univ _, e.symm⟩)

set_option backward.isDefEq.respectTransparency.types false in
/-- Region 3 over the thread state: its arrays split out of the unscoped buffers and put back at the exit contents; the
    generator register into the class invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VV3 m) c).loose
  hwaits := Pipeline.hwaits_of_owed_zero _ _ _ _ L lv 3 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec3 c (VV3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (VV3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (VV3 m c) (VV4 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4: two input windows sit on one array -/

/-- At region 4's exit each of its arrays holds what the pipeline leaves. -/
theorem hF4 (c : Dev nD) (w : Fin cfg4.W) : (dat4 (VV4 m) c).arrAt w cfg4.N = VV5 m c (Pipeline.arrRef spec4 w) := by
  match w with
  | ⟨0, _⟩ => exact ((dat4 (VV4 m) c).arrAt_in 0 rfl _).trans ((A_eq4 (VV4 m) c 0).trans (W5_of m c _ (by decide)).symm)
  | ⟨1, _⟩ => exact ((dat4 (VV4 m) c).arrAt_in 1 rfl _).trans ((A_eq4 (VV4 m) c 1).trans (W5_of m c _ (by decide)).symm)
  | ⟨2, _⟩ => exact ((dat4 (VV4 m) c).arrAt_in 2 rfl _).trans ((A_eq4 (VV4 m) c 2).trans (W5_of m c _ (by decide)).symm)
  | ⟨3, _⟩ => exact ((dat4 (VV4 m) c).arrAt_in 3 rfl _).trans ((A_eq4 (VV4 m) c 3).trans (W5_of m c _ (by decide)).symm)
  | ⟨4, _⟩ => exact ((dat4 (VV4 m) c).arrAt_in 4 rfl _).trans ((A_eq4 (VV4 m) c 4).trans (W5_of m c _ (by decide)).symm)
  | ⟨5, _⟩ => exact (W5_out0 m c).symm
  | ⟨6, _⟩ => exact (W5_out1 m c).symm
  | ⟨7, _⟩ => exact (W5_out2 m c).symm

theorem arrBufs4_eq (V : (c : Dev nD) → (b : Ref sig .tc) → Buf (Elt F) ((c : Thread nD τ).loc b)) (c : Dev nD) :
    (Pipeline.arrBufs (Ix := Unit) (Name := ℕ) (U := UR sig nD τ) (Lvl := ℕ) spec4 c (V c) : sProp 𝕄)
      = iprop(((c : Thread nD τ).loc main_v1 ↦{fullShare} V c main_v1) ∗ ((c : Thread nD τ).loc main_v3 ↦{fullShare} V c main_v3) ∗ ((c : Thread nD τ).loc main_arg6 ↦{fullShare} V c main_arg6) ∗ ((c : Thread nD τ).loc main_arg7 ↦{fullShare} V c main_arg7) ∗ ((c : Thread nD τ).loc main_v4_0 ↦{fullShare} V c main_v4_0) ∗ ((c : Thread nD τ).loc main_v4_1 ↦{fullShare} V c main_v4_1) ∗ ((c : Thread nD τ).loc main_v4_2 ↦{fullShare} V c main_v4_2)) := by
  unfold Pipeline.arrBufs
  exact bigSep_eq_bigSepL_of_eq [main_v1, main_v3, main_arg6, main_arg7, main_v4_0, main_v4_1, main_v4_2] (by decide) (by decide) _

/-- The region's arrays at contents `G`, window by window: the two half shares of the one buffer first. -/
theorem arrays4_eq (c : Dev nD) (G : (w : Fin cfg4.W) → Buf (Elt F) ((cfg4.win w).arr.view.loc (c : Thread nD τ))) :
    (dat4 (VV4 m) c).arrays G
      = iprop(((c : Thread nD τ).loc main_v1 ↦{fullShare.left} G 0) ∗ ((c : Thread nD τ).loc main_v1 ↦{fullShare.right} G 1) ∗ ((c : Thread nD τ).loc main_v3 ↦{fullShare} G 2) ∗ ((c : Thread nD τ).loc main_arg6 ↦{fullShare} G 3) ∗ ((c : Thread nD τ).loc main_arg7 ↦{fullShare} G 4) ∗ ((c : Thread nD τ).loc main_v4_0 ↦{fullShare} G 5) ∗ ((c : Thread nD τ).loc main_v4_1 ↦{fullShare} G 6) ∗ ((c : Thread nD τ).loc main_v4_2 ↦{fullShare} G 7)) := by
  unfold Pipeline.Dat.arrays
  rw [bigSep_W4]
  simp only [View.set_whole]
  rfl

theorem pt_congr {ℓ : Loc nD τ sig} {q : PosShare TreeShare} {f g : Buf (Elt F) ℓ} (h : f = g) :
    (ℓ ↦{q} f : sProp 𝕄) ⊢ ℓ ↦{q} g := by subst h; exact .rfl

/-- ENTRY: the seven buffers behind the eight windows' arrays make the region's arrays at the entry contents, the one
    buffer two input windows read split into its two half shares. -/
theorem arrays4_entry (c : Dev nD) :
    (Pipeline.arrBufs (Ix := Unit) (Name := ℕ) (U := UR sig nD τ) (Lvl := ℕ) spec4 c (VV4 m c) : sProp 𝕄)
      ⊢ (dat4 (VV4 m) c).arrays ((dat4 (VV4 m) c).arrAt · 0) := by
  rw [arrBufs4_eq (VV4 m) c, arrays4_eq m c]
  iintro ⟨Hm, H3, H6, H7, H40, H41, H42⟩
  ihave Hm2 := (pointsTo_share (PosShare.mem_left_op_right fullShare)).1 $$ Hm
  icases Hm2 with ⟨Ha, Hb⟩
  isplitl [Ha]; · iexact Ha
  isplitl [Hb]; · iexact Hb
  isplitl [H3]; · iexact H3
  isplitl [H6]; · iexact H6
  isplitl [H7]; · iexact H7
  isplitl [H40]; · iexact H40
  isplitl [H41]; · iexact H41
  iexact H42

/-- EXIT: the region's arrays at their final contents are the seven buffers at the exit contents, the two half shares of
    the one buffer joined again (both hold what the buffer held at entry). -/
theorem arrays4_exit (c : Dev nD) :
    (dat4 (VV4 m) c).arrays ((dat4 (VV4 m) c).arrAt · cfg4.N)
      ⊢ (Pipeline.arrBufs (Ix := Unit) (Name := ℕ) (U := UR sig nD τ) (Lvl := ℕ) spec4 c (VV5 m c) : sProp 𝕄) := by
  rw [arrBufs4_eq (VV5 m) c, arrays4_eq m c]
  iintro ⟨Ha, Hb, H3, H6, H7, H40, H41, H42⟩
  ihave Ha2 := (pt_congr (hF4 m c 0)) $$ Ha
  ihave Hb2 := (pt_congr (hF4 m c 1)) $$ Hb
  ihave Hm := (pointsTo_share (PosShare.mem_left_op_right fullShare)).2 $$ [Ha2 Hb2]
  · isplitl [Ha2] <;> iassumption
  isplitl [Hm]; · iexact Hm
  isplitl [H3]; · iapply (pt_congr (hF4 m c 2)); iexact H3
  isplitl [H6]; · iapply (pt_congr (hF4 m c 3)); iexact H6
  isplitl [H7]; · iapply (pt_congr (hF4 m c 4)); iexact H7
  isplitl [H40]; · iapply (pt_congr (hF4 m c 5)); iexact H40
  isplitl [H41]; · iapply (pt_congr (hF4 m c 6)); iexact H41
  iapply (pt_congr (hF4 m c 7)); iexact H42

/-- No buffer that is no array of region 4 changes across it. -/
theorem rest4_eq (c : Dev nD) :
    (Pipeline.unscopedRest (Ix := Unit) (Name := ℕ) (U := UR sig nD τ) (Lvl := ℕ) spec4 c (VV4 m c) : sProp 𝕄)
      = Pipeline.unscopedRest spec4 c (VV5 m c) := by
  unfold Pipeline.unscopedRest
  refine bigSep_congr fun b hb => ?_
  have hb' := (Finset.mem_sdiff.mp hb).2
  rw [show VV5 m c b = VV4 m c b from W5_of m c b fun h => hb' (by
    rcases List.mem_cons.mp h with rfl | h
    · exact Finset.mem_image.mpr ⟨5, Finset.mem_univ _, rfl⟩
    rcases List.mem_cons.mp h with rfl | h
    · exact Finset.mem_image.mpr ⟨6, Finset.mem_univ _, rfl⟩
    rcases List.mem_cons.mp h with rfl | h
    · exact Finset.mem_image.mpr ⟨7, Finset.mem_univ _, rfl⟩
    exact absurd h (List.not_mem_nil))]

/-- A core's unscoped buffers are the seven buffers behind region 4's arrays and the rest. -/
theorem unscopedBufs_split4 (c : Dev nD) (V : (b : Ref sig .tc) → Buf (Elt F) ((c : Thread nD τ).loc b)) :
    (unscopedBufs c V : sProp 𝕄)
      = iprop(Pipeline.arrBufs (Ix := Unit) (Name := ℕ) (U := UR sig nD τ) (Lvl := ℕ) spec4 c V
          ∗ Pipeline.unscopedRest (Ix := Unit) (Name := ℕ) (U := UR sig nD τ) (Lvl := ℕ) spec4 c V) :=
  Pipeline.unscopedBufs_split₀ cfgs 4 winFacts₀4.arr_unscoped c V

theorem entry4_split (c : Dev nD) :
    StableHlo.held (c : Thread nD τ) (Pipeline.ucRefs τ sig) (W4 m c)
      ⊢ (iprop((dat4 (VV4 m) c).arrays ((dat4 (VV4 m) c).arrAt · 0) ∗ Pipeline.unscopedRest (Ix := Unit) (Name := ℕ) (U := UR sig nD τ) (Lvl := ℕ) spec4 c (VV4 m c)) : sProp 𝕄) := by
  rw [← Pipeline.unscopedBufs_held (Ix := Unit) (Name := ℕ) (U := UR sig nD τ) (Lvl := ℕ) c (W4 m c), unscopedBufs_split4 c (VV4 m c)]
  exact sep_mono (arrays4_entry m c) .rfl

theorem exit4_join (c : Dev nD) :
    (iprop((dat4 (VV4 m) c).arrays ((dat4 (VV4 m) c).arrAt · cfg4.N) ∗ Pipeline.unscopedRest (Ix := Unit) (Name := ℕ) (U := UR sig nD τ) (Lvl := ℕ) spec4 c (VV4 m c)) : sProp 𝕄)
      ⊢ StableHlo.held (c : Thread nD τ) (Pipeline.ucRefs τ sig) (W5 m c) := by
  rw [← Pipeline.unscopedBufs_held (Ix := Unit) (Name := ℕ) (U := UR sig nD τ) (Lvl := ℕ) c (W5 m c), unscopedBufs_split4 c (VV5 m c), rest4_eq m c]
  exact sep_mono (arrays4_exit m c) .rfl

set_option backward.isDefEq.respectTransparency.types false in
/-- Region 4 over the thread state: the buffers behind its arrays split out of the unscoped buffers (the one buffer two
    windows read into its halves) and put back at the exit contents; the generator register and the scoped rest into the
    region's invariant and out; nothing owed; no semaphore of the kernel's own. -/
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (VV4 m) c).loose
  hwaits := Pipeline.hwaits_of_owed_zero _ _ _ _ L lv 4 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec4 c (VV4 m c)
  hentry c := by
    rw [Pipeline.ownSems0_none]
    iintro ⟨⟨Hub, Hp, HO⟩, -, -⟩
    ihave H := (entry4_split m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec4 c : sProp 𝕄) from ?_).trans (hin4 (VV4 m) c)
    unfold Pipeline.ΦA
    iintro ⟨Hp, -, Hr⟩
    isplitl [Hr]; · iexact Hr
    iexact Hp
  hout c := by
    rw [Pipeline.ownSems0_none]
    refine (hout4 (VV4 m) c).trans (show (Pipeline.ΦA spec4 c : sProp 𝕄) ⊢ _ from ?_)
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit4_join m c)
      isplitl [Ha]
      · iexact Ha
      iexact Hrest
    isplitl [HY]; · iexact HY
    unfold Pipeline.Dat.owesAt Pipeline.owesWithin
    icases HO with ⟨%W, -, HO⟩; iexists W; iexact HO

/-! ## @main as the five segments, and the launch -/

variable (ρ : Dev nD → PrngReg)

abbrev segs : List (Pipeline.Seg (pcfgs (F := F)) adm (pdats m) () defs₀ 𝒱₀ L lv) :=
  [ .region (reg0 m), .region (reg1 m), .region (reg2 m), .region (reg3 m), .region (reg4 m) ]
/-- @main IS the run of the segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting, and every
    final state has every unscoped buffer at the last boundary's contents `W5`: the arguments as launched, each
    intermediate layer and each result at what its region wrote. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄) ⊢ _
      iintro ⟨Hh, Hp, HO⟩
      isplitl [Hh Hp]
      · isplitl [Hh]
        · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME, at any float instance: the claim's post read off the run. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W5_arg m c main_arg0 (by decide)),
     (h c _ (mem_uc main_arg1 (by decide))).trans (W5_arg m c main_arg1 (by decide)),
     (h c _ (mem_uc main_arg2 (by decide))).trans (W5_arg m c main_arg2 (by decide)),
     (h c _ (mem_uc main_arg3 (by decide))).trans (W5_arg m c main_arg3 (by decide)),
     (h c _ (mem_uc main_arg4 (by decide))).trans (W5_arg m c main_arg4 (by decide)),
     (h c _ (mem_uc main_arg5 (by decide))).trans (W5_arg m c main_arg5 (by decide)),
     (h c _ (mem_uc main_arg6 (by decide))).trans (W5_arg m c main_arg6 (by decide)),
     (h c _ (mem_uc main_arg7 (by decide))).trans (W5_arg m c main_arg7 (by decide))⟩) (run_all m ρ)

end Cert.KernelIdeal.Hand

end
-- ==== Proof.KGcn0.lean ====
/-
  Graph-layer region 0 (the pallas_call that computes one `relu ((A · X) · W)` row block per grid point), at the
  contents `V` the region is entered with: each window's block at a point, the proof data (inputs left as fetched, the
  output block the body's one stored value of the three input blocks), and the body's obligation at every point.
-/
import proofs.«178143_j39779987096265_1_alg».proof.Proof.Gen.Kernel.Launch
import proofs.«178143_j39779987096265_1_alg».proof.Proof.Gen.Kernel.Skeleton
import proofs.«178143_j39779987096265_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]

/-! ## The input windows' staging buffers hold their blocks -/

/-- Input window 0's current staging buffer holds its block at every point (it is fetched at every point), for any
    proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 is fetched at the first point only and kept: its block index never moves, so at every point the
    buffer still holds the block of that point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2, likewise fetched once and kept. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's accesses: every load and the one store go through the whole buffer at offset zero -/

/-- The offsets `![0, 0]` are zero on both axes. -/
theorem hz0 : (![0, 0] : Fin 2 → Nat) = fun _ => 0 := funext fun a => by fin_cases a <;> rfl

abbrev r0_0 : Rect S512x4096 := Rect.unit (s := S512x4096) ![0, 0] S512x4096.size inb_S512x4096_S512x4096_0_0
abbrev r0_1 : Rect S4096x256 := Rect.unit (s := S4096x256) ![0, 0] S4096x256.size inb_S4096x256_S4096x256_0_0
abbrev r0_2 : Rect S256x128 := Rect.unit (s := S256x128) ![0, 0] S256x128.size inb_S256x128_S256x128_0_0
abbrev r0_3 : Rect S512x128 := Rect.unit (s := S512x128) ![0, 0] S512x128.size inb_S512x128_S512x128_0_0

/-- Window 3's staging buffer after the body, from the input windows' blocks: its one store as a piece over the
    loads of the three inputs. -/
def out0_3 (x0 : Vec F S512x4096 .f32) (x1 : Vec F S4096x256 .f32) (x2 : Vec F S256x128 .f32) : Vec F S512x128 .f32 :=
  View.canon [⟨r0_3, k0_pay1 (View.ld x0 r0_0) (View.ld x1 r0_1) (View.ld x2 r0_2)⟩]

/-- The one store covers the buffer: its rectangle is the whole shape. -/
theorem cover0_3 (p0 : Vec F S512x128 .f32) (y : S512x128.Idx) :
    ∃ pc ∈ ([⟨r0_3, p0⟩] : List (View.Piece (Elt F) S512x128 .f32)), y ∈ pc.1.set :=
  ⟨⟨r0_3, p0⟩, List.mem_singleton_self _, View.mem_set_unit_zero hz0 inb_S512x128_S512x128_0_0 y⟩

/-- Each load reads its whole buffer and the store writes the whole buffer, so what is left is the bare payload of
    the three input contents. -/
theorem out0_3_eq (x0 : Vec F S512x4096 .f32) (x1 : Vec F S4096x256 .f32) (x2 : Vec F S256x128 .f32) :
    out0_3 x0 x1 x2 = k0_pay1 x0 x1 x2 := by
  unfold out0_3
  rw [View.canon_unit_zero hz0]
  simp only [View.ld_unit_zero (S := S512x4096) hz0, View.ld_unit_zero (S := S4096x256) hz0, View.ld_unit_zero (S := S256x128) hz0]

/-! ## The body's triple -/

set_option maxHeartbeats 1000000 in
/-- The kernel body on whole staging memrefs, the inputs' at read contents `x0 x1 x2` and the output's at anything, runs
    to the continuation holding the inputs' as they were and the output's at `out0_3` of the inputs' (the load of the
    output buffer before the store reads a value nothing uses). -/
theorem sound_kernel0 (c : Dev nD) (E : Set ℕ) (i : grid0.Coords)
    (arg1 : Memref sig .tc .vmem S512x4096 .f32) (harg1 : arg1.IsWhole) (arg2 : Memref sig .tc .vmem S4096x256 .f32) (harg2 : arg2.IsWhole)
    (arg3 : Memref sig .tc .vmem S256x128 .f32) (harg3 : arg3.IsWhole) (arg4 : Memref sig .tc .vmem S512x128 .f32) (harg4 : arg4.IsWhole)
    (x0 : Vec F S512x4096 .f32) (x1 : Vec F S4096x256 .f32) (x2 : Vec F S256x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__gcn_kernel i arg1 harg1 arg2 harg2 arg3 harg3 arg4 harg4) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, ← out0_3_eq]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KGcn1.lean ====
/-
  Graph-layer region 1 (the pallas_call that computes one `relu ((A · X) · W)` row block per grid point), at the
  contents `V` the region is entered with: each window's block at a point, the proof data (inputs left as fetched, the
  output block the body's one stored value of the three input blocks), and the body's obligation at every point.
-/
import proofs.«178143_j39779987096265_1_alg».proof.Proof.Gen.Kernel.Launch
import proofs.«178143_j39779987096265_1_alg».proof.Proof.Gen.Kernel.Skeleton
import proofs.«178143_j39779987096265_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]

/-! ## The input windows' staging buffers hold their blocks -/

/-- Input window 0's current staging buffer holds its block at every point (it is fetched at every point), for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 is fetched at the first point only and kept: its block index never moves, so at every point the
    buffer still holds the block of that point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2, likewise fetched once and kept. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body's accesses: every load and the one store go through the whole buffer at offset zero -/

/-- The offsets `![0, 0]` are zero on both axes. -/
theorem hz1 : (![0, 0] : Fin 2 → Nat) = fun _ => 0 := funext fun a => by fin_cases a <;> rfl

abbrev r1_0 : Rect S512x4096 := Rect.unit (s := S512x4096) ![0, 0] S512x4096.size inb_S512x4096_S512x4096_0_0
abbrev r1_1 : Rect S4096x128 := Rect.unit (s := S4096x128) ![0, 0] S4096x128.size inb_S4096x128_S4096x128_0_0
abbrev r1_2 : Rect S128x128 := Rect.unit (s := S128x128) ![0, 0] S128x128.size inb_S128x128_S128x128_0_0
abbrev r1_3 : Rect S512x128 := Rect.unit (s := S512x128) ![0, 0] S512x128.size inb_S512x128_S512x128_0_0

/-- Window 3's staging buffer after the body, from the input windows' blocks: its one store as a piece over the
    loads of the three inputs. -/
def out1_3 (x0 : Vec F S512x4096 .f32) (x1 : Vec F S4096x128 .f32) (x2 : Vec F S128x128 .f32) : Vec F S512x128 .f32 :=
  View.canon [⟨r1_3, k1_pay1 (View.ld x0 r1_0) (View.ld x1 r1_1) (View.ld x2 r1_2)⟩]

/-- The one store covers the buffer: its rectangle is the whole shape. -/
theorem cover1_3 (p0 : Vec F S512x128 .f32) (y : S512x128.Idx) :
    ∃ pc ∈ ([⟨r1_3, p0⟩] : List (View.Piece (Elt F) S512x128 .f32)), y ∈ pc.1.set :=
  ⟨⟨r1_3, p0⟩, List.mem_singleton_self _, View.mem_set_unit_zero hz1 inb_S512x128_S512x128_0_0 y⟩

/-- Each load reads its whole buffer and the store writes the whole buffer, so what is left is the bare payload of
    the three input contents. -/
theorem out1_3_eq (x0 : Vec F S512x4096 .f32) (x1 : Vec F S4096x128 .f32) (x2 : Vec F S128x128 .f32) :
    out1_3 x0 x1 x2 = k1_pay1 x0 x1 x2 := by
  unfold out1_3
  rw [View.canon_unit_zero hz1]
  simp only [View.ld_unit_zero (S := S512x4096) hz1, View.ld_unit_zero (S := S4096x128) hz1, View.ld_unit_zero (S := S128x128) hz1]

/-! ## The body's triple -/

set_option maxHeartbeats 1000000 in
/-- The kernel body on whole staging memrefs, the inputs' at read contents `x0 x1 x2` and the output's at anything, runs
    to the continuation holding the inputs' as they were and the output's at `out1_3` of the inputs' (the load of the
    output buffer before the store reads a value nothing uses). -/
theorem sound_kernel1 (c : Dev nD) (E : Set ℕ) (i : grid1.Coords)
    (arg1 : Memref sig .tc .vmem S512x4096 .f32) (harg1 : arg1.IsWhole) (arg2 : Memref sig .tc .vmem S4096x128 .f32) (harg2 : arg2.IsWhole)
    (arg3 : Memref sig .tc .vmem S128x128 .f32) (harg3 : arg3.IsWhole) (arg4 : Memref sig .tc .vmem S512x128 .f32) (harg4 : arg4.IsWhole)
    (x0 : Vec F S512x4096 .f32) (x1 : Vec F S4096x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__gcn_kernel i arg1 harg1 arg2 harg2 arg3 harg3 arg4 harg4) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, ← out1_3_eq]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KGcn2.lean ====
/-
  Graph-layer region 2 (the pallas_call that computes one `relu ((A · X) · W)` row block per grid point), at the
  contents `V` the region is entered with: each window's block at a point, the proof data (inputs left as fetched, the
  output block the body's one stored value of the three input blocks), and the body's obligation at every point.
-/
import proofs.«178143_j39779987096265_1_alg».proof.Proof.Gen.Kernel.Launch
import proofs.«178143_j39779987096265_1_alg».proof.Proof.Gen.Kernel.Skeleton
import proofs.«178143_j39779987096265_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data of region 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay1 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay1 (iblk2 V c 0 t) (iblk2 V c 1 t) (iblk2 V c 2 t) := by dsimp only [dat2]

/-! ## The input windows' staging buffers hold their blocks -/

/-- Input window 0's current staging buffer holds its block at every point (it is fetched at every point), for any
    proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 is fetched at the first point only and kept: its block index never moves, so at every point the
    buffer still holds the block of that point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2, likewise fetched once and kept. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body's accesses: every load and the one store go through the whole buffer at offset zero -/

/-- The offsets `![0, 0]` are zero on both axes. -/
theorem hz2 : (![0, 0] : Fin 2 → Nat) = fun _ => 0 := funext fun a => by fin_cases a <;> rfl

abbrev r2_0 : Rect S512x4096 := Rect.unit (s := S512x4096) ![0, 0] S512x4096.size inb_S512x4096_S512x4096_0_0
abbrev r2_1 : Rect S4096x256 := Rect.unit (s := S4096x256) ![0, 0] S4096x256.size inb_S4096x256_S4096x256_0_0
abbrev r2_2 : Rect S256x128 := Rect.unit (s := S256x128) ![0, 0] S256x128.size inb_S256x128_S256x128_0_0
abbrev r2_3 : Rect S512x128 := Rect.unit (s := S512x128) ![0, 0] S512x128.size inb_S512x128_S512x128_0_0

/-- Window 3's staging buffer after the body, from the input windows' blocks: its one store as a piece over the
    loads of the three inputs. -/
def out2_3 (x0 : Vec F S512x4096 .f32) (x1 : Vec F S4096x256 .f32) (x2 : Vec F S256x128 .f32) : Vec F S512x128 .f32 :=
  View.canon [⟨r2_3, k2_pay1 (View.ld x0 r2_0) (View.ld x1 r2_1) (View.ld x2 r2_2)⟩]

/-- The one store covers the buffer: its rectangle is the whole shape. -/
theorem cover2_3 (p0 : Vec F S512x128 .f32) (y : S512x128.Idx) :
    ∃ pc ∈ ([⟨r2_3, p0⟩] : List (View.Piece (Elt F) S512x128 .f32)), y ∈ pc.1.set :=
  ⟨⟨r2_3, p0⟩, List.mem_singleton_self _, View.mem_set_unit_zero hz2 inb_S512x128_S512x128_0_0 y⟩

/-- Each load reads its whole buffer and the store writes the whole buffer, so what is left is the bare payload of
    the three input contents. -/
theorem out2_3_eq (x0 : Vec F S512x4096 .f32) (x1 : Vec F S4096x256 .f32) (x2 : Vec F S256x128 .f32) :
    out2_3 x0 x1 x2 = k2_pay1 x0 x1 x2 := by
  unfold out2_3
  rw [View.canon_unit_zero hz2]
  simp only [View.ld_unit_zero (S := S512x4096) hz2, View.ld_unit_zero (S := S4096x256) hz2, View.ld_unit_zero (S := S256x128) hz2]

/-! ## The body's triple -/

set_option maxHeartbeats 1000000 in
/-- The kernel body on whole staging memrefs, the inputs' at read contents `x0 x1 x2` and the output's at anything, runs
    to the continuation holding the inputs' as they were and the output's at `out2_3` of the inputs' (the load of the
    output buffer before the store reads a value nothing uses). -/
theorem sound_kernel2 (c : Dev nD) (E : Set ℕ) (i : grid2.Coords)
    (arg1 : Memref sig .tc .vmem S512x4096 .f32) (harg1 : arg1.IsWhole) (arg2 : Memref sig .tc .vmem S4096x256 .f32) (harg2 : arg2.IsWhole)
    (arg3 : Memref sig .tc .vmem S256x128 .f32) (harg3 : arg3.IsWhole) (arg4 : Memref sig .tc .vmem S512x128 .f32) (harg4 : arg4.IsWhole)
    (x0 : Vec F S512x4096 .f32) (x1 : Vec F S4096x256 .f32) (x2 : Vec F S256x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__gcn_kernel i arg1 harg1 arg2 harg2 arg3 harg3 arg4 harg4) K := by
  simp only [cc2__gcn_kernel_eq_skeleton]; unfold cc2__gcn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, ← out2_3_eq]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KGcn3.lean ====
/-
  Graph-layer region 3 (the pallas_call that computes one `relu ((A · X) · W)` row block per grid point), at the
  contents `V` the region is entered with: each window's block at a point, the proof data (inputs left as fetched, the
  output block the body's one stored value of the three input blocks), and the body's obligation at every point.
-/
import proofs.«178143_j39779987096265_1_alg».proof.Proof.Gen.Kernel.Launch
import proofs.«178143_j39779987096265_1_alg».proof.Proof.Gen.Kernel.Skeleton
import proofs.«178143_j39779987096265_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The proof data of region 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay1 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k3_pay1 (iblk3 V c 0 t) (iblk3 V c 1 t) (iblk3 V c 2 t) := by dsimp only [dat3]

/-! ## The input windows' staging buffers hold their blocks -/

/-- Input window 0's current staging buffer holds its block at every point (it is fetched at every point), for any
    proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 is fetched at the first point only and kept: its block index never moves, so at every point the
    buffer still holds the block of that point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2, likewise fetched once and kept. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body's accesses: every load and the one store go through the whole buffer at offset zero -/

/-- The offsets `![0, 0]` are zero on both axes. -/
theorem hz3 : (![0, 0] : Fin 2 → Nat) = fun _ => 0 := funext fun a => by fin_cases a <;> rfl

abbrev r3_0 : Rect S512x4096 := Rect.unit (s := S512x4096) ![0, 0] S512x4096.size inb_S512x4096_S512x4096_0_0
abbrev r3_1 : Rect S4096x128 := Rect.unit (s := S4096x128) ![0, 0] S4096x128.size inb_S4096x128_S4096x128_0_0
abbrev r3_2 : Rect S128x128 := Rect.unit (s := S128x128) ![0, 0] S128x128.size inb_S128x128_S128x128_0_0
abbrev r3_3 : Rect S512x128 := Rect.unit (s := S512x128) ![0, 0] S512x128.size inb_S512x128_S512x128_0_0

/-- Window 3's staging buffer after the body, from the input windows' blocks: its one store as a piece over the
    loads of the three inputs. -/
def out3_3 (x0 : Vec F S512x4096 .f32) (x1 : Vec F S4096x128 .f32) (x2 : Vec F S128x128 .f32) : Vec F S512x128 .f32 :=
  View.canon [⟨r3_3, k3_pay1 (View.ld x0 r3_0) (View.ld x1 r3_1) (View.ld x2 r3_2)⟩]

/-- The one store covers the buffer: its rectangle is the whole shape. -/
theorem cover3_3 (p0 : Vec F S512x128 .f32) (y : S512x128.Idx) :
    ∃ pc ∈ ([⟨r3_3, p0⟩] : List (View.Piece (Elt F) S512x128 .f32)), y ∈ pc.1.set :=
  ⟨⟨r3_3, p0⟩, List.mem_singleton_self _, View.mem_set_unit_zero hz3 inb_S512x128_S512x128_0_0 y⟩

/-- Each load reads its whole buffer and the store writes the whole buffer, so what is left is the bare payload of
    the three input contents. -/
theorem out3_3_eq (x0 : Vec F S512x4096 .f32) (x1 : Vec F S4096x128 .f32) (x2 : Vec F S128x128 .f32) :
    out3_3 x0 x1 x2 = k3_pay1 x0 x1 x2 := by
  unfold out3_3
  rw [View.canon_unit_zero hz3]
  simp only [View.ld_unit_zero (S := S512x4096) hz3, View.ld_unit_zero (S := S4096x128) hz3, View.ld_unit_zero (S := S128x128) hz3]

/-! ## The body's triple -/

set_option maxHeartbeats 1000000 in
/-- The kernel body on whole staging memrefs, the inputs' at read contents `x0 x1 x2` and the output's at anything, runs
    to the continuation holding the inputs' as they were and the output's at `out3_3` of the inputs' (the load of the
    output buffer before the store reads a value nothing uses). -/
theorem sound_kernel3 (c : Dev nD) (E : Set ℕ) (i : grid3.Coords)
    (arg1 : Memref sig .tc .vmem S512x4096 .f32) (harg1 : arg1.IsWhole) (arg2 : Memref sig .tc .vmem S4096x128 .f32) (harg2 : arg2.IsWhole)
    (arg3 : Memref sig .tc .vmem S128x128 .f32) (harg3 : arg3.IsWhole) (arg4 : Memref sig .tc .vmem S512x128 .f32) (harg4 : arg4.IsWhole)
    (x0 : Vec F S512x4096 .f32) (x1 : Vec F S4096x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__gcn_kernel i arg1 harg1 arg2 harg2 arg3 harg3 arg4 harg4) K := by
  simp only [cc3__gcn_kernel_eq_skeleton]; unfold cc3__gcn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, ← out3_3_eq]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KAttnDat.lean ====
/-
  The attention region (region 4) at the contents `V` it is entered with: what is shared by its three control cases.
  A grid point is `t = 4·i + j`. The body resets its two accumulators when `j = 0`, adds the point's two products to
  them at every point, and stores the two projected row blocks when `j = 3`.
-/
import proofs.«178143_j39779987096265_1_alg».proof.Proof.Gen.Kernel.Launch
import proofs.«178143_j39779987096265_1_alg».proof.Proof.Gen.Kernel.Skeleton
import proofs.«178143_j39779987096265_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- The accumulators are reset: the condition of the body's first `scf.if`, from the grid coordinates. -/
abbrev cond4_0 (i : grid4.Coords) : Prop :=
  (Scalar.cmpi .ne (Scalar.extui (Scalar.cmpi .eq (BitVec.ofNat 32 (i 1).val) 0#32)) 0#32) = 1#1
/-- It holds exactly at the points with `j = 0`. -/
theorem hcond4_0 : ∀ t : Fin cfg4.N, cond4_0 (grid4.coords t) ↔ t.val % 4 = 0 :=
  (by decide +kernel : ∀ t : Fin grid4.N, cond4_0 (grid4.coords t) ↔ t.val % 4 = 0)
/-- The projections are stored: the condition of the body's second `scf.if`. -/
abbrev cond4_1 (i : grid4.Coords) : Prop := k4_cond2 i = 1#1
/-- It holds exactly at the points with `j = 3`. -/
theorem hcond4_1 : ∀ t : Fin cfg4.N, cond4_1 (grid4.coords t) ↔ t.val % 4 = 3 :=
  (by decide +kernel : ∀ t : Fin grid4.N, cond4_1 (grid4.coords t) ↔ t.val % 4 = 3)

/-! ## The staging memrefs at a point and the two scratch accumulators -/

abbrev ms4_0 (t : Fin cfg4.N) : Memref sig .tc .vmem S1024x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S128x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1024x1024 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1024x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1024x128 .f32 := win4_7.stage (cfg4.slots t 7)
abbrev hs4_7 (t : Fin cfg4.N) : (ms4_7 t).IsWhole := hstage4_7 ((cfg4.slots t 7).cast nbuf4_7)
/-- The accumulator of `S · Xs` rows and the accumulator of `S · Xt` rows: whole scoped buffers of the kernel's own. -/
abbrev scM4_0 : Memref sig .tc .vmem S1024x128 .f32 := Memref.whole cc4_scratch0
abbrev scM4_1 : Memref sig .tc .vmem S1024x128 .f32 := Memref.whole cc4_scratch1

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The five input blocks at a point, at their literal types: rows block `i` of `Xs`; rows block `j` of `Xs`; rows block
    `j` of `Xt`; `W3`; `W4`. -/
abbrev xsI (c : Dev nD) (t : Fin cfg4.N) : Vec F S1024x128 .f32 := iblk4 V c 0 t
abbrev xsJ (c : Dev nD) (t : Fin cfg4.N) : Vec F S1024x128 .f32 := iblk4 V c 1 t
abbrev xtJ (c : Dev nD) (t : Fin cfg4.N) : Vec F S1024x128 .f32 := iblk4 V c 2 t
abbrev w3B (c : Dev nD) (t : Fin cfg4.N) : Vec F S128x128 .f32 := iblk4 V c 3 t
abbrev w4B (c : Dev nD) (t : Fin cfg4.N) : Vec F S128x128 .f32 := iblk4 V c 4 t

/-! ## The accumulation -/

/-- One point's update of the two accumulators from what they held: `s.1 + tile · Xs_j` and `s.2 + tile · Xt_j`, the
    tile being the point's score tile. -/
def accStep (c : Dev nD) (t : Fin cfg4.N) (s : Vec F S1024x128 .f32 × Vec F S1024x128 .f32) :
    Vec F S1024x128 .f32 × Vec F S1024x128 .f32 :=
  (k4_pay10 (xsI V c t) (w3B V c t) (xtJ V c t) (xsJ V c t) s.1,
   k4_pay1 (k4_pay11 (xsI V c t) (w3B V c t) (xtJ V c t) s.2))

/-- What the two accumulators hold after the body at position `n`: at a point with `j = 0` one update of the zero
    blocks the reset stores, otherwise one update of what the point before left. -/
def accAt4 (c : Dev nD) : (n : ℕ) → n < cfg4.N → Vec F S1024x128 .f32 × Vec F S1024x128 .f32
  | 0, hn => accStep V c ⟨0, hn⟩ (k4_pay5, k4_pay6)
  | n + 1, hn =>
    if (n + 1) % 4 = 0 then accStep V c ⟨n + 1, hn⟩ (k4_pay5, k4_pay6)
    else accStep V c ⟨n + 1, hn⟩ (accAt4 c n (Nat.lt_of_succ_lt hn))

theorem accAt4_reset (c : Dev nD) (t : Fin cfg4.N) (h0 : t.val % 4 = 0) :
    accAt4 V c t.val t.isLt = accStep V c t (k4_pay5, k4_pay6) := by
  obtain ⟨n, hn⟩ := t
  cases n with
  | zero => rfl
  | succ n => exact if_pos h0

theorem accAt4_step (c : Dev nD) (t : Fin cfg4.N) (h0 : ¬t.val % 4 = 0) :
    accAt4 V c t.val t.isLt = accStep V c t (accAt4 V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points and the proof data -/

/-- Before position `n`: at the first point the class's invariant (every scoped buffer that is no staging buffer at
    anything, the generator register at some state); afterwards the two accumulators at what the point before left,
    the other such buffers at anything, the register at some state. -/
def PhiS4 (c : Dev nD) : (n : ℕ) → n ≤ cfg4.N → sProp 𝕄
  | 0, _ => Pipeline.ΦA spec4 c
  | n + 1, hn => iprop(iprop(owns (c : Thread nD τ) scM4_0 fullShare (accAt4 V c n hn).1 ∗ owns (c : Thread nD τ) scM4_1 fullShare (accAt4 V c n hn).2
      ∗ Pipeline.scopedRestBut (Ix := Unit) (Name := ℕ) (U := UR sig nD τ) (Lvl := ℕ) (Val := Elt F) spec4 c [cc4_scratch0, cc4_scratch1]) ∗ (∃ r, prngReg c r))

/-- The proof data of region 4 on core `c`: the arrays as the region finds them; each input's buffer left at its block;
    the score tile's buffer at the point's tile; the two projection buffers at the projections of the accumulators
    (consulted only at the points with `j = 3`, where they are stored); the two windows on the one array of `Xs` each
    at half its share. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => k4_pay8 (xsI V c t) (w3B V c t) (xtJ V c t)
    | ⟨6, _⟩ => k4_pay3 (w4B V c t) (accAt4 V c t.val t.isLt).1
    | ⟨7, _⟩ => k4_pay4 (w4B V c t) (accAt4 V c t.val t.isLt).2
  Φ t := PhiS4 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = k4_pay8 (xsI V c t) (w3B V c t) (xtJ V c t) := by dsimp only [dat4]
theorem after4_6 (c : Dev nD) (t : Fin cfg4.N) :
    (dat4 V c).after 6 t = k4_pay3 (w4B V c t) (accAt4 V c t.val t.isLt).1 := by dsimp only [dat4]
theorem after4_7 (c : Dev nD) (t : Fin cfg4.N) :
    (dat4 V c).after 7 t = k4_pay4 (w4B V c t) (accAt4 V c t.val t.isLt).2 := by dsimp only [dat4]

end Cert.Kernel.Hand

end
-- ==== Proof.KFold.lean ====
/-
  What the unscoped buffers hold between the five regions: the launch contents, updated by what each region so far wrote
  into its output arrays (`Dat.arrAt … N`: the write-backs folded over the grid). No region writes an argument, and a
  region changes its own output arrays only.
-/
import proofs.«178143_j39779987096265_1_alg».proof.Proof.Gen.Kernel.Launch
import proofs.«178143_j39779987096265_1_alg».proof.Proof.Gen.Kernel.Skeleton
import proofs.«178143_j39779987096265_1_alg».proof.Proof.Gen.Kernel.Points
import proofs.«178143_j39779987096265_1_alg».proof.Proof.KGcn0
import proofs.«178143_j39779987096265_1_alg».proof.Proof.KGcn1
import proofs.«178143_j39779987096265_1_alg».proof.Proof.KGcn2
import proofs.«178143_j39779987096265_1_alg».proof.Proof.KGcn3
import proofs.«178143_j39779987096265_1_alg».proof.Proof.KAttnDat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s unscoped buffers at launch. -/
abbrev W0 (c : Dev nD) : Valuation τ sig (Elt F) := fun b => m (c, b)
abbrev VV0 : (c : Dev nD) → (b : Ref sig .tc) → Buf (Elt F) ((c : Thread nD τ).loc b) := fun c b => W0 m c b
/-- After region 0: `main_v0` holds the first source layer. -/
def W1 (c : Dev nD) : Valuation τ sig (Elt F) := Function.update (W0 m c) main_v0 ((dat0 (VV0 m) c).arrAt 3 cfg0.N)
abbrev VV1 : (c : Dev nD) → (b : Ref sig .tc) → Buf (Elt F) ((c : Thread nD τ).loc b) := fun c b => W1 m c b
/-- After region 1: `main_v1` holds the second source layer. -/
def W2 (c : Dev nD) : Valuation τ sig (Elt F) := Function.update (W1 m c) main_v1 ((dat1 (VV1 m) c).arrAt 3 cfg1.N)
abbrev VV2 : (c : Dev nD) → (b : Ref sig .tc) → Buf (Elt F) ((c : Thread nD τ).loc b) := fun c b => W2 m c b
/-- After region 2: `main_v2` holds the first target layer. -/
def W3 (c : Dev nD) : Valuation τ sig (Elt F) := Function.update (W2 m c) main_v2 ((dat2 (VV2 m) c).arrAt 3 cfg2.N)
abbrev VV3 : (c : Dev nD) → (b : Ref sig .tc) → Buf (Elt F) ((c : Thread nD τ).loc b) := fun c b => W3 m c b
/-- After region 3: `main_v3` holds the second target layer. -/
def W4 (c : Dev nD) : Valuation τ sig (Elt F) := Function.update (W3 m c) main_v3 ((dat3 (VV3 m) c).arrAt 3 cfg3.N)
abbrev VV4 : (c : Dev nD) → (b : Ref sig .tc) → Buf (Elt F) ((c : Thread nD τ).loc b) := fun c b => W4 m c b
/-- After region 4: the score matrix and the two projections. -/
def W5 (c : Dev nD) : Valuation τ sig (Elt F) :=
  Function.update (Function.update (Function.update (W4 m c) main_v4_0 ((dat4 (VV4 m) c).arrAt 5 cfg4.N))
    main_v4_1 ((dat4 (VV4 m) c).arrAt 6 cfg4.N)) main_v4_2 ((dat4 (VV4 m) c).arrAt 7 cfg4.N)
abbrev VV5 : (c : Dev nD) → (b : Ref sig .tc) → Buf (Elt F) ((c : Thread nD τ).loc b) := fun c b => W5 m c b

/-- A buffer other than region 0's output holds after the region what it held before; the output holds the region's write-backs. -/
theorem W1_of (c : Dev nD) (r : Ref sig .tc) (h : r ≠ main_v0) : W1 m c r = W0 m c r := by
  unfold W1; exact Function.update_of_ne (StableHlo.devRef_ne_of_ne h) _ _
theorem W1_out (c : Dev nD) : W1 m c main_v0 = (dat0 (VV0 m) c).arrAt 3 cfg0.N := by
  unfold W1; exact Function.update_self _ _ _

/-- A buffer other than region 1's output holds after the region what it held before; the output holds the region's write-backs. -/
theorem W2_of (c : Dev nD) (r : Ref sig .tc) (h : r ≠ main_v1) : W2 m c r = W1 m c r := by
  unfold W2; exact Function.update_of_ne (StableHlo.devRef_ne_of_ne h) _ _
theorem W2_out (c : Dev nD) : W2 m c main_v1 = (dat1 (VV1 m) c).arrAt 3 cfg1.N := by
  unfold W2; exact Function.update_self _ _ _

/-- A buffer other than region 2's output holds after the region what it held before; the output holds the region's write-backs. -/
theorem W3_of (c : Dev nD) (r : Ref sig .tc) (h : r ≠ main_v2) : W3 m c r = W2 m c r := by
  unfold W3; exact Function.update_of_ne (StableHlo.devRef_ne_of_ne h) _ _
theorem W3_out (c : Dev nD) : W3 m c main_v2 = (dat2 (VV2 m) c).arrAt 3 cfg2.N := by
  unfold W3; exact Function.update_self _ _ _

/-- A buffer other than region 3's output holds after the region what it held before; the output holds the region's write-backs. -/
theorem W4_of (c : Dev nD) (r : Ref sig .tc) (h : r ≠ main_v3) : W4 m c r = W3 m c r := by
  unfold W4; exact Function.update_of_ne (StableHlo.devRef_ne_of_ne h) _ _
theorem W4_out (c : Dev nD) : W4 m c main_v3 = (dat3 (VV3 m) c).arrAt 3 cfg3.N := by
  unfold W4; exact Function.update_self _ _ _

theorem W5_of (c : Dev nD) (r : Ref sig .tc) (h : r ∉ ([main_v4_0, main_v4_1, main_v4_2] : List (Ref sig .tc))) : W5 m c r = W4 m c r := by
  unfold W5
  rw [Function.update_of_ne (StableHlo.devRef_ne_of_ne (List.ne_of_not_mem_cons (List.not_mem_of_not_mem_cons (List.not_mem_of_not_mem_cons h))) : (Proc.devRef .tc r : DevRef τ sig) ≠ Proc.devRef .tc main_v4_2),
    Function.update_of_ne (StableHlo.devRef_ne_of_ne (List.ne_of_not_mem_cons (List.not_mem_of_not_mem_cons h)) : (Proc.devRef .tc r : DevRef τ sig) ≠ Proc.devRef .tc main_v4_1),
    Function.update_of_ne (StableHlo.devRef_ne_of_ne (List.ne_of_not_mem_cons h) : (Proc.devRef .tc r : DevRef τ sig) ≠ Proc.devRef .tc main_v4_0)]
theorem W5_out0 (c : Dev nD) : W5 m c main_v4_0 = (dat4 (VV4 m) c).arrAt 5 cfg4.N := by
  unfold W5
  rw [Function.update_of_ne (StableHlo.devRef_ne_of_ne (by decide) : (Proc.devRef .tc main_v4_0 : DevRef τ sig) ≠ Proc.devRef .tc main_v4_2),
    Function.update_of_ne (StableHlo.devRef_ne_of_ne (by decide) : (Proc.devRef .tc main_v4_0 : DevRef τ sig) ≠ Proc.devRef .tc main_v4_1),
    Function.update_self]
theorem W5_out1 (c : Dev nD) : W5 m c main_v4_1 = (dat4 (VV4 m) c).arrAt 6 cfg4.N := by
  unfold W5
  rw [Function.update_of_ne (StableHlo.devRef_ne_of_ne (by decide) : (Proc.devRef .tc main_v4_1 : DevRef τ sig) ≠ Proc.devRef .tc main_v4_2),
    Function.update_self]
theorem W5_out2 (c : Dev nD) : W5 m c main_v4_2 = (dat4 (VV4 m) c).arrAt 7 cfg4.N := by
  unfold W5; rw [Function.update_self]

/-- An argument's buffer is never written: at the end it holds its launch contents. -/
theorem W5_arg (c : Dev nD) (r : Ref sig .tc)
    (h : r ∉ ([main_v0, main_v1, main_v2, main_v3, main_v4_0, main_v4_1, main_v4_2] : List (Ref sig .tc))) :
    W5 m c r = m ((c : Thread nD τ).loc r) := by
  have n0 : r ≠ main_v0 := List.ne_of_not_mem_cons h
  have h1 := List.not_mem_of_not_mem_cons h
  have n1 : r ≠ main_v1 := List.ne_of_not_mem_cons h1
  have h2 := List.not_mem_of_not_mem_cons h1
  have n2 : r ≠ main_v2 := List.ne_of_not_mem_cons h2
  have h3 := List.not_mem_of_not_mem_cons h2
  have n3 : r ≠ main_v3 := List.ne_of_not_mem_cons h3
  have h4 := List.not_mem_of_not_mem_cons h3
  exact (W5_of m c r h4).trans ((W4_of m c r n3).trans ((W3_of m c r n2).trans ((W2_of m c r n1).trans (W1_of m c r n0))))

end Cert.Kernel.Hand

end
-- ==== Proof.KAttnRuns.lean ====
/-
  The attention body (region 4), run once in each of its three control cases on whole staging memrefs: the input
  blocks are left as they were, the score tile's buffer ends at the tile `exp ((x0 · x3) · x2ᵀ)`, the two
  accumulators end at one update of what they held (of the zero blocks when the case resets them), and in the last
  case the two projection buffers end at the accumulators' products with `x4`; a projection buffer the case does not
  store into is handed back as it was.
-/
import proofs.«178143_j39779987096265_1_alg».proof.Proof.Gen.Kernel.Launch
import proofs.«178143_j39779987096265_1_alg».proof.Proof.Gen.Kernel.Skeleton
import proofs.«178143_j39779987096265_1_alg».proof.Proof.Gen.Kernel.Points
import proofs.«178143_j39779987096265_1_alg».proof.Proof.KAttnDat
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (c : Dev nD) (E : Set ℕ)

/-- The offsets `![0, 0]` of a whole-shape rectangle of rank 2 are the zero function. -/
private theorem hz2 : (![0, 0] : Fin 2 → ℕ) = fun _ => 0 := by funext a; fin_cases a <;> rfl

set_option maxHeartbeats 4000000 in
/-- Case `j = 0`: the accumulators are reset, then updated; nothing is stored into the projection buffers. -/
theorem sound_kernel4_A (i : grid4.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole)
    (hc0 : cond4_0 i) (hc1 : ¬cond4_1 i)
    (x0 x1 x2 : Vec F S1024x128 .f32) (x3 x4 : Vec F S128x128 .f32) (xi6 xi7 : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare xi6 ∗ owns (c : Thread nD τ) arg9 fullShare xi7
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k4_pay8 x0 x3 x2) ∗ owns (c : Thread nD τ) arg8 fullShare xi6 ∗ owns (c : Thread nD τ) arg9 fullShare xi7
            ∗ owns (c : Thread nD τ) arg10 fullShare (k4_pay10 x0 x3 x2 x1 k4_pay5) ∗ owns (c : Thread nD τ) arg11 fullShare (k4_pay1 (k4_pay11 x0 x3 x2 k4_pay6))) -∗ K ⟨⟩))
      ⊢ wp frame (wpE (defs₀ (F := F)) Variants.none c none) E (cc4__attn_kernel i arg2 harg2 arg3 harg3 arg4 harg4 arg5 harg5 arg6 harg6 arg7 harg7 arg8 harg8 arg9 harg9 arg10 harg10 arg11 harg11) K := by
  simp only [cc4__attn_kernel_eq_skeleton]; unfold cc4__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, ⟨%d11, %f11, -, H11⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.Mem.head _, View.mem_set_unit_zero hz2 inb_S1024x1024_S1024x1024_0_0 y⟩),
      View.canon_cons_unit_zero hz2]
    simp only [View.readAt_eq_ld, harg2.read_unread, harg3.read_unread, harg4.read_unread, harg5.read_unread,
      harg6.read_unread, harg10.read_unread, harg11.read_unread, View.readCov_unit_zero (S := S1024x128) _ hz2,
      View.ld_unit_zero (S := S1024x128) hz2, View.ld_unit_zero (S := S128x128) hz2]
  isplitl [H8]
  · iexists _; isplitr; · ipureintro; exact hf8
    iexact H8
  isplitl [H9]
  · iexists _; isplitr; · ipureintro; exact hf9
    iexact H9
  isplitl [H10]
  · iexists _; isplitr
    swap; · iexact H10
    ipureintro
    sl_unfold_words
    rw [View.read_writes_eq_canon _ _ _ (fun y => ⟨_, List.Mem.head _, View.mem_set_unit_zero hz2 inb_S1024x128_S1024x128_0_0 y⟩),
      View.canon_cons_unit_zero hz2]
    simp only [View.readAt_eq_ld, harg2.read_unread, harg3.read_unread, harg4.read_unread, harg5.read_unread,
      harg6.read_unread, harg10.read_unread, harg11.read_unread, View.readCov_unit_zero (S := S1024x128) _ hz2,
      View.ld_unit_zero (S := S1024x128) hz2, View.ld_unit_zero (S := S128x128) hz2]
  iexists _; isplitr
  swap; · iexact H11
  ipureintro
  sl_unfold_words
  rw [View.read_writes_eq_canon _ _ _ (fun y => ⟨_, List.Mem.head _, View.mem_set_unit_zero hz2 inb_S1024x128_S1024x128_0_0 y⟩),
    View.canon_cons_unit_zero hz2]
  simp only [View.readAt_eq_ld, harg2.read_unread, harg3.read_unread, harg4.read_unread, harg5.read_unread,
    harg6.read_unread, harg10.read_unread, harg11.read_unread, View.readCov_unit_zero (S := S1024x128) _ hz2,
    View.ld_unit_zero (S := S1024x128) hz2, View.ld_unit_zero (S := S128x128) hz2]

set_option maxHeartbeats 4000000 in
/-- Case `j = 1, 2`: the accumulators are updated from what the point before left; nothing is stored into the projection buffers. -/
theorem sound_kernel4_B (i : grid4.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole)
    (hc0 : ¬cond4_0 i) (hc1 : ¬cond4_1 i)
    (x0 x1 x2 : Vec F S1024x128 .f32) (x3 x4 : Vec F S128x128 .f32) (xi6 xi7 xs0 xs1 : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare xi6 ∗ owns (c : Thread nD τ) arg9 fullShare xi7
        ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k4_pay8 x0 x3 x2) ∗ owns (c : Thread nD τ) arg8 fullShare xi6 ∗ owns (c : Thread nD τ) arg9 fullShare xi7
            ∗ owns (c : Thread nD τ) arg10 fullShare (k4_pay10 x0 x3 x2 x1 xs0) ∗ owns (c : Thread nD τ) arg11 fullShare (k4_pay1 (k4_pay11 x0 x3 x2 xs1))) -∗ K ⟨⟩))
      ⊢ wp frame (wpE (defs₀ (F := F)) Variants.none c none) E (cc4__attn_kernel i arg2 harg2 arg3 harg3 arg4 harg4 arg5 harg5 arg6 harg6 arg7 harg7 arg8 harg8 arg9 harg9 arg10 harg10 arg11 harg11) K := by
  simp only [cc4__attn_kernel_eq_skeleton]; unfold cc4__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4
  obtain rfl := harg5.eq_unread hf5; obtain rfl := harg6.eq_unread hf6
  obtain rfl := harg10.eq_unread hf10; obtain rfl := harg11.eq_unread hf11
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.Mem.head _, View.mem_set_unit_zero hz2 inb_S1024x1024_S1024x1024_0_0 y⟩),
      View.canon_cons_unit_zero hz2]
    simp only [View.readAt_eq_ld, harg2.read_unread, harg3.read_unread, harg4.read_unread, harg5.read_unread,
      harg6.read_unread, harg10.read_unread, harg11.read_unread, View.readCov_unit_zero (S := S1024x128) _ hz2,
      View.ld_unit_zero (S := S1024x128) hz2, View.ld_unit_zero (S := S128x128) hz2]
  isplitl [H8]
  · iexists _; isplitr; · ipureintro; exact hf8
    iexact H8
  isplitl [H9]
  · iexists _; isplitr; · ipureintro; exact hf9
    iexact H9
  isplitl [H10]
  · iexists _; isplitr
    swap; · iexact H10
    ipureintro
    sl_unfold_words
    rw [View.read_writes_eq_canon _ _ _ (fun y => ⟨_, List.Mem.head _, View.mem_set_unit_zero hz2 inb_S1024x128_S1024x128_0_0 y⟩),
      View.canon_cons_unit_zero hz2]
    simp only [View.readAt_eq_ld, harg2.read_unread, harg3.read_unread, harg4.read_unread, harg5.read_unread,
      harg6.read_unread, harg10.read_unread, harg11.read_unread, View.readCov_unit_zero (S := S1024x128) _ hz2,
      View.ld_unit_zero (S := S1024x128) hz2, View.ld_unit_zero (S := S128x128) hz2]
  iexists _; isplitr
  swap; · iexact H11
  ipureintro
  sl_unfold_words
  rw [View.read_writes_eq_canon _ _ _ (fun y => ⟨_, List.Mem.head _, View.mem_set_unit_zero hz2 inb_S1024x128_S1024x128_0_0 y⟩),
    View.canon_cons_unit_zero hz2]
  simp only [View.readAt_eq_ld, harg2.read_unread, harg3.read_unread, harg4.read_unread, harg5.read_unread,
    harg6.read_unread, harg10.read_unread, harg11.read_unread, View.readCov_unit_zero (S := S1024x128) _ hz2,
    View.ld_unit_zero (S := S1024x128) hz2, View.ld_unit_zero (S := S128x128) hz2]

set_option maxHeartbeats 4000000 in
/-- Case `j = 3`: the accumulators are updated, and their products with `x4` are stored into the two projection buffers. -/
theorem sound_kernel4_C (i : grid4.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole)
    (hc0 : ¬cond4_0 i) (hc1 : cond4_1 i)
    (x0 x1 x2 : Vec F S1024x128 .f32) (x3 x4 : Vec F S128x128 .f32) (xs0 xs1 : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k4_pay8 x0 x3 x2)
            ∗ owns (c : Thread nD τ) arg8 fullShare (k4_pay3 x4 (k4_pay10 x0 x3 x2 x1 xs0)) ∗ owns (c : Thread nD τ) arg9 fullShare (k4_pay4 x4 (k4_pay1 (k4_pay11 x0 x3 x2 xs1)))
            ∗ owns (c : Thread nD τ) arg10 fullShare (k4_pay10 x0 x3 x2 x1 xs0) ∗ owns (c : Thread nD τ) arg11 fullShare (k4_pay1 (k4_pay11 x0 x3 x2 xs1))) -∗ K ⟨⟩))
      ⊢ wp frame (wpE (defs₀ (F := F)) Variants.none c none) E (cc4__attn_kernel i arg2 harg2 arg3 harg3 arg4 harg4 arg5 harg5 arg6 harg6 arg7 harg7 arg8 harg8 arg9 harg9 arg10 harg10 arg11 harg11) K := by
  simp only [cc4__attn_kernel_eq_skeleton]; unfold cc4__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, Hk⟩
  obtain rfl := harg2.eq_unread hf2; obtain rfl := harg3.eq_unread hf3; obtain rfl := harg4.eq_unread hf4
  obtain rfl := harg5.eq_unread hf5; obtain rfl := harg6.eq_unread hf6
  obtain rfl := harg10.eq_unread hf10; obtain rfl := harg11.eq_unread hf11
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.Mem.head _, View.mem_set_unit_zero hz2 inb_S1024x1024_S1024x1024_0_0 y⟩),
      View.canon_cons_unit_zero hz2]
    simp only [View.readAt_eq_ld, harg2.read_unread, harg3.read_unread, harg4.read_unread, harg5.read_unread,
      harg6.read_unread, harg10.read_unread, harg11.read_unread, View.readCov_unit_zero (S := S1024x128) _ hz2,
      View.ld_unit_zero (S := S1024x128) hz2, View.ld_unit_zero (S := S128x128) hz2]
  isplitl [H8]
  · iexists _; isplitr
    swap; · iexact H8
    ipureintro
    sl_unfold_words
    rw [View.read_writes_eq_canon _ _ _ (fun y => ⟨_, List.Mem.head _, View.mem_set_unit_zero hz2 inb_S1024x128_S1024x128_0_0 y⟩),
      View.canon_cons_unit_zero hz2]
    simp only [View.readAt_eq_ld, harg2.read_unread, harg3.read_unread, harg4.read_unread, harg5.read_unread,
      harg6.read_unread, harg10.read_unread, harg11.read_unread, View.readCov_unit_zero (S := S1024x128) _ hz2,
      View.ld_unit_zero (S := S1024x128) hz2, View.ld_unit_zero (S := S128x128) hz2]
  isplitl [H9]
  · iexists _; isplitr
    swap; · iexact H9
    ipureintro
    sl_unfold_words
    rw [View.read_writes_eq_canon _ _ _ (fun y => ⟨_, List.Mem.head _, View.mem_set_unit_zero hz2 inb_S1024x128_S1024x128_0_0 y⟩),
      View.canon_cons_unit_zero hz2]
    simp only [View.readAt_eq_ld, harg2.read_unread, harg3.read_unread, harg4.read_unread, harg5.read_unread,
      harg6.read_unread, harg10.read_unread, harg11.read_unread, View.readCov_unit_zero (S := S1024x128) _ hz2,
      View.ld_unit_zero (S := S1024x128) hz2, View.ld_unit_zero (S := S128x128) hz2]
  isplitl [H10]
  · iexists _; isplitr
    swap; · iexact H10
    ipureintro
    sl_unfold_words
    rw [View.read_writes_eq_canon _ _ _ (fun y => ⟨_, List.Mem.head _, View.mem_set_unit_zero hz2 inb_S1024x128_S1024x128_0_0 y⟩),
      View.canon_cons_unit_zero hz2]
    simp only [View.readAt_eq_ld, harg2.read_unread, harg3.read_unread, harg4.read_unread, harg5.read_unread,
      harg6.read_unread, harg10.read_unread, harg11.read_unread, View.readCov_unit_zero (S := S1024x128) _ hz2,
      View.ld_unit_zero (S := S1024x128) hz2, View.ld_unit_zero (S := S128x128) hz2]
  iexists _; isplitr
  swap; · iexact H11
  ipureintro
  sl_unfold_words
  rw [View.read_writes_eq_canon _ _ _ (fun y => ⟨_, List.Mem.head _, View.mem_set_unit_zero hz2 inb_S1024x128_S1024x128_0_0 y⟩),
    View.canon_cons_unit_zero hz2]
  simp only [View.readAt_eq_ld, harg2.read_unread, harg3.read_unread, harg4.read_unread, harg5.read_unread,
    harg6.read_unread, harg10.read_unread, harg11.read_unread, View.readCov_unit_zero (S := S1024x128) _ hz2,
    View.ld_unit_zero (S := S1024x128) hz2, View.ld_unit_zero (S := S128x128) hz2]

end Cert.Kernel.Hand

end
-- ==== Proof.KAttnBody.lean ====
/-
  The attention region's body obligation at every grid point, and how its invariant starts from and gives back the
  class's: at a point the inputs' staging buffers hold their blocks, the case is read off `j`, the accumulators are
  what the point before left (anything before the first point), and the case's run applies.
-/
import proofs.«178143_j39779987096265_1_alg».proof.Proof.Gen.Kernel.Launch
import proofs.«178143_j39779987096265_1_alg».proof.Proof.Gen.Kernel.Skeleton
import proofs.«178143_j39779987096265_1_alg».proof.Proof.Gen.Kernel.Points
import proofs.«178143_j39779987096265_1_alg».proof.Proof.KAttnDat
import proofs.«178143_j39779987096265_1_alg».proof.Proof.KAttnRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant, by the position -/

/-- The grid has sixteen points. -/
theorem N4 : cfg4.N = 16 := N_4

theorem PhiS4_zero (c : Dev nD) (n : ℕ) (h : n ≤ cfg4.N) (hz : n = 0) : PhiS4 V c n h = Pipeline.ΦA spec4 c := by
  subst hz; rfl

/-- After point `n`: the two accumulators at that point's contents. -/
theorem PhiS4_succ (c : Dev nD) (n : ℕ) (hn : n < cfg4.N) :
    PhiS4 V c (n + 1) hn = iprop(iprop(owns (c : Thread nD τ) scM4_0 fullShare (accAt4 V c n hn).1 ∗ owns (c : Thread nD τ) scM4_1 fullShare (accAt4 V c n hn).2
      ∗ Pipeline.scopedRestBut (Ix := Unit) (Name := ℕ) (U := UR sig nD τ) (Lvl := ℕ) (Val := Elt F) spec4 c [cc4_scratch0, cc4_scratch1]) ∗ (∃ r, prngReg c r)) := rfl

/-- Before a point that is not the first: the two accumulators at what the point before left. -/
theorem PhiS4_pos (c : Dev nD) (n : ℕ) (h : n ≤ cfg4.N) (hz : n ≠ 0) :
    PhiS4 V c n h = iprop(iprop(owns (c : Thread nD τ) scM4_0 fullShare (accAt4 V c (n - 1) (by omega)).1 ∗ owns (c : Thread nD τ) scM4_1 fullShare (accAt4 V c (n - 1) (by omega)).2
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-- The class's invariant with the two accumulators as memrefs owned at some contents, the other scoped buffers
    unopened. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-- The invariant at a point's start, restated at the point's position. -/
theorem PhiS4_castSucc (c : Dev nD) (t : Fin cfg4.N) :
    (dat4 V c).Φ t.castSucc = PhiS4 V c t.val (Nat.le_of_lt t.isLt) := by
  dsimp only [dat4]; simp only [Fin.coe_castSucc]

/-! ## What the inputs' staging buffers hold at a point

An input's current buffer holds its block whether or not the point fetched it: the body leaves each input block in
place, and a window that is not fetched has the block index of the point before. -/

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4 V c 0]; try rfl) t d).trans
    (by unfold Dat.fetched Dat.blockOf iblk4; rw [A_eq4 V c 0]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4 V c 1]; try rfl) t d).trans
    (by unfold Dat.fetched Dat.blockOf iblk4; rw [A_eq4 V c 1]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4 V c 2]; try rfl) t d).trans
    (by unfold Dat.fetched Dat.blockOf iblk4; rw [A_eq4 V c 2]; try rfl)
theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4 V c 3]; try rfl) t d).trans
    (by unfold Dat.fetched Dat.blockOf iblk4; rw [A_eq4 V c 3]; try rfl)
theorem before4_4 (c : Dev nD) (t : Fin cfg4.N) (d) : (dat4 V c).before 4 t d = iblk4 V c 4 t :=
  ((dat4 V c).before_in_eq_fetched 4 rfl (fun _ => rfl) (fun _ _ _ => rfl)
    (fun t => by rw [after4_4]; unfold Dat.blockOf iblk4; rw [A_eq4 V c 4]; try rfl) t d).trans
    (by unfold Dat.fetched Dat.blockOf iblk4; rw [A_eq4 V c 4]; try rfl)

/-! ## Where the windows are live

The inputs and the score tile are live at every point. The two projection windows are stored, and written back, exactly
at the points with `j = 3`; elsewhere they are idle and their buffers are handed back as found. -/

theorem liveAt4_0 : ∀ t : Fin cfg4.N, cfg4.idle 0 (grid4.coords t) = false :=
  (by decide +kernel : ∀ t : Fin grid4.N, idle4 0 (grid4.coords t) = false)
theorem liveAt4_1 : ∀ t : Fin cfg4.N, cfg4.idle 1 (grid4.coords t) = false :=
  (by decide +kernel : ∀ t : Fin grid4.N, idle4 1 (grid4.coords t) = false)
theorem liveAt4_2 : ∀ t : Fin cfg4.N, cfg4.idle 2 (grid4.coords t) = false :=
  (by decide +kernel : ∀ t : Fin grid4.N, idle4 2 (grid4.coords t) = false)
theorem liveAt4_3 : ∀ t : Fin cfg4.N, cfg4.idle 3 (grid4.coords t) = false :=
  (by decide +kernel : ∀ t : Fin grid4.N, idle4 3 (grid4.coords t) = false)
theorem liveAt4_4 : ∀ t : Fin cfg4.N, cfg4.idle 4 (grid4.coords t) = false :=
  (by decide +kernel : ∀ t : Fin grid4.N, idle4 4 (grid4.coords t) = false)
theorem liveAt4_5 : ∀ t : Fin cfg4.N, cfg4.idle 5 (grid4.coords t) = false :=
  (by decide +kernel : ∀ t : Fin grid4.N, idle4 5 (grid4.coords t) = false)
theorem idleAt4_6 : ∀ t : Fin cfg4.N, ¬t.val % 4 = 3 → cfg4.idle 6 (grid4.coords t) = true :=
  (by decide +kernel : ∀ t : Fin grid4.N, ¬t.val % 4 = 3 → idle4 6 (grid4.coords t) = true)
theorem liveAt4_6 : ∀ t : Fin cfg4.N, t.val % 4 = 3 → cfg4.idle 6 (grid4.coords t) = false :=
  (by decide +kernel : ∀ t : Fin grid4.N, t.val % 4 = 3 → idle4 6 (grid4.coords t) = false)
theorem noFlush4_6 (t : Fin cfg4.N) (h : ¬t.val % 4 = 3) : (cfg4.win 6).flush t = false := by
  cases hf : (cfg4.win 6).flush t with
  | false => rfl
  | true => exact absurd ((flush4_6 t).mp hf) h
theorem idleAt4_7 : ∀ t : Fin cfg4.N, ¬t.val % 4 = 3 → cfg4.idle 7 (grid4.coords t) = true :=
  (by decide +kernel : ∀ t : Fin grid4.N, ¬t.val % 4 = 3 → idle4 7 (grid4.coords t) = true)
theorem liveAt4_7 : ∀ t : Fin cfg4.N, t.val % 4 = 3 → cfg4.idle 7 (grid4.coords t) = false :=
  (by decide +kernel : ∀ t : Fin grid4.N, t.val % 4 = 3 → idle4 7 (grid4.coords t) = false)
theorem noFlush4_7 (t : Fin cfg4.N) (h : ¬t.val % 4 = 3) : (cfg4.win 7).flush t = false := by
  cases hf : (cfg4.win 7).flush t with
  | false => rfl
  | true => exact absurd ((flush4_7 t).mp hf) h

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 4800000 in
/-- The body at any point. The inputs' buffers hold their blocks; `j` says which of the three cases the point is in:
    `j = 0` resets the accumulators (so what they held does not matter: anything at the first point, what the row
    block before left otherwise), `j = 1, 2` add to what the point before left, `j = 3` adds and stores the two
    projections of the accumulators. The score tile is stored at every point; the projection buffers are handed back
    as found unless `j = 3`. The invariant takes the accumulators back at this point's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  have hN : t.val < 16 := lt_of_lt_of_eq t.isLt N4
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  by_cases h0 : t.val % 4 = 0
  · have h1 : ¬t.val % 4 = 3 := by omega
    rw [Dat.leavesExact_idle (dat4 V c) 6 t (idleAt4_6 t h1) (noFlush4_6 t h1)]
    rw [Dat.leavesExact_idle (dat4 V c) 7 t (idleAt4_7 t h1) (noFlush4_7 t h1)]
    rw [accAt4_reset V c t h0]
    unfold accStep; dsimp only
    by_cases hz : t.val = 0
    · rw [PhiS4_castSucc V c t, PhiS4_zero V c _ _ hz, PhiA4_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel4_A c Set.univ (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (xsI V c t) (xsJ V c t) (xtJ V c t) (w3B V c t) (w4B V c t) ((dat4 V c).before 6 t d6) ((dat4 V c).before 7 t d7) _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7
    · rw [PhiS4_castSucc V c t, PhiS4_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel4_A c Set.univ (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (xsI V c t) (xsJ V c t) (xtJ V c t) (w3B V c t) (w4B V c t) ((dat4 V c).before 6 t d6) ((dat4 V c).before 7 t d7) _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexists _; iexact HS0
      isplitl [HS1]; · iexists _; iexact HS1
      iintro ⟨H0, H1, H2, H3, H4, H5, H6, H7, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7
  · have hz : t.val ≠ 0 := fun e => h0 (by rw [e])
    by_cases h1 : t.val % 4 = 3
    ·
      rw [show (dat4 V c).leavesExact 6 t = owns (c : Thread nD τ) (ms4_6 t) fullShare ((dat4 V c).after 6 t) from by
        unfold Dat.leavesExact; rw [liveAt4_6 t h1], after4_6]
      rw [show (dat4 V c).leavesExact 7 t = owns (c : Thread nD τ) (ms4_7 t) fullShare ((dat4 V c).after 7 t) from by
        unfold Dat.leavesExact; rw [liveAt4_7 t h1], after4_7]
      rw [accAt4_step V c t h0]
      unfold accStep; dsimp only
      rw [PhiS4_castSucc V c t, PhiS4_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel4_C c Set.univ (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (xsI V c t) (xsJ V c t) (xtJ V c t) (w3B V c t) (w4B V c t) (accAt4 V c (t.val - 1) (Nat.lt_of_le_of_lt (Nat.sub_le _ _) t.isLt)).1 (accAt4 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    ·
      rw [Dat.leavesExact_idle (dat4 V c) 6 t (idleAt4_6 t h1) (noFlush4_6 t h1)]
      rw [Dat.leavesExact_idle (dat4 V c) 7 t (idleAt4_7 t h1) (noFlush4_7 t h1)]
      rw [accAt4_step V c t h0]
      unfold accStep; dsimp only
      rw [PhiS4_castSucc V c t, PhiS4_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel4_B c Set.univ (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (xsI V c t) (xsJ V c t) (xtJ V c t) (w3B V c t) (w4B V c t) ((dat4 V c).before 6 t d6) ((dat4 V c).before 7 t d7) (accAt4 V c (t.val - 1) (Nat.lt_of_le_of_lt (Nat.sub_le _ _) t.isLt)).1 (accAt4 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 (F := F) V c).Φ 0 := by
  rw [show (dat4 V c).Φ 0 = PhiS4 V c 0 (Nat.zero_le _) from rfl, PhiS4_zero V c 0 _ rfl]
  try exact Idealize.SL.BI.Entails.refl _

/-- After any point but the first the invariant gives the class's back: what the accumulators hold is forgotten. -/
theorem Phi_out4 (c : Dev nD) (t : Fin (cfg4.N + 1)) (ht : t.val ≠ 0) : (dat4 (F := F) V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HS1, HR⟩, Hg⟩
  isplitl [HS0 HS1 HR]
  · isplitl [HS0 HS1]
    · isplitl [HS0]
      · iexists _; iexact HS0
      · iexists _; iexact HS1
    · iexact HR
  iexact Hg

/-- After the last point the invariant gives the class's back: the accumulators' contents are forgotten. -/
theorem hout4 (c : Dev nD) : (dat4 (F := F) V c).Φ (Fin.last cfg4.N) ⊢ Pipeline.ΦA spec4 c :=
  Phi_out4 V c _ (by rw [Fin.val_last]; have : cfg4.N = 16 := N_4; omega)

end Cert.Kernel.Hand

end
-- ==== Proof.KRegs.lean ====
/-
  The five regions as the segments of @main, over thread states "every unscoped buffer at named contents, the generator
  register at some state, nothing owed", and the run of the whole program: every weakly fair execution terminates with
  every unscoped buffer at the last contents, the arguments among them as launched.
-/
import proofs.«178143_j39779987096265_1_alg».proof.Proof.Gen.Kernel.Launch
import proofs.«178143_j39779987096265_1_alg».proof.Proof.Gen.Kernel.Skeleton
import proofs.«178143_j39779987096265_1_alg».proof.Proof.Gen.Kernel.Points
import proofs.«178143_j39779987096265_1_alg».proof.Proof.KFold
import proofs.«178143_j39779987096265_1_alg».proof.Proof.KAttnBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The proof data family and the thread state -/

abbrev adm : (p : Fin 5) → (pcfgs (F := F) p).Adm := fun p => (cfgs p).toPCfg_adm
/-- Every region's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (VV0 m) c
  | ⟨1, _⟩ => fun c => dat1 (VV1 m) c
  | ⟨2, _⟩ => fun c => dat2 (VV2 m) c
  | ⟨3, _⟩ => fun c => dat3 (VV3 m) c
  | ⟨4, _⟩ => fun c => dat4 (VV4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-! ## Region 0 -/

/-- At region 0's exit each of its arrays holds what the pipeline leaves: an input what it held, the output its write-backs. -/
theorem hF0 (c : Dev nD) (w : Fin cfg0.W) : (dat0 (VV0 m) c).arrAt w cfg0.N = VV1 m c (Pipeline.arrRef spec0 w) := by
  match w with
  | ⟨0, _⟩ => exact ((dat0 (VV0 m) c).arrAt_in 0 rfl _).trans ((A_eq0 (VV0 m) c 0).trans (W1_of m c _ (by decide)).symm)
  | ⟨1, _⟩ => exact ((dat0 (VV0 m) c).arrAt_in 1 rfl _).trans ((A_eq0 (VV0 m) c 1).trans (W1_of m c _ (by decide)).symm)
  | ⟨2, _⟩ => exact ((dat0 (VV0 m) c).arrAt_in 2 rfl _).trans ((A_eq0 (VV0 m) c 2).trans (W1_of m c _ (by decide)).symm)
  | ⟨3, _⟩ => exact (W1_out m c).symm
/-- Every other buffer holds what it held at entry. -/
theorem hrest0 (c : Dev nD) : ∀ b, b ∉ Finset.univ.image (Pipeline.arrRef spec0) → VV1 m c b = VV0 m c b :=
  fun b hb => W1_of m c b fun e => hb (Finset.mem_image.mpr ⟨3, Finset.mem_univ _, e.symm⟩)

set_option backward.isDefEq.respectTransparency.types false in
/-- Region 0 over the thread state: its arrays split out of the unscoped buffers and put back at the exit contents; the
    generator register into the class invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VV0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV0 m c) (VV1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- At region 1's exit each of its arrays holds what the pipeline leaves: an input what it held, the output its write-backs. -/
theorem hF1 (c : Dev nD) (w : Fin cfg1.W) : (dat1 (VV1 m) c).arrAt w cfg1.N = VV2 m c (Pipeline.arrRef spec1 w) := by
  match w with
  | ⟨0, _⟩ => exact ((dat1 (VV1 m) c).arrAt_in 0 rfl _).trans ((A_eq1 (VV1 m) c 0).trans (W2_of m c _ (by decide)).symm)
  | ⟨1, _⟩ => exact ((dat1 (VV1 m) c).arrAt_in 1 rfl _).trans ((A_eq1 (VV1 m) c 1).trans (W2_of m c _ (by decide)).symm)
  | ⟨2, _⟩ => exact ((dat1 (VV1 m) c).arrAt_in 2 rfl _).trans ((A_eq1 (VV1 m) c 2).trans (W2_of m c _ (by decide)).symm)
  | ⟨3, _⟩ => exact (W2_out m c).symm
/-- Every other buffer holds what it held at entry. -/
theorem hrest1 (c : Dev nD) : ∀ b, b ∉ Finset.univ.image (Pipeline.arrRef spec1) → VV2 m c b = VV1 m c b :=
  fun b hb => W2_of m c b fun e => hb (Finset.mem_image.mpr ⟨3, Finset.mem_univ _, e.symm⟩)

set_option backward.isDefEq.respectTransparency.types false in
/-- Region 1 over the thread state: its arrays split out of the unscoped buffers and put back at the exit contents; the
    generator register into the class invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (VV1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV1 m c) (VV2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- At region 2's exit each of its arrays holds what the pipeline leaves: an input what it held, the output its write-backs. -/
theorem hF2 (c : Dev nD) (w : Fin cfg2.W) : (dat2 (VV2 m) c).arrAt w cfg2.N = VV3 m c (Pipeline.arrRef spec2 w) := by
  match w with
  | ⟨0, _⟩ => exact ((dat2 (VV2 m) c).arrAt_in 0 rfl _).trans ((A_eq2 (VV2 m) c 0).trans (W3_of m c _ (by decide)).symm)
  | ⟨1, _⟩ => exact ((dat2 (VV2 m) c).arrAt_in 1 rfl _).trans ((A_eq2 (VV2 m) c 1).trans (W3_of m c _ (by decide)).symm)
  | ⟨2, _⟩ => exact ((dat2 (VV2 m) c).arrAt_in 2 rfl _).trans ((A_eq2 (VV2 m) c 2).trans (W3_of m c _ (by decide)).symm)
  | ⟨3, _⟩ => exact (W3_out m c).symm
/-- Every other buffer holds what it held at entry. -/
theorem hrest2 (c : Dev nD) : ∀ b, b ∉ Finset.univ.image (Pipeline.arrRef spec2) → VV3 m c b = VV2 m c b :=
  fun b hb => W3_of m c b fun e => hb (Finset.mem_image.mpr ⟨3, Finset.mem_univ _, e.symm⟩)

set_option backward.isDefEq.respectTransparency.types false in
/-- Region 2 over the thread state: its arrays split out of the unscoped buffers and put back at the exit contents; the
    generator register into the class invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VV2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (VV2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VV2 m c) (VV3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- At region 3's exit each of its arrays holds what the pipeline leaves: an input what it held, the output its write-backs. -/
theorem hF3 (c : Dev nD) (w : Fin cfg3.W) : (dat3 (VV3 m) c).arrAt w cfg3.N = VV4 m c (Pipeline.arrRef spec3 w) := by
  match w with
  | ⟨0, _⟩ => exact ((dat3 (VV3 m) c).arrAt_in 0 rfl _).trans ((A_eq3 (VV3 m) c 0).trans (W4_of m c _ (by decide)).symm)
  | ⟨1, _⟩ => exact ((dat3 (VV3 m) c).arrAt_in 1 rfl _).trans ((A_eq3 (VV3 m) c 1).trans (W4_of m c _ (by decide)).symm)
  | ⟨2, _⟩ => exact ((dat3 (VV3 m) c).arrAt_in 2 rfl _).trans ((A_eq3 (VV3 m) c 2).trans (W4_of m c _ (by decide)).symm)
  | ⟨3, _⟩ => exact (W4_out m c).symm
/-- Every other buffer holds what it held at entry. -/
theorem hrest3 (c : Dev nD) : ∀ b, b ∉ Finset.univ.image (Pipeline.arrRef spec3) → VV4 m c b = VV3 m c b :=
  fun b hb => W4_of m c b fun e => hb (Finset.mem_image.mpr ⟨3, Finset.mem_univ _, e.symm⟩)

set_option backward.isDefEq.respectTransparency.types false in
/-- Region 3 over the thread state: its arrays split out of the unscoped buffers and put back at the exit contents; the
    generator register into the class invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VV3 m) c).loose
  hwaits := Pipeline.hwaits_of_owed_zero _ _ _ _ L lv 3 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec3 c (VV3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (VV3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (VV3 m c) (VV4 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4: two input windows sit on one array -/

/-- At region 4's exit each of its arrays holds what the pipeline leaves. -/
theorem hF4 (c : Dev nD) (w : Fin cfg4.W) : (dat4 (VV4 m) c).arrAt w cfg4.N = VV5 m c (Pipeline.arrRef spec4 w) := by
  match w with
  | ⟨0, _⟩ => exact ((dat4 (VV4 m) c).arrAt_in 0 rfl _).trans ((A_eq4 (VV4 m) c 0).trans (W5_of m c _ (by decide)).symm)
  | ⟨1, _⟩ => exact ((dat4 (VV4 m) c).arrAt_in 1 rfl _).trans ((A_eq4 (VV4 m) c 1).trans (W5_of m c _ (by decide)).symm)
  | ⟨2, _⟩ => exact ((dat4 (VV4 m) c).arrAt_in 2 rfl _).trans ((A_eq4 (VV4 m) c 2).trans (W5_of m c _ (by decide)).symm)
  | ⟨3, _⟩ => exact ((dat4 (VV4 m) c).arrAt_in 3 rfl _).trans ((A_eq4 (VV4 m) c 3).trans (W5_of m c _ (by decide)).symm)
  | ⟨4, _⟩ => exact ((dat4 (VV4 m) c).arrAt_in 4 rfl _).trans ((A_eq4 (VV4 m) c 4).trans (W5_of m c _ (by decide)).symm)
  | ⟨5, _⟩ => exact (W5_out0 m c).symm
  | ⟨6, _⟩ => exact (W5_out1 m c).symm
  | ⟨7, _⟩ => exact (W5_out2 m c).symm

theorem arrBufs4_eq (V : (c : Dev nD) → (b : Ref sig .tc) → Buf (Elt F) ((c : Thread nD τ).loc b)) (c : Dev nD) :
    (Pipeline.arrBufs (Ix := Unit) (Name := ℕ) (U := UR sig nD τ) (Lvl := ℕ) spec4 c (V c) : sProp 𝕄)
      = iprop(((c : Thread nD τ).loc main_v1 ↦{fullShare} V c main_v1) ∗ ((c : Thread nD τ).loc main_v3 ↦{fullShare} V c main_v3) ∗ ((c : Thread nD τ).loc main_arg6 ↦{fullShare} V c main_arg6) ∗ ((c : Thread nD τ).loc main_arg7 ↦{fullShare} V c main_arg7) ∗ ((c : Thread nD τ).loc main_v4_0 ↦{fullShare} V c main_v4_0) ∗ ((c : Thread nD τ).loc main_v4_1 ↦{fullShare} V c main_v4_1) ∗ ((c : Thread nD τ).loc main_v4_2 ↦{fullShare} V c main_v4_2)) := by
  unfold Pipeline.arrBufs
  exact bigSep_eq_bigSepL_of_eq [main_v1, main_v3, main_arg6, main_arg7, main_v4_0, main_v4_1, main_v4_2] (by decide) (by decide) _

/-- The region's arrays at contents `G`, window by window: the two half shares of the one buffer first. -/
theorem arrays4_eq (c : Dev nD) (G : (w : Fin cfg4.W) → Buf (Elt F) ((cfg4.win w).arr.view.loc (c : Thread nD τ))) :
    (dat4 (VV4 m) c).arrays G
      = iprop(((c : Thread nD τ).loc main_v1 ↦{fullShare.left} G 0) ∗ ((c : Thread nD τ).loc main_v1 ↦{fullShare.right} G 1) ∗ ((c : Thread nD τ).loc main_v3 ↦{fullShare} G 2) ∗ ((c : Thread nD τ).loc main_arg6 ↦{fullShare} G 3) ∗ ((c : Thread nD τ).loc main_arg7 ↦{fullShare} G 4) ∗ ((c : Thread nD τ).loc main_v4_0 ↦{fullShare} G 5) ∗ ((c : Thread nD τ).loc main_v4_1 ↦{fullShare} G 6) ∗ ((c : Thread nD τ).loc main_v4_2 ↦{fullShare} G 7)) := by
  unfold Pipeline.Dat.arrays
  rw [bigSep_W4]
  simp only [View.set_whole]
  rfl

theorem pt_congr {ℓ : Loc nD τ sig} {q : PosShare TreeShare} {f g : Buf (Elt F) ℓ} (h : f = g) :
    (ℓ ↦{q} f : sProp 𝕄) ⊢ ℓ ↦{q} g := by subst h; exact .rfl

/-- ENTRY: the seven buffers behind the eight windows' arrays make the region's arrays at the entry contents, the one
    buffer two input windows read split into its two half shares. -/
theorem arrays4_entry (c : Dev nD) :
    (Pipeline.arrBufs (Ix := Unit) (Name := ℕ) (U := UR sig nD τ) (Lvl := ℕ) spec4 c (VV4 m c) : sProp 𝕄)
      ⊢ (dat4 (VV4 m) c).arrays ((dat4 (VV4 m) c).arrAt · 0) := by
  rw [arrBufs4_eq (VV4 m) c, arrays4_eq m c]
  iintro ⟨Hm, H3, H6, H7, H40, H41, H42⟩
  ihave Hm2 := (pointsTo_share (PosShare.mem_left_op_right fullShare)).1 $$ Hm
  icases Hm2 with ⟨Ha, Hb⟩
  isplitl [Ha]; · iexact Ha
  isplitl [Hb]; · iexact Hb
  isplitl [H3]; · iexact H3
  isplitl [H6]; · iexact H6
  isplitl [H7]; · iexact H7
  isplitl [H40]; · iexact H40
  isplitl [H41]; · iexact H41
  iexact H42

/-- EXIT: the region's arrays at their final contents are the seven buffers at the exit contents, the two half shares of
    the one buffer joined again (both hold what the buffer held at entry). -/
theorem arrays4_exit (c : Dev nD) :
    (dat4 (VV4 m) c).arrays ((dat4 (VV4 m) c).arrAt · cfg4.N)
      ⊢ (Pipeline.arrBufs (Ix := Unit) (Name := ℕ) (U := UR sig nD τ) (Lvl := ℕ) spec4 c (VV5 m c) : sProp 𝕄) := by
  rw [arrBufs4_eq (VV5 m) c, arrays4_eq m c]
  iintro ⟨Ha, Hb, H3, H6, H7, H40, H41, H42⟩
  ihave Ha2 := (pt_congr (hF4 m c 0)) $$ Ha
  ihave Hb2 := (pt_congr (hF4 m c 1)) $$ Hb
  ihave Hm := (pointsTo_share (PosShare.mem_left_op_right fullShare)).2 $$ [Ha2 Hb2]
  · isplitl [Ha2] <;> iassumption
  isplitl [Hm]; · iexact Hm
  isplitl [H3]; · iapply (pt_congr (hF4 m c 2)); iexact H3
  isplitl [H6]; · iapply (pt_congr (hF4 m c 3)); iexact H6
  isplitl [H7]; · iapply (pt_congr (hF4 m c 4)); iexact H7
  isplitl [H40]; · iapply (pt_congr (hF4 m c 5)); iexact H40
  isplitl [H41]; · iapply (pt_congr (hF4 m c 6)); iexact H41
  iapply (pt_congr (hF4 m c 7)); iexact H42

/-- No buffer that is no array of region 4 changes across it. -/
theorem rest4_eq (c : Dev nD) :
    (Pipeline.unscopedRest (Ix := Unit) (Name := ℕ) (U := UR sig nD τ) (Lvl := ℕ) spec4 c (VV4 m c) : sProp 𝕄)
      = Pipeline.unscopedRest spec4 c (VV5 m c) := by
  unfold Pipeline.unscopedRest
  refine bigSep_congr fun b hb => ?_
  have hb' := (Finset.mem_sdiff.mp hb).2
  rw [show VV5 m c b = VV4 m c b from W5_of m c b fun h => hb' (by
    rcases List.mem_cons.mp h with rfl | h
    · exact Finset.mem_image.mpr ⟨5, Finset.mem_univ _, rfl⟩
    rcases List.mem_cons.mp h with rfl | h
    · exact Finset.mem_image.mpr ⟨6, Finset.mem_univ _, rfl⟩
    rcases List.mem_cons.mp h with rfl | h
    · exact Finset.mem_image.mpr ⟨7, Finset.mem_univ _, rfl⟩
    exact absurd h (List.not_mem_nil))]

/-- A core's unscoped buffers are the seven buffers behind region 4's arrays and the rest. -/
theorem unscopedBufs_split4 (c : Dev nD) (V : (b : Ref sig .tc) → Buf (Elt F) ((c : Thread nD τ).loc b)) :
    (unscopedBufs c V : sProp 𝕄)
      = iprop(Pipeline.arrBufs (Ix := Unit) (Name := ℕ) (U := UR sig nD τ) (Lvl := ℕ) spec4 c V
          ∗ Pipeline.unscopedRest (Ix := Unit) (Name := ℕ) (U := UR sig nD τ) (Lvl := ℕ) spec4 c V) :=
  Pipeline.unscopedBufs_split₀ cfgs 4 winFacts₀4.arr_unscoped c V

theorem entry4_split (c : Dev nD) :
    StableHlo.held (c : Thread nD τ) (Pipeline.ucRefs τ sig) (W4 m c)
      ⊢ (iprop((dat4 (VV4 m) c).arrays ((dat4 (VV4 m) c).arrAt · 0) ∗ Pipeline.unscopedRest (Ix := Unit) (Name := ℕ) (U := UR sig nD τ) (Lvl := ℕ) spec4 c (VV4 m c)) : sProp 𝕄) := by
  rw [← Pipeline.unscopedBufs_held (Ix := Unit) (Name := ℕ) (U := UR sig nD τ) (Lvl := ℕ) c (W4 m c), unscopedBufs_split4 c (VV4 m c)]
  exact sep_mono (arrays4_entry m c) .rfl

theorem exit4_join (c : Dev nD) :
    (iprop((dat4 (VV4 m) c).arrays ((dat4 (VV4 m) c).arrAt · cfg4.N) ∗ Pipeline.unscopedRest (Ix := Unit) (Name := ℕ) (U := UR sig nD τ) (Lvl := ℕ) spec4 c (VV4 m c)) : sProp 𝕄)
      ⊢ StableHlo.held (c : Thread nD τ) (Pipeline.ucRefs τ sig) (W5 m c) := by
  rw [← Pipeline.unscopedBufs_held (Ix := Unit) (Name := ℕ) (U := UR sig nD τ) (Lvl := ℕ) c (W5 m c), unscopedBufs_split4 c (VV5 m c), rest4_eq m c]
  exact sep_mono (arrays4_exit m c) .rfl

set_option backward.isDefEq.respectTransparency.types false in
/-- Region 4 over the thread state: the buffers behind its arrays split out of the unscoped buffers (the one buffer two
    windows read into its halves) and put back at the exit contents; the generator register and the scoped rest into the
    region's invariant and out; nothing owed; no semaphore of the kernel's own. -/
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (VV4 m) c).loose
  hwaits := Pipeline.hwaits_of_owed_zero _ _ _ _ L lv 4 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec4 c (VV4 m c)
  hentry c := by
    rw [Pipeline.ownSems0_none]
    iintro ⟨⟨Hub, Hp, HO⟩, -, -⟩
    ihave H := (entry4_split m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec4 c : sProp 𝕄) from ?_).trans (hin4 (VV4 m) c)
    unfold Pipeline.ΦA
    iintro ⟨Hp, -, Hr⟩
    isplitl [Hr]; · iexact Hr
    iexact Hp
  hout c := by
    rw [Pipeline.ownSems0_none]
    refine (hout4 (VV4 m) c).trans (show (Pipeline.ΦA spec4 c : sProp 𝕄) ⊢ _ from ?_)
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit4_join m c)
      isplitl [Ha]
      · iexact Ha
      iexact Hrest
    isplitl [HY]; · iexact HY
    unfold Pipeline.Dat.owesAt Pipeline.owesWithin
    icases HO with ⟨%W, -, HO⟩; iexists W; iexact HO

/-! ## @main as the five segments, and the launch -/

variable (ρ : Dev nD → PrngReg)

abbrev segs : List (Pipeline.Seg (pcfgs (F := F)) adm (pdats m) () defs₀ 𝒱₀ L lv) :=
  [ .region (reg0 m), .region (reg1 m), .region (reg2 m), .region (reg3 m), .region (reg4 m) ]
/-- @main IS the run of the segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting, and every
    final state has every unscoped buffer at the last boundary's contents `W5`: the arguments as launched, each
    intermediate layer and each result at what its region wrote. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄) ⊢ _
      iintro ⟨Hh, Hp, HO⟩
      isplitl [Hh Hp]
      · isplitl [Hh]
        · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME, at any float instance: the claim's post read off the run. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W5_arg m c main_arg0 (by decide)),
     (h c _ (mem_uc main_arg1 (by decide))).trans (W5_arg m c main_arg1 (by decide)),
     (h c _ (mem_uc main_arg2 (by decide))).trans (W5_arg m c main_arg2 (by decide)),
     (h c _ (mem_uc main_arg3 (by decide))).trans (W5_arg m c main_arg3 (by decide)),
     (h c _ (mem_uc main_arg4 (by decide))).trans (W5_arg m c main_arg4 (by decide)),
     (h c _ (mem_uc main_arg5 (by decide))).trans (W5_arg m c main_arg5 (by decide)),
     (h c _ (mem_uc main_arg6 (by decide))).trans (W5_arg m c main_arg6 (by decide)),
     (h c _ (mem_uc main_arg7 (by decide))).trans (W5_arg m c main_arg7 (by decide))⟩) (run_all m ρ)

end Cert.Kernel.Hand

end
-- ==== Proof.Spec.lean ====
/-
  The specification both programs are compared with, as functions of the argument arrays over the extended reals.

  A graph layer is `relu ((A · X) · W)`: entry `(r, c)` is `max (∑ k, (∑ l, A[r,l] · X[l,k]) · W[k,c]) 0`.
  Two layers per graph give `Xs` and `Xt` (4096 × 128 each). The score matrix is
  `S[r, n] = exp (∑ k, (∑ l, Xs[r,l] · W3[l,k]) · Xt[n,k])`, and the two projections are `(S · Xs) · W4` and `(S · Xt) · W4`.
  Every sum is a finite sum in the commutative monoid of the extended reals; the zero that `relu` compares with is kept
  as the float word both programs print.
-/
import Idealize.ShloMosaic.PureOps.Ideal
import Idealize.ShloMosaic.Lib.ValueIdx

noncomputable section

open scoped BigOperators

namespace Cert.Spec

open Idealize.ShloMosaic Idealize.ShloMosaic.ValueIdx

/-- An `a × b` matrix of extended reals, indexed as the programs index their rank-2 arrays. -/
abbrev Mat (a b : Nat) : Type := FVec Ideal (⟨2, ![a, b]⟩ : Shape) .f32

/-- The matrix product: entry `(r, c)` is `∑ l, A[r,l] · B[l,c]`. -/
def mm {a k b : Nat} (A : Mat a k) (B : Mat k b) : Mat a b :=
  fun i => ∑ l : Fin k, A (ix2 (n0 := a) (n1 := k) (i 0) l) * B (ix2 (n0 := k) (n1 := b) l (i 1))

theorem mm_apply {a k b : Nat} (A : Mat a k) (B : Mat k b) (r : Fin a) (c : Fin b) :
    mm A B (ix2 r c) = ∑ l : Fin k, A (ix2 r l) * B (ix2 l c) := rfl

/-- `relu`: the maximum with the float zero, entry by entry. -/
def relu {a b : Nat} (X : Mat a b) : Mat a b := fun i => max (X i) (Ideal.ofBits .f32 0x00000000#32)

theorem relu_apply {a b : Nat} (X : Mat a b) (i : (⟨2, ![a, b]⟩ : Shape).Idx) :
    relu X i = max (X i) (Ideal.ofBits .f32 0x00000000#32) := rfl

/-- One graph layer, `relu ((A · X) · W)`. -/
def gcn {d : Nat} (A : Mat 4096 4096) (X : Mat 4096 d) (W : Mat d 128) : Mat 4096 128 := relu (mm (mm A X) W)

/-- The score matrix `exp ((Xs · W3) · Xtᵀ)`: entry `(r, n)` contracts row `r` of `Xs · W3` with row `n` of `Xt`. -/
def scores (Xs Xt : Mat 4096 128) (W3 : Mat 128 128) : Mat 4096 4096 :=
  fun i => Ideal.exp (∑ k : Fin 128, mm Xs W3 (ix2 (n0 := 4096) (n1 := 128) (i 0) k) * Xt (ix2 (n0 := 4096) (n1 := 128) (i 1) k))

theorem scores_apply (Xs Xt : Mat 4096 128) (W3 : Mat 128 128) (r n : Fin 4096) :
    scores Xs Xt W3 (ix2 r n) = Ideal.exp (∑ k : Fin 128, mm Xs W3 (ix2 r k) * Xt (ix2 n k)) := rfl

/-- An output projection `(S · X) · W4`. -/
def proj (S : Mat 4096 4096) (X : Mat 4096 128) (W4 : Mat 128 128) : Mat 4096 128 := mm (mm S X) W4

/-! ## The whole program, from the eight arguments -/

variable (As : Mat 4096 4096) (Xs0 : Mat 4096 256) (At : Mat 4096 4096) (Xt0 : Mat 4096 256)
  (W1 : Mat 256 128) (W2 W3 W4 : Mat 128 128)

/-- The source graph's features after the two layers. -/
def xs2 : Mat 4096 128 := gcn As (gcn As Xs0 W1) W2
/-- The target graph's features after the two layers. -/
def xt2 : Mat 4096 128 := gcn At (gcn At Xt0 W1) W2
/-- The score matrix of the two feature sets. -/
def sMat : Mat 4096 4096 := scores (xs2 As Xs0 W1 W2) (xt2 At Xt0 W1 W2) W3
/-- The first result: the scores applied to the source features, projected. -/
def outS : Mat 4096 128 := proj (sMat As Xs0 At Xt0 W1 W2 W3) (xs2 As Xs0 W1 W2) W4
/-- The second result: the scores applied to the target features, projected. -/
def outT : Mat 4096 128 := proj (sMat As Xs0 At Xt0 W1 W2 W3) (xt2 At Xt0 W1 W2) W4

end Cert.Spec

end
-- ==== Proof.GcnValue0.lean ====
/-
  The value of graph-layer region 0 at the ideal instance, where a float is an extended real: the output array after the
  region's eight points is `relu ((A · X) · W)` of the three input arrays as the region finds them. The body's payload at
  an entry of its block is a maximum of a double sum; point `t` writes back rows `512 t … 512 t + 511` of that function of
  the arrays; the eight row blocks cover the array.
-/
import proofs.«178143_j39779987096265_1_alg».proof.Proof.Gcn0
import proofs.«178143_j39779987096265_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The two matrix products of the payload, at an entry -/

theorem lhs0_a_0 (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
theorem lhs0_a_1 (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q
theorem rhs0_a_0 (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q
theorem rhs0_a_1 (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- The first product `A-block · X` into a zero accumulator, at entry `(p, k)`: the sum over the 4096 columns. -/
theorem mm0_a_apply (a : FVec Ideal S512x4096 .bf16) (b : FVec Ideal S4096x256 .bf16) (p : Fin 512) (k : Fin 256) :
    matmul dot_S512x4096_S4096x256_S512x256_1_0_0_1_n_n none a b (constant S512x256 .f32 0x00000000#32) (ix2 p k)
      = ∑ l : Fin 4096, a (ix2 p l) * b (ix2 l k) := by
  refine (Ideal.matmul_constant_zero_apply dot_S512x4096_S4096x256_S512x256_1_0_0_1_n_n none a b (ix2 p k)).trans ?_
  rw [← Equiv.sum_comp (ValueIdx.contrEquiv1 dot_S512x4096_S4096x256_S512x256_1_0_0_1_n_n 4096 rfl rfl).symm]
  refine Finset.sum_congr rfl fun l _ => ?_
  have hk := ValueIdx.contrEquiv1_symm_val dot_S512x4096_S4096x256_S512x256_1_0_0_1_n_n 4096 rfl rfl l
  have el : dot_S512x4096_S4096x256_S512x256_1_0_0_1_n_n.lhsIdx (ix2 p k) ((ValueIdx.contrEquiv1 dot_S512x4096_S4096x256_S512x256_1_0_0_1_n_n 4096 rfl rfl).symm l) = ix2 p l := funext fun a => Fin.ext (by
    match a with
    | ⟨0, _⟩ => exact lhs0_a_0 _ _
    | ⟨1, _⟩ => exact (lhs0_a_1 _ _).trans hk)
  have er : dot_S512x4096_S4096x256_S512x256_1_0_0_1_n_n.rhsIdx (ix2 p k) ((ValueIdx.contrEquiv1 dot_S512x4096_S4096x256_S512x256_1_0_0_1_n_n 4096 rfl rfl).symm l) = ix2 l k := funext fun a => Fin.ext (by
    match a with
    | ⟨0, _⟩ => exact (rhs0_a_0 _ _).trans hk
    | ⟨1, _⟩ => exact rhs0_a_1 _ _)
  rw [el, er]

theorem lhs0_b_0 (i : S512x128.Idx) (q : dot_S512x256_S256x128_S512x128_1_0_0_1_n_n.contr.Idx) :
    (dot_S512x256_S256x128_S512x128_1_0_0_1_n_n.lhsIdx i q 0).val = (i 0).val := by
  unfold DotDims.lhsIdx
  rw [dif_neg (show ¬(0 : Fin S512x256.rank) ∈ dot_S512x256_S256x128_S512x128_1_0_0_1_n_n.lhsBatch by decide), dif_pos (show (0 : Fin S512x256.rank) ∈ dot_S512x256_S256x128_S512x128_1_0_0_1_n_n.lhsNonContracting by decide)]
  rfl
theorem lhs0_b_1 (i : S512x128.Idx) (q : dot_S512x256_S256x128_S512x128_1_0_0_1_n_n.contr.Idx) :
    (dot_S512x256_S256x128_S512x128_1_0_0_1_n_n.lhsIdx i q 1).val = (q ⟨0, by decide⟩).val :=
  dot_S512x256_S256x128_S512x128_1_0_0_1_n_n.lhsIdx_val_of_single rfl i q
theorem rhs0_b_0 (i : S512x128.Idx) (q : dot_S512x256_S256x128_S512x128_1_0_0_1_n_n.contr.Idx) :
    (dot_S512x256_S256x128_S512x128_1_0_0_1_n_n.rhsIdx i q 0).val = (q ⟨0, by decide⟩).val :=
  dot_S512x256_S256x128_S512x128_1_0_0_1_n_n.rhsIdx_val_of_single rfl i q
theorem rhs0_b_1 (i : S512x128.Idx) (q : dot_S512x256_S256x128_S512x128_1_0_0_1_n_n.contr.Idx) :
    (dot_S512x256_S256x128_S512x128_1_0_0_1_n_n.rhsIdx i q 1).val = (i 1).val := by
  unfold DotDims.rhsIdx
  rw [dif_neg (show ¬(1 : Fin S256x128.rank) ∈ dot_S512x256_S256x128_S512x128_1_0_0_1_n_n.rhsBatch by decide), dif_pos (show (1 : Fin S256x128.rank) ∈ dot_S512x256_S256x128_S512x128_1_0_0_1_n_n.rhsNonContracting by decide)]
  rfl

/-- The second product `(A-block · X) · W` into a zero accumulator, at entry `(p, q)`: the sum over the 256 inner columns. -/
theorem mm0_b_apply (a : FVec Ideal S512x256 .bf16) (b : FVec Ideal S256x128 .bf16) (p : Fin 512) (q : Fin 128) :
    matmul dot_S512x256_S256x128_S512x128_1_0_0_1_n_n none a b (constant S512x128 .f32 0x00000000#32) (ix2 p q)
      = ∑ k : Fin 256, a (ix2 p k) * b (ix2 k q) := by
  refine (Ideal.matmul_constant_zero_apply dot_S512x256_S256x128_S512x128_1_0_0_1_n_n none a b (ix2 p q)).trans ?_
  rw [← Equiv.sum_comp (ValueIdx.contrEquiv1 dot_S512x256_S256x128_S512x128_1_0_0_1_n_n 256 rfl rfl).symm]
  refine Finset.sum_congr rfl fun k _ => ?_
  have hk := ValueIdx.contrEquiv1_symm_val dot_S512x256_S256x128_S512x128_1_0_0_1_n_n 256 rfl rfl k
  have el : dot_S512x256_S256x128_S512x128_1_0_0_1_n_n.lhsIdx (ix2 p q) ((ValueIdx.contrEquiv1 dot_S512x256_S256x128_S512x128_1_0_0_1_n_n 256 rfl rfl).symm k) = ix2 p k := funext fun a => Fin.ext (by
    match a with
    | ⟨0, _⟩ => exact lhs0_b_0 _ _
    | ⟨1, _⟩ => exact (lhs0_b_1 _ _).trans hk)
  have er : dot_S512x256_S256x128_S512x128_1_0_0_1_n_n.rhsIdx (ix2 p q) ((ValueIdx.contrEquiv1 dot_S512x256_S256x128_S512x128_1_0_0_1_n_n 256 rfl rfl).symm k) = ix2 k q := funext fun a => Fin.ext (by
    match a with
    | ⟨0, _⟩ => exact (rhs0_b_0 _ _).trans hk
    | ⟨1, _⟩ => exact rhs0_b_1 _ _)
  rw [el, er]

/-! ## The payload at an entry -/

/-- The body's stored value at entry `(p, q)` of its block, from the three loaded blocks: the format changes are the
    identity, each product is a finite sum, the last step is the maximum with the float zero. -/
theorem pay0_apply (x0 : Vec Ideal S512x4096 .f32) (x1 : Vec Ideal S4096x256 .f32) (x2 : Vec Ideal S256x128 .f32) (p : Fin 512) (q : Fin 128) :
    k0_pay1 (F := Ideal) x0 x1 x2 (ix2 p q)
      = max (∑ k : Fin 256, (∑ l : Fin 4096, x0 (ix2 p l) * x1 (ix2 l k)) * x2 (ix2 k q)) (Ideal.ofBits .f32 0x00000000#32) := by
  unfold k0_pay1
  try simp only [shapeCast_self]
  rw [maximumf_apply]
  refine congrArg₂ max ?_ rfl
  refine (mm0_b_apply _ _ p q).trans ?_
  refine Finset.sum_congr rfl fun k _ => ?_
  rw [truncf_apply, truncf_apply]
  refine congrArg₂ (· * ·) ?_ rfl
  refine (mm0_a_apply _ _ p k).trans ?_
  refine Finset.sum_congr rfl fun l _ => ?_
  rw [truncf_apply, truncf_apply]

/-! ## The blocks as parts of the arrays -/

variable (V : (c : Dev nD) → (b : Ref sig .tc) → Buf (Elt Ideal) ((c : Thread nD τ).loc b))

/-- The printed index maps, decided over the grid: the row-blocked windows (0 and 3) are at block row `t`, the whole-array
    windows (1 and 2) at block zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Window 0's block at point `t` is rows `512 t … 512 t + 511` of `A`. -/
theorem iblk0_0_apply (c : Dev nD) (t : Fin cfg0.N) (x : S512x4096.Idx) (i : S4096x4096.Idx)
    (h0 : (i 0).val = 512 * t.val + (x 0).val) (h1 : (i 1).val = (x 1).val) :
    (iblk0 V c 0 t : Vec Ideal S512x4096 .f32) x = (V c main_arg0 : S4096x4096.Idx → Elt Ideal .f32) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 512 + 1 * (x 0).val = (i 0).val; rw [e0, h0]; omega
  | ⟨1, _⟩ => show win0_0.index t (1 : Fin 2) * 4096 + 1 * (x 1).val = (i 1).val; rw [e1, h1]; omega

/-- Window 1's block at every point is `X` whole. -/
theorem iblk0_1_apply (c : Dev nD) (t : Fin cfg0.N) (x : S4096x256.Idx) :
    (iblk0 V c 1 t : Vec Ideal S4096x256 .f32) x = (V c main_arg1 : S4096x256.Idx → Elt Ideal .f32) x := by
  obtain ⟨-, -, e0, e1, -⟩ := idx_facts0 t
  unfold iblk0
  rw [View.read_apply]
  show V c main_arg1 _ = V c main_arg1 _
  congr 1
  funext a
  apply Fin.ext
  match a with
  | ⟨0, _⟩ => show win0_1.index t (0 : Fin 2) * 4096 + 1 * (x 0).val = (x 0).val; rw [e0]; omega
  | ⟨1, _⟩ => show win0_1.index t (1 : Fin 2) * 256 + 1 * (x 1).val = (x 1).val; rw [e1]; omega

/-- Window 2's block at every point is `W` whole. -/
theorem iblk0_2_apply (c : Dev nD) (t : Fin cfg0.N) (x : S256x128.Idx) :
    (iblk0 V c 2 t : Vec Ideal S256x128 .f32) x = (V c main_arg4 : S256x128.Idx → Elt Ideal .f32) x := by
  obtain ⟨-, -, -, -, e0, e1, -⟩ := idx_facts0 t
  unfold iblk0
  rw [View.read_apply]
  show V c main_arg4 _ = V c main_arg4 _
  congr 1
  funext a
  apply Fin.ext
  match a with
  | ⟨0, _⟩ => show win0_2.index t (0 : Fin 2) * 256 + 1 * (x 0).val = (x 0).val; rw [e0]; omega
  | ⟨1, _⟩ => show win0_2.index t (1 : Fin 2) * 128 + 1 * (x 1).val = (x 1).val; rw [e1]; omega

/-! ## What a point writes back -/

/-- The layer of the three arrays as the region finds them. -/
abbrev G0 (c : Dev nD) : Cert.Spec.Mat 4096 128 :=
  Cert.Spec.gcn (d := 256) (V c main_arg0) (V c main_arg1) (V c main_arg4)

/-- The body's stored block at point `t`, entry `j`, is the layer at row `512 t + j₀`, column `j₁`. -/
theorem point0_eq (c : Dev nD) (t : Fin cfg0.N) (j : S512x128.Idx) (i : S4096x128.Idx)
    (h0 : (i 0).val = 512 * t.val + (j 0).val) (h1 : (i 1).val = (j 1).val) :
    k0_pay1 (F := Ideal) (iblk0 V c 0 t) (iblk0 V c 1 t) (iblk0 V c 2 t) j = G0 V c i := by
  obtain ⟨p, q, rfl⟩ : ∃ (p : Fin 512) (q : Fin 128), j = ix2 p q := ⟨j 0, j 1, eq_ix2 j⟩
  obtain ⟨r, q', rfl⟩ : ∃ (r : Fin 4096) (q' : Fin 128), i = ix2 r q' := ⟨i 0, i 1, eq_ix2 i⟩
  have hr : r.val = 512 * t.val + p.val := h0
  have hq : q' = q := Fin.ext h1
  rw [hq]
  refine (pay0_apply _ _ _ p q).trans ?_
  unfold G0 Cert.Spec.gcn
  rw [Cert.Spec.relu_apply, Cert.Spec.mm_apply]
  refine congrArg₂ max ?_ rfl
  refine Finset.sum_congr rfl fun k _ => ?_
  rw [Cert.Spec.mm_apply]
  refine congrArg₂ (· * ·) ?_ (iblk0_2_apply V c t (ix2 k q))
  refine Finset.sum_congr rfl fun l _ => ?_
  exact congrArg₂ (· * ·) (iblk0_0_apply V c t (ix2 p l) (ix2 r l) hr rfl) (iblk0_1_apply V c t (ix2 l k))

/-- WHAT POINT `t` WRITES BACK is block `t` of the layer. -/
theorem flushed0_eq (c : Dev nD) (t : Fin cfg0.N) :
    (dat0 (F := Ideal) V c).flushed 3 t = ((cfg0.win 3).blk t).view.read (Elt Ideal) (G0 V c) := by
  obtain ⟨-, -, -, -, -, -, e0, e1⟩ := idx_facts0 t
  show (cfg0.win 3).cut (grid0.coords t) ((dat0 V c).after 3 t) = _
  rw [after0_3]
  funext j
  show k0_pay1 (F := Ideal) (iblk0 V c 0 t) (iblk0 V c 1 t) (iblk0 V c 2 t) j = G0 V c (((cfg0.win 3).blk t).view.emb j)
  refine point0_eq V c t j _ ?_ ?_
  · show win0_3.index t (0 : Fin 2) * 512 + 1 * (j 0).val = 512 * t.val + (j 0).val; rw [e0]; omega
  · show win0_3.index t (1 : Fin 2) * 128 + 1 * (j 1).val = (j 1).val; rw [e1]; omega

/-! ## The cover, and the array after the region -/

/-- An index of the array is in point `t`'s block iff each coordinate is in the block's range on its axis. -/
theorem mem_blk0 (t : Fin cfg0.N) (i : S4096x128.Idx) :
    i ∈ ((cfg0.win 3).blk t).view.set ↔ ∀ a : Fin 2, win0_3.index t a * S512x128.size a ≤ (i a).val ∧ (i a).val < win0_3.index t a * S512x128.size a + S512x128.size a := by
  show i ∈ ((View.whole main_v0).slice (win0_3.rect t)).set ↔ _
  rw [View.set_slice_whole, Rect.mem_set_unit]
  exact Iff.rfl

/-- THE ARRAY after the region's eight points: row `r` is written by point `r / 512`, so the array holds the layer. -/
theorem gcn_final0 (c : Dev nD) :
    (dat0 (F := Ideal) V c).arrAt 3 cfg0.N = Cert.Spec.gcn (d := 256) (V c main_arg0) (V c main_arg1) (V c main_arg4) :=
  (dat0 (F := Ideal) V c).arrAt_eq_of_cover 3 (G0 V c) (fun t _ => flushed0_eq V c t) fun i => by
    have hN : cfg0.N = 8 := N_0
    have hi0 : ((i : S4096x128.Idx) 0).val < 4096 := ((i : S4096x128.Idx) 0).isLt
    have hi1 : ((i : S4096x128.Idx) 1).val < 128 := ((i : S4096x128.Idx) 1).isLt
    refine ⟨⟨((i : S4096x128.Idx) 0).val / 512, by omega⟩, flush0_3 _, ?_⟩
    obtain ⟨-, -, -, -, -, -, e0, e1⟩ := idx_facts0 ⟨((i : S4096x128.Idx) 0).val / 512, by omega⟩
    rw [mem_blk0]
    intro a
    match a with
    | ⟨0, _⟩ =>
      show win0_3.index _ (0 : Fin 2) * 512 ≤ ((i : S4096x128.Idx) 0).val ∧ ((i : S4096x128.Idx) 0).val < win0_3.index _ (0 : Fin 2) * 512 + 512
      rw [e0]; show ((i : S4096x128.Idx) 0).val / 512 * 512 ≤ _ ∧ _ < ((i : S4096x128.Idx) 0).val / 512 * 512 + 512; omega
    | ⟨1, _⟩ =>
      show win0_3.index _ (1 : Fin 2) * 128 ≤ ((i : S4096x128.Idx) 1).val ∧ ((i : S4096x128.Idx) 1).val < win0_3.index _ (1 : Fin 2) * 128 + 128
      rw [e1]; omega

end Cert.KernelIdeal.Hand

end
-- ==== Proof.GcnValue1.lean ====
/-
  The value of graph-layer region 1 at the ideal instance, where a float is an extended real: the output array after the
  region's eight points is `relu ((A · X) · W)` of the three input arrays as the region finds them. The body's payload at
  an entry of its block is a maximum of a double sum; point `t` writes back rows `512 t … 512 t + 511` of that function of
  the arrays; the eight row blocks cover the array.
-/
import proofs.«178143_j39779987096265_1_alg».proof.Proof.Gcn1
import proofs.«178143_j39779987096265_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The two matrix products of the payload, at an entry -/

theorem lhs1_a_0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
theorem lhs1_a_1 (i : S512x128.Idx) (q : dot_S512x4096_S4096x128_S512x128_1_0_0_1_n_n.contr.Idx) :
    (dot_S512x4096_S4096x128_S512x128_1_0_0_1_n_n.lhsIdx i q 1).val = (q ⟨0, by decide⟩).val :=
  dot_S512x4096_S4096x128_S512x128_1_0_0_1_n_n.lhsIdx_val_of_single rfl i q
theorem rhs1_a_0 (i : S512x128.Idx) (q : dot_S512x4096_S4096x128_S512x128_1_0_0_1_n_n.contr.Idx) :
    (dot_S512x4096_S4096x128_S512x128_1_0_0_1_n_n.rhsIdx i q 0).val = (q ⟨0, by decide⟩).val :=
  dot_S512x4096_S4096x128_S512x128_1_0_0_1_n_n.rhsIdx_val_of_single rfl i q
theorem rhs1_a_1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

/-- The first product `A-block · X` into a zero accumulator, at entry `(p, k)`: the sum over the 4096 columns. -/
theorem mm1_a_apply (a : FVec Ideal S512x4096 .bf16) (b : FVec Ideal S4096x128 .bf16) (p : Fin 512) (k : Fin 128) :
    matmul dot_S512x4096_S4096x128_S512x128_1_0_0_1_n_n none a b (constant S512x128 .f32 0x00000000#32) (ix2 p k)
      = ∑ l : Fin 4096, a (ix2 p l) * b (ix2 l k) := by
  refine (Ideal.matmul_constant_zero_apply dot_S512x4096_S4096x128_S512x128_1_0_0_1_n_n none a b (ix2 p k)).trans ?_
  rw [← Equiv.sum_comp (ValueIdx.contrEquiv1 dot_S512x4096_S4096x128_S512x128_1_0_0_1_n_n 4096 rfl rfl).symm]
  refine Finset.sum_congr rfl fun l _ => ?_
  have hk := ValueIdx.contrEquiv1_symm_val dot_S512x4096_S4096x128_S512x128_1_0_0_1_n_n 4096 rfl rfl l
  have el : dot_S512x4096_S4096x128_S512x128_1_0_0_1_n_n.lhsIdx (ix2 p k) ((ValueIdx.contrEquiv1 dot_S512x4096_S4096x128_S512x128_1_0_0_1_n_n 4096 rfl rfl).symm l) = ix2 p l := funext fun a => Fin.ext (by
    match a with
    | ⟨0, _⟩ => exact lhs1_a_0 _ _
    | ⟨1, _⟩ => exact (lhs1_a_1 _ _).trans hk)
  have er : dot_S512x4096_S4096x128_S512x128_1_0_0_1_n_n.rhsIdx (ix2 p k) ((ValueIdx.contrEquiv1 dot_S512x4096_S4096x128_S512x128_1_0_0_1_n_n 4096 rfl rfl).symm l) = ix2 l k := funext fun a => Fin.ext (by
    match a with
    | ⟨0, _⟩ => exact (rhs1_a_0 _ _).trans hk
    | ⟨1, _⟩ => exact rhs1_a_1 _ _)
  rw [el, er]

theorem lhs1_b_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem lhs1_b_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem rhs1_b_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem rhs1_b_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The second product `(A-block · X) · W` into a zero accumulator, at entry `(p, q)`: the sum over the 128 inner columns. -/
theorem mm1_b_apply (a : FVec Ideal S512x128 .bf16) (b : FVec Ideal S128x128 .bf16) (p : Fin 512) (q : Fin 128) :
    matmul dot_S512x128_S128x128_S512x128_1_0_0_1_n_n none a b (constant S512x128 .f32 0x00000000#32) (ix2 p q)
      = ∑ k : Fin 128, a (ix2 p k) * b (ix2 k q) := by
  refine (Ideal.matmul_constant_zero_apply dot_S512x128_S128x128_S512x128_1_0_0_1_n_n none a b (ix2 p q)).trans ?_
  rw [← Equiv.sum_comp (ValueIdx.contrEquiv1 dot_S512x128_S128x128_S512x128_1_0_0_1_n_n 128 rfl rfl).symm]
  refine Finset.sum_congr rfl fun k _ => ?_
  have hk := ValueIdx.contrEquiv1_symm_val dot_S512x128_S128x128_S512x128_1_0_0_1_n_n 128 rfl rfl k
  have el : dot_S512x128_S128x128_S512x128_1_0_0_1_n_n.lhsIdx (ix2 p q) ((ValueIdx.contrEquiv1 dot_S512x128_S128x128_S512x128_1_0_0_1_n_n 128 rfl rfl).symm k) = ix2 p k := funext fun a => Fin.ext (by
    match a with
    | ⟨0, _⟩ => exact lhs1_b_0 _ _
    | ⟨1, _⟩ => exact (lhs1_b_1 _ _).trans hk)
  have er : dot_S512x128_S128x128_S512x128_1_0_0_1_n_n.rhsIdx (ix2 p q) ((ValueIdx.contrEquiv1 dot_S512x128_S128x128_S512x128_1_0_0_1_n_n 128 rfl rfl).symm k) = ix2 k q := funext fun a => Fin.ext (by
    match a with
    | ⟨0, _⟩ => exact (rhs1_b_0 _ _).trans hk
    | ⟨1, _⟩ => exact rhs1_b_1 _ _)
  rw [el, er]

/-! ## The payload at an entry -/

/-- The body's stored value at entry `(p, q)` of its block, from the three loaded blocks: the format changes are the
    identity, each product is a finite sum, the last step is the maximum with the float zero. -/
theorem pay1_apply (x0 : Vec Ideal S512x4096 .f32) (x1 : Vec Ideal S4096x128 .f32) (x2 : Vec Ideal S128x128 .f32) (p : Fin 512) (q : Fin 128) :
    k1_pay1 (F := Ideal) x0 x1 x2 (ix2 p q)
      = max (∑ k : Fin 128, (∑ l : Fin 4096, x0 (ix2 p l) * x1 (ix2 l k)) * x2 (ix2 k q)) (Ideal.ofBits .f32 0x00000000#32) := by
  unfold k1_pay1
  try simp only [shapeCast_self]
  rw [maximumf_apply]
  refine congrArg₂ max ?_ rfl
  refine (mm1_b_apply _ _ p q).trans ?_
  refine Finset.sum_congr rfl fun k _ => ?_
  rw [truncf_apply, truncf_apply]
  refine congrArg₂ (· * ·) ?_ rfl
  refine (mm1_a_apply _ _ p k).trans ?_
  refine Finset.sum_congr rfl fun l _ => ?_
  rw [truncf_apply, truncf_apply]

/-! ## The blocks as parts of the arrays -/

variable (V : (c : Dev nD) → (b : Ref sig .tc) → Buf (Elt Ideal) ((c : Thread nD τ).loc b))

/-- The printed index maps, decided over the grid: the row-blocked windows (0 and 3) are at block row `t`, the whole-array
    windows (1 and 2) at block zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Window 0's block at point `t` is rows `512 t … 512 t + 511` of `A`. -/
theorem iblk1_0_apply (c : Dev nD) (t : Fin cfg1.N) (x : S512x4096.Idx) (i : S4096x4096.Idx)
    (h0 : (i 0).val = 512 * t.val + (x 0).val) (h1 : (i 1).val = (x 1).val) :
    (iblk1 V c 0 t : Vec Ideal S512x4096 .f32) x = (V c main_arg0 : S4096x4096.Idx → Elt Ideal .f32) i := by
  obtain ⟨e0, e1, -⟩ := idx_facts1 t
  unfold iblk1
  rw [View.read_apply]
  show V c main_arg0 _ = V c main_arg0 _
  congr 1
  funext a
  apply Fin.ext
  match a with
  | ⟨0, _⟩ => show win1_0.index t (0 : Fin 2) * 512 + 1 * (x 0).val = (i 0).val; rw [e0, h0]; omega
  | ⟨1, _⟩ => show win1_0.index t (1 : Fin 2) * 4096 + 1 * (x 1).val = (i 1).val; rw [e1, h1]; omega

/-- Window 1's block at every point is `X` whole. -/
theorem iblk1_1_apply (c : Dev nD) (t : Fin cfg1.N) (x : S4096x128.Idx) :
    (iblk1 V c 1 t : Vec Ideal S4096x128 .f32) x = (V c main_v0 : S4096x128.Idx → Elt Ideal .f32) x := by
  obtain ⟨-, -, e0, e1, -⟩ := idx_facts1 t
  unfold iblk1
  rw [View.read_apply]
  show V c main_v0 _ = V c main_v0 _
  congr 1
  funext a
  apply Fin.ext
  match a with
  | ⟨0, _⟩ => show win1_1.index t (0 : Fin 2) * 4096 + 1 * (x 0).val = (x 0).val; rw [e0]; omega
  | ⟨1, _⟩ => show win1_1.index t (1 : Fin 2) * 128 + 1 * (x 1).val = (x 1).val; rw [e1]; omega

/-- Window 2's block at every point is `W` whole. -/
theorem iblk1_2_apply (c : Dev nD) (t : Fin cfg1.N) (x : S128x128.Idx) :
    (iblk1 V c 2 t : Vec Ideal S128x128 .f32) x = (V c main_arg5 : S128x128.Idx → Elt Ideal .f32) x := by
  obtain ⟨-, -, -, -, e0, e1, -⟩ := idx_facts1 t
  unfold iblk1
  rw [View.read_apply]
  show V c main_arg5 _ = V c main_arg5 _
  congr 1
  funext a
  apply Fin.ext
  match a with
  | ⟨0, _⟩ => show win1_2.index t (0 : Fin 2) * 128 + 1 * (x 0).val = (x 0).val; rw [e0]; omega
  | ⟨1, _⟩ => show win1_2.index t (1 : Fin 2) * 128 + 1 * (x 1).val = (x 1).val; rw [e1]; omega

/-! ## What a point writes back -/

/-- The layer of the three arrays as the region finds them. -/
abbrev G1 (c : Dev nD) : Cert.Spec.Mat 4096 128 :=
  Cert.Spec.gcn (d := 128) (V c main_arg0) (V c main_v0) (V c main_arg5)

/-- The body's stored block at point `t`, entry `j`, is the layer at row `512 t + j₀`, column `j₁`. -/
theorem point1_eq (c : Dev nD) (t : Fin cfg1.N) (j : S512x128.Idx) (i : S4096x128.Idx)
    (h0 : (i 0).val = 512 * t.val + (j 0).val) (h1 : (i 1).val = (j 1).val) :
    k1_pay1 (F := Ideal) (iblk1 V c 0 t) (iblk1 V c 1 t) (iblk1 V c 2 t) j = G1 V c i := by
  obtain ⟨p, q, rfl⟩ : ∃ (p : Fin 512) (q : Fin 128), j = ix2 p q := ⟨j 0, j 1, eq_ix2 j⟩
  obtain ⟨r, q', rfl⟩ : ∃ (r : Fin 4096) (q' : Fin 128), i = ix2 r q' := ⟨i 0, i 1, eq_ix2 i⟩
  have hr : r.val = 512 * t.val + p.val := h0
  have hq : q' = q := Fin.ext h1
  rw [hq]
  refine (pay1_apply _ _ _ p q).trans ?_
  unfold G1 Cert.Spec.gcn
  rw [Cert.Spec.relu_apply, Cert.Spec.mm_apply]
  refine congrArg₂ max ?_ rfl
  refine Finset.sum_congr rfl fun k _ => ?_
  rw [Cert.Spec.mm_apply]
  refine congrArg₂ (· * ·) ?_ (iblk1_2_apply V c t (ix2 k q))
  refine Finset.sum_congr rfl fun l _ => ?_
  exact congrArg₂ (· * ·) (iblk1_0_apply V c t (ix2 p l) (ix2 r l) hr rfl) (iblk1_1_apply V c t (ix2 l k))

/-- WHAT POINT `t` WRITES BACK is block `t` of the layer. -/
theorem flushed1_eq (c : Dev nD) (t : Fin cfg1.N) :
    (dat1 (F := Ideal) V c).flushed 3 t = ((cfg1.win 3).blk t).view.read (Elt Ideal) (G1 V c) := by
  obtain ⟨-, -, -, -, -, -, e0, e1⟩ := idx_facts1 t
  show (cfg1.win 3).cut (grid1.coords t) ((dat1 V c).after 3 t) = _
  rw [after1_3]
  funext j
  show k1_pay1 (F := Ideal) (iblk1 V c 0 t) (iblk1 V c 1 t) (iblk1 V c 2 t) j = G1 V c (((cfg1.win 3).blk t).view.emb j)
  refine point1_eq V c t j _ ?_ ?_
  · show win1_3.index t (0 : Fin 2) * 512 + 1 * (j 0).val = 512 * t.val + (j 0).val; rw [e0]; omega
  · show win1_3.index t (1 : Fin 2) * 128 + 1 * (j 1).val = (j 1).val; rw [e1]; omega

/-! ## The cover, and the array after the region -/

/-- An index of the array is in point `t`'s block iff each coordinate is in the block's range on its axis. -/
theorem mem_blk1 (t : Fin cfg1.N) (i : S4096x128.Idx) :
    i ∈ ((cfg1.win 3).blk t).view.set ↔ ∀ a : Fin 2, win1_3.index t a * S512x128.size a ≤ (i a).val ∧ (i a).val < win1_3.index t a * S512x128.size a + S512x128.size a := by
  show i ∈ ((View.whole main_v1).slice (win1_3.rect t)).set ↔ _
  rw [View.set_slice_whole, Rect.mem_set_unit]
  exact Iff.rfl

/-- THE ARRAY after the region's eight points: row `r` is written by point `r / 512`, so the array holds the layer. -/
theorem gcn_final1 (c : Dev nD) :
    (dat1 (F := Ideal) V c).arrAt 3 cfg1.N = Cert.Spec.gcn (d := 128) (V c main_arg0) (V c main_v0) (V c main_arg5) :=
  (dat1 (F := Ideal) V c).arrAt_eq_of_cover 3 (G1 V c) (fun t _ => flushed1_eq V c t) fun i => by
    have hN : cfg1.N = 8 := N_1
    have hi0 : ((i : S4096x128.Idx) 0).val < 4096 := ((i : S4096x128.Idx) 0).isLt
    have hi1 : ((i : S4096x128.Idx) 1).val < 128 := ((i : S4096x128.Idx) 1).isLt
    refine ⟨⟨((i : S4096x128.Idx) 0).val / 512, by omega⟩, flush1_3 _, ?_⟩
    obtain ⟨-, -, -, -, -, -, e0, e1⟩ := idx_facts1 ⟨((i : S4096x128.Idx) 0).val / 512, by omega⟩
    rw [mem_blk1]
    intro a
    match a with
    | ⟨0, _⟩ =>
      show win1_3.index _ (0 : Fin 2) * 512 ≤ ((i : S4096x128.Idx) 0).val ∧ ((i : S4096x128.Idx) 0).val < win1_3.index _ (0 : Fin 2) * 512 + 512
      rw [e0]; show ((i : S4096x128.Idx) 0).val / 512 * 512 ≤ _ ∧ _ < ((i : S4096x128.Idx) 0).val / 512 * 512 + 512; omega
    | ⟨1, _⟩ =>
      show win1_3.index _ (1 : Fin 2) * 128 ≤ ((i : S4096x128.Idx) 1).val ∧ ((i : S4096x128.Idx) 1).val < win1_3.index _ (1 : Fin 2) * 128 + 128
      rw [e1]; omega

end Cert.KernelIdeal.Hand

end
-- ==== Proof.GcnValue2.lean ====
/-
  The value of graph-layer region 2 at the ideal instance, where a float is an extended real: the output array after the
  region's eight points is `relu ((A · X) · W)` of the three input arrays as the region finds them. The body's payload at
  an entry of its block is a maximum of a double sum; point `t` writes back rows `512 t … 512 t + 511` of that function of
  the arrays; the eight row blocks cover the array.
-/
import proofs.«178143_j39779987096265_1_alg».proof.Proof.Gcn2
import proofs.«178143_j39779987096265_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The two matrix products of the payload, at an entry -/

theorem lhs2_a_0 (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
theorem lhs2_a_1 (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q
theorem rhs2_a_0 (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q
theorem rhs2_a_1 (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- The first product `A-block · X` into a zero accumulator, at entry `(p, k)`: the sum over the 4096 columns. -/
theorem mm2_a_apply (a : FVec Ideal S512x4096 .bf16) (b : FVec Ideal S4096x256 .bf16) (p : Fin 512) (k : Fin 256) :
    matmul dot_S512x4096_S4096x256_S512x256_1_0_0_1_n_n none a b (constant S512x256 .f32 0x00000000#32) (ix2 p k)
      = ∑ l : Fin 4096, a (ix2 p l) * b (ix2 l k) := by
  refine (Ideal.matmul_constant_zero_apply dot_S512x4096_S4096x256_S512x256_1_0_0_1_n_n none a b (ix2 p k)).trans ?_
  rw [← Equiv.sum_comp (ValueIdx.contrEquiv1 dot_S512x4096_S4096x256_S512x256_1_0_0_1_n_n 4096 rfl rfl).symm]
  refine Finset.sum_congr rfl fun l _ => ?_
  have hk := ValueIdx.contrEquiv1_symm_val dot_S512x4096_S4096x256_S512x256_1_0_0_1_n_n 4096 rfl rfl l
  have el : dot_S512x4096_S4096x256_S512x256_1_0_0_1_n_n.lhsIdx (ix2 p k) ((ValueIdx.contrEquiv1 dot_S512x4096_S4096x256_S512x256_1_0_0_1_n_n 4096 rfl rfl).symm l) = ix2 p l := funext fun a => Fin.ext (by
    match a with
    | ⟨0, _⟩ => exact lhs2_a_0 _ _
    | ⟨1, _⟩ => exact (lhs2_a_1 _ _).trans hk)
  have er : dot_S512x4096_S4096x256_S512x256_1_0_0_1_n_n.rhsIdx (ix2 p k) ((ValueIdx.contrEquiv1 dot_S512x4096_S4096x256_S512x256_1_0_0_1_n_n 4096 rfl rfl).symm l) = ix2 l k := funext fun a => Fin.ext (by
    match a with
    | ⟨0, _⟩ => exact (rhs2_a_0 _ _).trans hk
    | ⟨1, _⟩ => exact rhs2_a_1 _ _)
  rw [el, er]

theorem lhs2_b_0 (i : S512x128.Idx) (q : dot_S512x256_S256x128_S512x128_1_0_0_1_n_n.contr.Idx) :
    (dot_S512x256_S256x128_S512x128_1_0_0_1_n_n.lhsIdx i q 0).val = (i 0).val := by
  unfold DotDims.lhsIdx
  rw [dif_neg (show ¬(0 : Fin S512x256.rank) ∈ dot_S512x256_S256x128_S512x128_1_0_0_1_n_n.lhsBatch by decide), dif_pos (show (0 : Fin S512x256.rank) ∈ dot_S512x256_S256x128_S512x128_1_0_0_1_n_n.lhsNonContracting by decide)]
  rfl
theorem lhs2_b_1 (i : S512x128.Idx) (q : dot_S512x256_S256x128_S512x128_1_0_0_1_n_n.contr.Idx) :
    (dot_S512x256_S256x128_S512x128_1_0_0_1_n_n.lhsIdx i q 1).val = (q ⟨0, by decide⟩).val :=
  dot_S512x256_S256x128_S512x128_1_0_0_1_n_n.lhsIdx_val_of_single rfl i q
theorem rhs2_b_0 (i : S512x128.Idx) (q : dot_S512x256_S256x128_S512x128_1_0_0_1_n_n.contr.Idx) :
    (dot_S512x256_S256x128_S512x128_1_0_0_1_n_n.rhsIdx i q 0).val = (q ⟨0, by decide⟩).val :=
  dot_S512x256_S256x128_S512x128_1_0_0_1_n_n.rhsIdx_val_of_single rfl i q
theorem rhs2_b_1 (i : S512x128.Idx) (q : dot_S512x256_S256x128_S512x128_1_0_0_1_n_n.contr.Idx) :
    (dot_S512x256_S256x128_S512x128_1_0_0_1_n_n.rhsIdx i q 1).val = (i 1).val := by
  unfold DotDims.rhsIdx
  rw [dif_neg (show ¬(1 : Fin S256x128.rank) ∈ dot_S512x256_S256x128_S512x128_1_0_0_1_n_n.rhsBatch by decide), dif_pos (show (1 : Fin S256x128.rank) ∈ dot_S512x256_S256x128_S512x128_1_0_0_1_n_n.rhsNonContracting by decide)]
  rfl

/-- The second product `(A-block · X) · W` into a zero accumulator, at entry `(p, q)`: the sum over the 256 inner columns. -/
theorem mm2_b_apply (a : FVec Ideal S512x256 .bf16) (b : FVec Ideal S256x128 .bf16) (p : Fin 512) (q : Fin 128) :
    matmul dot_S512x256_S256x128_S512x128_1_0_0_1_n_n none a b (constant S512x128 .f32 0x00000000#32) (ix2 p q)
      = ∑ k : Fin 256, a (ix2 p k) * b (ix2 k q) := by
  refine (Ideal.matmul_constant_zero_apply dot_S512x256_S256x128_S512x128_1_0_0_1_n_n none a b (ix2 p q)).trans ?_
  rw [← Equiv.sum_comp (ValueIdx.contrEquiv1 dot_S512x256_S256x128_S512x128_1_0_0_1_n_n 256 rfl rfl).symm]
  refine Finset.sum_congr rfl fun k _ => ?_
  have hk := ValueIdx.contrEquiv1_symm_val dot_S512x256_S256x128_S512x128_1_0_0_1_n_n 256 rfl rfl k
  have el : dot_S512x256_S256x128_S512x128_1_0_0_1_n_n.lhsIdx (ix2 p q) ((ValueIdx.contrEquiv1 dot_S512x256_S256x128_S512x128_1_0_0_1_n_n 256 rfl rfl).symm k) = ix2 p k := funext fun a => Fin.ext (by
    match a with
    | ⟨0, _⟩ => exact lhs2_b_0 _ _
    | ⟨1, _⟩ => exact (lhs2_b_1 _ _).trans hk)
  have er : dot_S512x256_S256x128_S512x128_1_0_0_1_n_n.rhsIdx (ix2 p q) ((ValueIdx.contrEquiv1 dot_S512x256_S256x128_S512x128_1_0_0_1_n_n 256 rfl rfl).symm k) = ix2 k q := funext fun a => Fin.ext (by
    match a with
    | ⟨0, _⟩ => exact (rhs2_b_0 _ _).trans hk
    | ⟨1, _⟩ => exact rhs2_b_1 _ _)
  rw [el, er]

/-! ## The payload at an entry -/

/-- The body's stored value at entry `(p, q)` of its block, from the three loaded blocks: the format changes are the
    identity, each product is a finite sum, the last step is the maximum with the float zero. -/
theorem pay2_apply (x0 : Vec Ideal S512x4096 .f32) (x1 : Vec Ideal S4096x256 .f32) (x2 : Vec Ideal S256x128 .f32) (p : Fin 512) (q : Fin 128) :
    k2_pay1 (F := Ideal) x0 x1 x2 (ix2 p q)
      = max (∑ k : Fin 256, (∑ l : Fin 4096, x0 (ix2 p l) * x1 (ix2 l k)) * x2 (ix2 k q)) (Ideal.ofBits .f32 0x00000000#32) := by
  unfold k2_pay1
  try simp only [shapeCast_self]
  rw [maximumf_apply]
  refine congrArg₂ max ?_ rfl
  refine (mm2_b_apply _ _ p q).trans ?_
  refine Finset.sum_congr rfl fun k _ => ?_
  rw [truncf_apply, truncf_apply]
  refine congrArg₂ (· * ·) ?_ rfl
  refine (mm2_a_apply _ _ p k).trans ?_
  refine Finset.sum_congr rfl fun l _ => ?_
  rw [truncf_apply, truncf_apply]

/-! ## The blocks as parts of the arrays -/

variable (V : (c : Dev nD) → (b : Ref sig .tc) → Buf (Elt Ideal) ((c : Thread nD τ).loc b))

/-- The printed index maps, decided over the grid: the row-blocked windows (0 and 3) are at block row `t`, the whole-array
    windows (1 and 2) at block zero. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Window 0's block at point `t` is rows `512 t … 512 t + 511` of `A`. -/
theorem iblk2_0_apply (c : Dev nD) (t : Fin cfg2.N) (x : S512x4096.Idx) (i : S4096x4096.Idx)
    (h0 : (i 0).val = 512 * t.val + (x 0).val) (h1 : (i 1).val = (x 1).val) :
    (iblk2 V c 0 t : Vec Ideal S512x4096 .f32) x = (V c main_arg2 : S4096x4096.Idx → Elt Ideal .f32) i := by
  obtain ⟨e0, e1, -⟩ := idx_facts2 t
  unfold iblk2
  rw [View.read_apply]
  show V c main_arg2 _ = V c main_arg2 _
  congr 1
  funext a
  apply Fin.ext
  match a with
  | ⟨0, _⟩ => show win2_0.index t (0 : Fin 2) * 512 + 1 * (x 0).val = (i 0).val; rw [e0, h0]; omega
  | ⟨1, _⟩ => show win2_0.index t (1 : Fin 2) * 4096 + 1 * (x 1).val = (i 1).val; rw [e1, h1]; omega

/-- Window 1's block at every point is `X` whole. -/
theorem iblk2_1_apply (c : Dev nD) (t : Fin cfg2.N) (x : S4096x256.Idx) :
    (iblk2 V c 1 t : Vec Ideal S4096x256 .f32) x = (V c main_arg3 : S4096x256.Idx → Elt Ideal .f32) x := by
  obtain ⟨-, -, e0, e1, -⟩ := idx_facts2 t
  unfold iblk2
  rw [View.read_apply]
  show V c main_arg3 _ = V c main_arg3 _
  congr 1
  funext a
  apply Fin.ext
  match a with
  | ⟨0, _⟩ => show win2_1.index t (0 : Fin 2) * 4096 + 1 * (x 0).val = (x 0).val; rw [e0]; omega
  | ⟨1, _⟩ => show win2_1.index t (1 : Fin 2) * 256 + 1 * (x 1).val = (x 1).val; rw [e1]; omega

/-- Window 2's block at every point is `W` whole. -/
theorem iblk2_2_apply (c : Dev nD) (t : Fin cfg2.N) (x : S256x128.Idx) :
    (iblk2 V c 2 t : Vec Ideal S256x128 .f32) x = (V c main_arg4 : S256x128.Idx → Elt Ideal .f32) x := by
  obtain ⟨-, -, -, -, e0, e1, -⟩ := idx_facts2 t
  unfold iblk2
  rw [View.read_apply]
  show V c main_arg4 _ = V c main_arg4 _
  congr 1
  funext a
  apply Fin.ext
  match a with
  | ⟨0, _⟩ => show win2_2.index t (0 : Fin 2) * 256 + 1 * (x 0).val = (x 0).val; rw [e0]; omega
  | ⟨1, _⟩ => show win2_2.index t (1 : Fin 2) * 128 + 1 * (x 1).val = (x 1).val; rw [e1]; omega

/-! ## What a point writes back -/

/-- The layer of the three arrays as the region finds them. -/
abbrev G2 (c : Dev nD) : Cert.Spec.Mat 4096 128 :=
  Cert.Spec.gcn (d := 256) (V c main_arg2) (V c main_arg3) (V c main_arg4)

/-- The body's stored block at point `t`, entry `j`, is the layer at row `512 t + j₀`, column `j₁`. -/
theorem point2_eq (c : Dev nD) (t : Fin cfg2.N) (j : S512x128.Idx) (i : S4096x128.Idx)
    (h0 : (i 0).val = 512 * t.val + (j 0).val) (h1 : (i 1).val = (j 1).val) :
    k2_pay1 (F := Ideal) (iblk2 V c 0 t) (iblk2 V c 1 t) (iblk2 V c 2 t) j = G2 V c i := by
  obtain ⟨p, q, rfl⟩ : ∃ (p : Fin 512) (q : Fin 128), j = ix2 p q := ⟨j 0, j 1, eq_ix2 j⟩
  obtain ⟨r, q', rfl⟩ : ∃ (r : Fin 4096) (q' : Fin 128), i = ix2 r q' := ⟨i 0, i 1, eq_ix2 i⟩
  have hr : r.val = 512 * t.val + p.val := h0
  have hq : q' = q := Fin.ext h1
  rw [hq]
  refine (pay2_apply _ _ _ p q).trans ?_
  unfold G2 Cert.Spec.gcn
  rw [Cert.Spec.relu_apply, Cert.Spec.mm_apply]
  refine congrArg₂ max ?_ rfl
  refine Finset.sum_congr rfl fun k _ => ?_
  rw [Cert.Spec.mm_apply]
  refine congrArg₂ (· * ·) ?_ (iblk2_2_apply V c t (ix2 k q))
  refine Finset.sum_congr rfl fun l _ => ?_
  exact congrArg₂ (· * ·) (iblk2_0_apply V c t (ix2 p l) (ix2 r l) hr rfl) (iblk2_1_apply V c t (ix2 l k))

/-- WHAT POINT `t` WRITES BACK is block `t` of the layer. -/
theorem flushed2_eq (c : Dev nD) (t : Fin cfg2.N) :
    (dat2 (F := Ideal) V c).flushed 3 t = ((cfg2.win 3).blk t).view.read (Elt Ideal) (G2 V c) := by
  obtain ⟨-, -, -, -, -, -, e0, e1⟩ := idx_facts2 t
  show (cfg2.win 3).cut (grid2.coords t) ((dat2 V c).after 3 t) = _
  rw [after2_3]
  funext j
  show k2_pay1 (F := Ideal) (iblk2 V c 0 t) (iblk2 V c 1 t) (iblk2 V c 2 t) j = G2 V c (((cfg2.win 3).blk t).view.emb j)
  refine point2_eq V c t j _ ?_ ?_
  · show win2_3.index t (0 : Fin 2) * 512 + 1 * (j 0).val = 512 * t.val + (j 0).val; rw [e0]; omega
  · show win2_3.index t (1 : Fin 2) * 128 + 1 * (j 1).val = (j 1).val; rw [e1]; omega

/-! ## The cover, and the array after the region -/

/-- An index of the array is in point `t`'s block iff each coordinate is in the block's range on its axis. -/
theorem mem_blk2 (t : Fin cfg2.N) (i : S4096x128.Idx) :
    i ∈ ((cfg2.win 3).blk t).view.set ↔ ∀ a : Fin 2, win2_3.index t a * S512x128.size a ≤ (i a).val ∧ (i a).val < win2_3.index t a * S512x128.size a + S512x128.size a := by
  show i ∈ ((View.whole main_v2).slice (win2_3.rect t)).set ↔ _
  rw [View.set_slice_whole, Rect.mem_set_unit]
  exact Iff.rfl

/-- THE ARRAY after the region's eight points: row `r` is written by point `r / 512`, so the array holds the layer. -/
theorem gcn_final2 (c : Dev nD) :
    (dat2 (F := Ideal) V c).arrAt 3 cfg2.N = Cert.Spec.gcn (d := 256) (V c main_arg2) (V c main_arg3) (V c main_arg4) :=
  (dat2 (F := Ideal) V c).arrAt_eq_of_cover 3 (G2 V c) (fun t _ => flushed2_eq V c t) fun i => by
    have hN : cfg2.N = 8 := N_2
    have hi0 : ((i : S4096x128.Idx) 0).val < 4096 := ((i : S4096x128.Idx) 0).isLt
    have hi1 : ((i : S4096x128.Idx) 1).val < 128 := ((i : S4096x128.Idx) 1).isLt
    refine ⟨⟨((i : S4096x128.Idx) 0).val / 512, by omega⟩, flush2_3 _, ?_⟩
    obtain ⟨-, -, -, -, -, -, e0, e1⟩ := idx_facts2 ⟨((i : S4096x128.Idx) 0).val / 512, by omega⟩
    rw [mem_blk2]
    intro a
    match a with
    | ⟨0, _⟩ =>
      show win2_3.index _ (0 : Fin 2) * 512 ≤ ((i : S4096x128.Idx) 0).val ∧ ((i : S4096x128.Idx) 0).val < win2_3.index _ (0 : Fin 2) * 512 + 512
      rw [e0]; show ((i : S4096x128.Idx) 0).val / 512 * 512 ≤ _ ∧ _ < ((i : S4096x128.Idx) 0).val / 512 * 512 + 512; omega
    | ⟨1, _⟩ =>
      show win2_3.index _ (1 : Fin 2) * 128 ≤ ((i : S4096x128.Idx) 1).val ∧ ((i : S4096x128.Idx) 1).val < win2_3.index _ (1 : Fin 2) * 128 + 128
      rw [e1]; omega

end Cert.KernelIdeal.Hand

end
-- ==== Proof.GcnValue3.lean ====
/-
  The value of graph-layer region 3 at the ideal instance, where a float is an extended real: the output array after the
  region's eight points is `relu ((A · X) · W)` of the three input arrays as the region finds them. The body's payload at
  an entry of its block is a maximum of a double sum; point `t` writes back rows `512 t … 512 t + 511` of that function of
  the arrays; the eight row blocks cover the array.
-/
import proofs.«178143_j39779987096265_1_alg».proof.Proof.Gcn3
import proofs.«178143_j39779987096265_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The two matrix products of the payload, at an entry -/

theorem lhs3_a_0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
theorem lhs3_a_1 (i : S512x128.Idx) (q : dot_S512x4096_S4096x128_S512x128_1_0_0_1_n_n.contr.Idx) :
    (dot_S512x4096_S4096x128_S512x128_1_0_0_1_n_n.lhsIdx i q 1).val = (q ⟨0, by decide⟩).val :=
  dot_S512x4096_S4096x128_S512x128_1_0_0_1_n_n.lhsIdx_val_of_single rfl i q
theorem rhs3_a_0 (i : S512x128.Idx) (q : dot_S512x4096_S4096x128_S512x128_1_0_0_1_n_n.contr.Idx) :
    (dot_S512x4096_S4096x128_S512x128_1_0_0_1_n_n.rhsIdx i q 0).val = (q ⟨0, by decide⟩).val :=
  dot_S512x4096_S4096x128_S512x128_1_0_0_1_n_n.rhsIdx_val_of_single rfl i q
theorem rhs3_a_1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

/-- The first product `A-block · X` into a zero accumulator, at entry `(p, k)`: the sum over the 4096 columns. -/
theorem mm3_a_apply (a : FVec Ideal S512x4096 .bf16) (b : FVec Ideal S4096x128 .bf16) (p : Fin 512) (k : Fin 128) :
    matmul dot_S512x4096_S4096x128_S512x128_1_0_0_1_n_n none a b (constant S512x128 .f32 0x00000000#32) (ix2 p k)
      = ∑ l : Fin 4096, a (ix2 p l) * b (ix2 l k) := by
  refine (Ideal.matmul_constant_zero_apply dot_S512x4096_S4096x128_S512x128_1_0_0_1_n_n none a b (ix2 p k)).trans ?_
  rw [← Equiv.sum_comp (ValueIdx.contrEquiv1 dot_S512x4096_S4096x128_S512x128_1_0_0_1_n_n 4096 rfl rfl).symm]
  refine Finset.sum_congr rfl fun l _ => ?_
  have hk := ValueIdx.contrEquiv1_symm_val dot_S512x4096_S4096x128_S512x128_1_0_0_1_n_n 4096 rfl rfl l
  have el : dot_S512x4096_S4096x128_S512x128_1_0_0_1_n_n.lhsIdx (ix2 p k) ((ValueIdx.contrEquiv1 dot_S512x4096_S4096x128_S512x128_1_0_0_1_n_n 4096 rfl rfl).symm l) = ix2 p l := funext fun a => Fin.ext (by
    match a with
    | ⟨0, _⟩ => exact lhs3_a_0 _ _
    | ⟨1, _⟩ => exact (lhs3_a_1 _ _).trans hk)
  have er : dot_S512x4096_S4096x128_S512x128_1_0_0_1_n_n.rhsIdx (ix2 p k) ((ValueIdx.contrEquiv1 dot_S512x4096_S4096x128_S512x128_1_0_0_1_n_n 4096 rfl rfl).symm l) = ix2 l k := funext fun a => Fin.ext (by
    match a with
    | ⟨0, _⟩ => exact (rhs3_a_0 _ _).trans hk
    | ⟨1, _⟩ => exact rhs3_a_1 _ _)
  rw [el, er]

theorem lhs3_b_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem lhs3_b_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem rhs3_b_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem rhs3_b_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The second product `(A-block · X) · W` into a zero accumulator, at entry `(p, q)`: the sum over the 128 inner columns. -/
theorem mm3_b_apply (a : FVec Ideal S512x128 .bf16) (b : FVec Ideal S128x128 .bf16) (p : Fin 512) (q : Fin 128) :
    matmul dot_S512x128_S128x128_S512x128_1_0_0_1_n_n none a b (constant S512x128 .f32 0x00000000#32) (ix2 p q)
      = ∑ k : Fin 128, a (ix2 p k) * b (ix2 k q) := by
  refine (Ideal.matmul_constant_zero_apply dot_S512x128_S128x128_S512x128_1_0_0_1_n_n none a b (ix2 p q)).trans ?_
  rw [← Equiv.sum_comp (ValueIdx.contrEquiv1 dot_S512x128_S128x128_S512x128_1_0_0_1_n_n 128 rfl rfl).symm]
  refine Finset.sum_congr rfl fun k _ => ?_
  have hk := ValueIdx.contrEquiv1_symm_val dot_S512x128_S128x128_S512x128_1_0_0_1_n_n 128 rfl rfl k
  have el : dot_S512x128_S128x128_S512x128_1_0_0_1_n_n.lhsIdx (ix2 p q) ((ValueIdx.contrEquiv1 dot_S512x128_S128x128_S512x128_1_0_0_1_n_n 128 rfl rfl).symm k) = ix2 p k := funext fun a => Fin.ext (by
    match a with
    | ⟨0, _⟩ => exact lhs3_b_0 _ _
    | ⟨1, _⟩ => exact (lhs3_b_1 _ _).trans hk)
  have er : dot_S512x128_S128x128_S512x128_1_0_0_1_n_n.rhsIdx (ix2 p q) ((ValueIdx.contrEquiv1 dot_S512x128_S128x128_S512x128_1_0_0_1_n_n 128 rfl rfl).symm k) = ix2 k q := funext fun a => Fin.ext (by
    match a with
    | ⟨0, _⟩ => exact (rhs3_b_0 _ _).trans hk
    | ⟨1, _⟩ => exact rhs3_b_1 _ _)
  rw [el, er]

/-! ## The payload at an entry -/

/-- The body's stored value at entry `(p, q)` of its block, from the three loaded blocks: the format changes are the
    identity, each product is a finite sum, the last step is the maximum with the float zero. -/
theorem pay3_apply (x0 : Vec Ideal S512x4096 .f32) (x1 : Vec Ideal S4096x128 .f32) (x2 : Vec Ideal S128x128 .f32) (p : Fin 512) (q : Fin 128) :
    k3_pay1 (F := Ideal) x0 x1 x2 (ix2 p q)
      = max (∑ k : Fin 128, (∑ l : Fin 4096, x0 (ix2 p l) * x1 (ix2 l k)) * x2 (ix2 k q)) (Ideal.ofBits .f32 0x00000000#32) := by
  unfold k3_pay1
  try simp only [shapeCast_self]
  rw [maximumf_apply]
  refine congrArg₂ max ?_ rfl
  refine (mm3_b_apply _ _ p q).trans ?_
  refine Finset.sum_congr rfl fun k _ => ?_
  rw [truncf_apply, truncf_apply]
  refine congrArg₂ (· * ·) ?_ rfl
  refine (mm3_a_apply _ _ p k).trans ?_
  refine Finset.sum_congr rfl fun l _ => ?_
  rw [truncf_apply, truncf_apply]

/-! ## The blocks as parts of the arrays -/

variable (V : (c : Dev nD) → (b : Ref sig .tc) → Buf (Elt Ideal) ((c : Thread nD τ).loc b))

/-- The printed index maps, decided over the grid: the row-blocked windows (0 and 3) are at block row `t`, the whole-array
    windows (1 and 2) at block zero. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Window 0's block at point `t` is rows `512 t … 512 t + 511` of `A`. -/
theorem iblk3_0_apply (c : Dev nD) (t : Fin cfg3.N) (x : S512x4096.Idx) (i : S4096x4096.Idx)
    (h0 : (i 0).val = 512 * t.val + (x 0).val) (h1 : (i 1).val = (x 1).val) :
    (iblk3 V c 0 t : Vec Ideal S512x4096 .f32) x = (V c main_arg2 : S4096x4096.Idx → Elt Ideal .f32) i := by
  obtain ⟨e0, e1, -⟩ := idx_facts3 t
  unfold iblk3
  rw [View.read_apply]
  show V c main_arg2 _ = V c main_arg2 _
  congr 1
  funext a
  apply Fin.ext
  match a with
  | ⟨0, _⟩ => show win3_0.index t (0 : Fin 2) * 512 + 1 * (x 0).val = (i 0).val; rw [e0, h0]; omega
  | ⟨1, _⟩ => show win3_0.index t (1 : Fin 2) * 4096 + 1 * (x 1).val = (i 1).val; rw [e1, h1]; omega

/-- Window 1's block at every point is `X` whole. -/
theorem iblk3_1_apply (c : Dev nD) (t : Fin cfg3.N) (x : S4096x128.Idx) :
    (iblk3 V c 1 t : Vec Ideal S4096x128 .f32) x = (V c main_v2 : S4096x128.Idx → Elt Ideal .f32) x := by
  obtain ⟨-, -, e0, e1, -⟩ := idx_facts3 t
  unfold iblk3
  rw [View.read_apply]
  show V c main_v2 _ = V c main_v2 _
  congr 1
  funext a
  apply Fin.ext
  match a with
  | ⟨0, _⟩ => show win3_1.index t (0 : Fin 2) * 4096 + 1 * (x 0).val = (x 0).val; rw [e0]; omega
  | ⟨1, _⟩ => show win3_1.index t (1 : Fin 2) * 128 + 1 * (x 1).val = (x 1).val; rw [e1]; omega

/-- Window 2's block at every point is `W` whole. -/
theorem iblk3_2_apply (c : Dev nD) (t : Fin cfg3.N) (x : S128x128.Idx) :
    (iblk3 V c 2 t : Vec Ideal S128x128 .f32) x = (V c main_arg5 : S128x128.Idx → Elt Ideal .f32) x := by
  obtain ⟨-, -, -, -, e0, e1, -⟩ := idx_facts3 t
  unfold iblk3
  rw [View.read_apply]
  show V c main_arg5 _ = V c main_arg5 _
  congr 1
  funext a
  apply Fin.ext
  match a with
  | ⟨0, _⟩ => show win3_2.index t (0 : Fin 2) * 128 + 1 * (x 0).val = (x 0).val; rw [e0]; omega
  | ⟨1, _⟩ => show win3_2.index t (1 : Fin 2) * 128 + 1 * (x 1).val = (x 1).val; rw [e1]; omega

/-! ## What a point writes back -/

/-- The layer of the three arrays as the region finds them. -/
abbrev G3 (c : Dev nD) : Cert.Spec.Mat 4096 128 :=
  Cert.Spec.gcn (d := 128) (V c main_arg2) (V c main_v2) (V c main_arg5)

/-- The body's stored block at point `t`, entry `j`, is the layer at row `512 t + j₀`, column `j₁`. -/
theorem point3_eq (c : Dev nD) (t : Fin cfg3.N) (j : S512x128.Idx) (i : S4096x128.Idx)
    (h0 : (i 0).val = 512 * t.val + (j 0).val) (h1 : (i 1).val = (j 1).val) :
    k3_pay1 (F := Ideal) (iblk3 V c 0 t) (iblk3 V c 1 t) (iblk3 V c 2 t) j = G3 V c i := by
  obtain ⟨p, q, rfl⟩ : ∃ (p : Fin 512) (q : Fin 128), j = ix2 p q := ⟨j 0, j 1, eq_ix2 j⟩
  obtain ⟨r, q', rfl⟩ : ∃ (r : Fin 4096) (q' : Fin 128), i = ix2 r q' := ⟨i 0, i 1, eq_ix2 i⟩
  have hr : r.val = 512 * t.val + p.val := h0
  have hq : q' = q := Fin.ext h1
  rw [hq]
  refine (pay3_apply _ _ _ p q).trans ?_
  unfold G3 Cert.Spec.gcn
  rw [Cert.Spec.relu_apply, Cert.Spec.mm_apply]
  refine congrArg₂ max ?_ rfl
  refine Finset.sum_congr rfl fun k _ => ?_
  rw [Cert.Spec.mm_apply]
  refine congrArg₂ (· * ·) ?_ (iblk3_2_apply V c t (ix2 k q))
  refine Finset.sum_congr rfl fun l _ => ?_
  exact congrArg₂ (· * ·) (iblk3_0_apply V c t (ix2 p l) (ix2 r l) hr rfl) (iblk3_1_apply V c t (ix2 l k))

/-- WHAT POINT `t` WRITES BACK is block `t` of the layer. -/
theorem flushed3_eq (c : Dev nD) (t : Fin cfg3.N) :
    (dat3 (F := Ideal) V c).flushed 3 t = ((cfg3.win 3).blk t).view.read (Elt Ideal) (G3 V c) := by
  obtain ⟨-, -, -, -, -, -, e0, e1⟩ := idx_facts3 t
  show (cfg3.win 3).cut (grid3.coords t) ((dat3 V c).after 3 t) = _
  rw [after3_3]
  funext j
  show k3_pay1 (F := Ideal) (iblk3 V c 0 t) (iblk3 V c 1 t) (iblk3 V c 2 t) j = G3 V c (((cfg3.win 3).blk t).view.emb j)
  refine point3_eq V c t j _ ?_ ?_
  · show win3_3.index t (0 : Fin 2) * 512 + 1 * (j 0).val = 512 * t.val + (j 0).val; rw [e0]; omega
  · show win3_3.index t (1 : Fin 2) * 128 + 1 * (j 1).val = (j 1).val; rw [e1]; omega

/-! ## The cover, and the array after the region -/

/-- An index of the array is in point `t`'s block iff each coordinate is in the block's range on its axis. -/
theorem mem_blk3 (t : Fin cfg3.N) (i : S4096x128.Idx) :
    i ∈ ((cfg3.win 3).blk t).view.set ↔ ∀ a : Fin 2, win3_3.index t a * S512x128.size a ≤ (i a).val ∧ (i a).val < win3_3.index t a * S512x128.size a + S512x128.size a := by
  show i ∈ ((View.whole main_v3).slice (win3_3.rect t)).set ↔ _
  rw [View.set_slice_whole, Rect.mem_set_unit]
  exact Iff.rfl

/-- THE ARRAY after the region's eight points: row `r` is written by point `r / 512`, so the array holds the layer. -/
theorem gcn_final3 (c : Dev nD) :
    (dat3 (F := Ideal) V c).arrAt 3 cfg3.N = Cert.Spec.gcn (d := 128) (V c main_arg2) (V c main_v2) (V c main_arg5) :=
  (dat3 (F := Ideal) V c).arrAt_eq_of_cover 3 (G3 V c) (fun t _ => flushed3_eq V c t) fun i => by
    have hN : cfg3.N = 8 := N_3
    have hi0 : ((i : S4096x128.Idx) 0).val < 4096 := ((i : S4096x128.Idx) 0).isLt
    have hi1 : ((i : S4096x128.Idx) 1).val < 128 := ((i : S4096x128.Idx) 1).isLt
    refine ⟨⟨((i : S4096x128.Idx) 0).val / 512, by omega⟩, flush3_3 _, ?_⟩
    obtain ⟨-, -, -, -, -, -, e0, e1⟩ := idx_facts3 ⟨((i : S4096x128.Idx) 0).val / 512, by omega⟩
    rw [mem_blk3]
    intro a
    match a with
    | ⟨0, _⟩ =>
      show win3_3.index _ (0 : Fin 2) * 512 ≤ ((i : S4096x128.Idx) 0).val ∧ ((i : S4096x128.Idx) 0).val < win3_3.index _ (0 : Fin 2) * 512 + 512
      rw [e0]; show ((i : S4096x128.Idx) 0).val / 512 * 512 ≤ _ ∧ _ < ((i : S4096x128.Idx) 0).val / 512 * 512 + 512; omega
    | ⟨1, _⟩ =>
      show win3_3.index _ (1 : Fin 2) * 128 ≤ ((i : S4096x128.Idx) 1).val ∧ ((i : S4096x128.Idx) 1).val < win3_3.index _ (1 : Fin 2) * 128 + 128
      rw [e1]; omega

end Cert.KernelIdeal.Hand

end
-- ==== Proof.GcnValue.lean ====
/-
  The four graph-layer regions' values at the ideal instance, gathered: `gcn_final0` … `gcn_final3` say that each region's
  output array ends holding `relu ((A · X) · W)` of the region's three input arrays.
-/
import proofs.«178143_j39779987096265_1_alg».proof.Proof.GcnValue0
import proofs.«178143_j39779987096265_1_alg».proof.Proof.GcnValue1
import proofs.«178143_j39779987096265_1_alg».proof.Proof.GcnValue2
import proofs.«178143_j39779987096265_1_alg».proof.Proof.GcnValue3
-- ==== Proof.AttnTileValue.lean ====
/-
  The score tile at the ideal instance. At a grid point `t = 4·i + j` the body stores
  `exp ((x0 · x3) · x2ᵀ)` of its row block `x0` of `Xs`, of `W3` whole as `x3`, and of its row block `x2` of `Xt`:
  entry `(p, q)` is `exp (∑ k, (∑ l, x0[p,l] · x3[l,k]) · x2[q,k])`. Row block `i` of `Xs` is rows `1024·i …`, row block `j`
  of `Xt` is rows `1024·j …`, and the tile is written back to rows `1024·i …`, columns `1024·j …` of the score array; the
  sixteen tiles cover it, so the array ends at `S[r, n] = exp (∑ k, (∑ l, Xs[r,l] · W3[l,k]) · Xt[n,k])`.
-/
import proofs.«178143_j39779987096265_1_alg».proof.Proof.AttnDat
import proofs.«178143_j39779987096265_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The two products of the tile, at an entry

Each is a `tpu.matmul` with one contracting axis into a zero accumulator: at the ideal instance the plain finite sum
over that axis. -/

theorem lhs_tileXW_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_tileXW_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_tileXW_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_tileXW_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl
/-- Entry `(r, n)` of that product into a zero accumulator is `∑ k, L[r,k] · R[k,n]`. -/
theorem tileXW_apply (L : FVec Ideal S1024x128 .bf16) (R : FVec Ideal S128x128 .bf16) (r : Fin 1024) (n : Fin 128) :
    matmul dot_S1024x128_S128x128_S1024x128_1_0_0_1_n_n none L R (constant S1024x128 .f32 0x00000000#32) (ix2 r n)
      = ∑ k : Fin 128, L (ix2 r k) * R (ix2 k n) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 r n) ((contrEquiv1 dot_S1024x128_S128x128_S1024x128_1_0_0_1_n_n 128 rfl rfl).symm k) = ix2 r k := funext fun a => Fin.ext (by
    match a with
    | ⟨0, _⟩ => exact lhs_tileXW_0 _ _
    | ⟨1, _⟩ => exact (lhs_tileXW_1 _ _).trans hk)
  have er : dot_S1024x128_S128x128_S1024x128_1_0_0_1_n_n.rhsIdx (ix2 r n) ((contrEquiv1 dot_S1024x128_S128x128_S1024x128_1_0_0_1_n_n 128 rfl rfl).symm k) = ix2 k n := funext fun a => Fin.ext (by
    match a with
    | ⟨0, _⟩ => exact (rhs_tileXW_0 _ _).trans hk
    | ⟨1, _⟩ => exact rhs_tileXW_1 _ _)
  rw [el, er]

theorem lhs_tileST_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem lhs_tileST_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
theorem rhs_tileST_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
theorem rhs_tileST_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl
/-- Entry `(r, n)` of that product into a zero accumulator is `∑ k, L[r,k] · R[k,n]`. -/
theorem tileST_apply (L : FVec Ideal S1024x128 .bf16) (R : FVec Ideal S128x1024 .bf16) (r : Fin 1024) (n : Fin 1024) :
    matmul dot_S1024x128_S128x1024_S1024x1024_1_0_0_1_n_n none L R (constant S1024x1024 .f32 0x00000000#32) (ix2 r n)
      = ∑ k : Fin 128, L (ix2 r k) * R (ix2 k n) := by
  simp only [matmul]
  rw [Ideal.matmul_constant_zero_apply, ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 r n) ((contrEquiv1 dot_S1024x128_S128x1024_S1024x1024_1_0_0_1_n_n 128 rfl rfl).symm k) = ix2 r k := funext fun a => Fin.ext (by
    match a with
    | ⟨0, _⟩ => exact lhs_tileST_0 _ _
    | ⟨1, _⟩ => exact (lhs_tileST_1 _ _).trans hk)
  have er : dot_S1024x128_S128x1024_S1024x1024_1_0_0_1_n_n.rhsIdx (ix2 r n) ((contrEquiv1 dot_S1024x128_S128x1024_S1024x1024_1_0_0_1_n_n 128 rfl rfl).symm k) = ix2 k n := funext fun a => Fin.ext (by
    match a with
    | ⟨0, _⟩ => exact (rhs_tileST_0 _ _).trans hk
    | ⟨1, _⟩ => exact rhs_tileST_1 _ _)
  rw [el, er]

/-! ## The tile's payload at an entry -/

/-- Entry `(p, q)` of the stored tile: the format changes and the cast to the same shape are the identity, the
    transposed operand reads `x2` at `(q, k)`. -/
theorem tile_apply (x0 : Vec Ideal S1024x128 .f32) (x3 : Vec Ideal S128x128 .f32) (x2 : Vec Ideal S1024x128 .f32)
    (p q : Fin 1024) :
    k4_pay8 (F := Ideal) x0 x3 x2 (ix2 p q)
      = Ideal.exp (∑ k : Fin 128, (∑ l : Fin 128, x0 (ix2 p l) * x3 (ix2 l k)) * x2 (ix2 q k)) := by
  unfold k4_pay8 k4_pay7
  dsimp only
  refine congrArg Ideal.exp ?_
  refine (tileST_apply _ _ p q).trans ?_
  refine Finset.sum_congr rfl fun k _ => ?_
  refine congrArg₂ (· * ·) ?_ ?_
  · refine (tileXW_apply _ _ p k).trans ?_
    refine Finset.sum_congr rfl fun l _ => ?_
    exact congrArg₂ (· * ·) (congrFun (shapeCast_self x0 _) _) rfl
  · refine (transpose_ix2_apply _ _ k q).trans ?_
    exact congrFun (shapeCast_self x2 _) _

/-! ## The windows' block indices, over the grid

Point `t = 4·i + j` has `i = t / 4` and `j = t % 4`. -/

theorem idx4_0 : ∀ t : Fin cfg4.N, win4_0.index t (0 : Fin 2) = t.val / 4 ∧ win4_0.index t (1 : Fin 2) = 0 :=
  (by decide +kernel : ∀ t : Fin grid4.N, win4_0.index t (0 : Fin 2) = t.val / 4 ∧ win4_0.index t (1 : Fin 2) = 0)
theorem idx4_1 : ∀ t : Fin cfg4.N, win4_1.index t (0 : Fin 2) = t.val % 4 ∧ win4_1.index t (1 : Fin 2) = 0 :=
  (by decide +kernel : ∀ t : Fin grid4.N, win4_1.index t (0 : Fin 2) = t.val % 4 ∧ win4_1.index t (1 : Fin 2) = 0)
theorem idx4_2 : ∀ t : Fin cfg4.N, win4_2.index t (0 : Fin 2) = t.val % 4 ∧ win4_2.index t (1 : Fin 2) = 0 :=
  (by decide +kernel : ∀ t : Fin grid4.N, win4_2.index t (0 : Fin 2) = t.val % 4 ∧ win4_2.index t (1 : Fin 2) = 0)
theorem idx4_3 : ∀ t : Fin cfg4.N, win4_3.index t (0 : Fin 2) = 0 ∧ win4_3.index t (1 : Fin 2) = 0 :=
  (by decide +kernel : ∀ t : Fin grid4.N, win4_3.index t (0 : Fin 2) = 0 ∧ win4_3.index t (1 : Fin 2) = 0)
theorem idx4_4 : ∀ t : Fin cfg4.N, win4_4.index t (0 : Fin 2) = 0 ∧ win4_4.index t (1 : Fin 2) = 0 :=
  (by decide +kernel : ∀ t : Fin grid4.N, win4_4.index t (0 : Fin 2) = 0 ∧ win4_4.index t (1 : Fin 2) = 0)
theorem idx4_5 : ∀ t : Fin cfg4.N, win4_5.index t (0 : Fin 2) = t.val / 4 ∧ win4_5.index t (1 : Fin 2) = t.val % 4 :=
  (by decide +kernel : ∀ t : Fin grid4.N, win4_5.index t (0 : Fin 2) = t.val / 4 ∧ win4_5.index t (1 : Fin 2) = t.val % 4)

/-! ## The input blocks as rows of their arrays

A block's entry sits in the array at block index × block size + the coordinate inside the block, axis by axis. These
hold at every float instance. -/

section Blocks

variable {F : FTy → Type} [FloatOps F]
variable (V : (c : Dev nD) → (b : Ref sig .tc) → Buf (Elt F) ((c : Thread nD τ).loc b))

/-- Window 0's block at a point is rows block `i` of `Xs`: entry `x` of the block is the array's entry `k` with `k₀ = 1024·(t / 4) + x₀`, `k₁ = x₁`. -/
theorem xsI_apply (c : Dev nD) (t : Fin cfg4.N) (x : S1024x128.Idx) (k : S4096x128.Idx)
    (hk0 : (k 0).val = 1024 * (t.val / 4) + (x 0).val) (hk1 : (k 1).val = (x 1).val) :
    xsI V c t x = (V c main_v1 : S4096x128.Idx → Elt F .f32) k := by
  have hi : win4_0.index t (0 : Fin 2) = t.val / 4 ∧ win4_0.index t (1 : Fin 2) = 0 := idx4_0 t
  unfold xsI iblk4
  rw [View.read_apply]
  show V c main_v1 _ = V c main_v1 _
  congr 1
  funext a
  apply Fin.ext
  match a with
  | ⟨0, _⟩ => show win4_0.index t (0 : Fin 2) * 1024 + 1 * (x 0).val = (k 0).val; rw [hi.1, hk0]; omega
  | ⟨1, _⟩ => show win4_0.index t (1 : Fin 2) * 128 + 1 * (x 1).val = (k 1).val; rw [hi.2, hk1]; omega

/-- Window 1's block at a point is rows block `j` of `Xs`: entry `x` of the block is the array's entry `k` with `k₀ = 1024·(t % 4) + x₀`, `k₁ = x₁`. -/
theorem xsJ_apply (c : Dev nD) (t : Fin cfg4.N) (x : S1024x128.Idx) (k : S4096x128.Idx)
    (hk0 : (k 0).val = 1024 * (t.val % 4) + (x 0).val) (hk1 : (k 1).val = (x 1).val) :
    xsJ V c t x = (V c main_v1 : S4096x128.Idx → Elt F .f32) k := by
  have hi : win4_1.index t (0 : Fin 2) = t.val % 4 ∧ win4_1.index t (1 : Fin 2) = 0 := idx4_1 t
  unfold xsJ iblk4
  rw [View.read_apply]
  show V c main_v1 _ = V c main_v1 _
  congr 1
  funext a
  apply Fin.ext
  match a with
  | ⟨0, _⟩ => show win4_1.index t (0 : Fin 2) * 1024 + 1 * (x 0).val = (k 0).val; rw [hi.1, hk0]; omega
  | ⟨1, _⟩ => show win4_1.index t (1 : Fin 2) * 128 + 1 * (x 1).val = (k 1).val; rw [hi.2, hk1]; omega

/-- Window 2's block at a point is rows block `j` of `Xt`: entry `x` of the block is the array's entry `k` with `k₀ = 1024·(t % 4) + x₀`, `k₁ = x₁`. -/
theorem xtJ_apply (c : Dev nD) (t : Fin cfg4.N) (x : S1024x128.Idx) (k : S4096x128.Idx)
    (hk0 : (k 0).val = 1024 * (t.val % 4) + (x 0).val) (hk1 : (k 1).val = (x 1).val) :
    xtJ V c t x = (V c main_v3 : S4096x128.Idx → Elt F .f32) k := by
  have hi : win4_2.index t (0 : Fin 2) = t.val % 4 ∧ win4_2.index t (1 : Fin 2) = 0 := idx4_2 t
  unfold xtJ iblk4
  rw [View.read_apply]
  show V c main_v3 _ = V c main_v3 _
  congr 1
  funext a
  apply Fin.ext
  match a with
  | ⟨0, _⟩ => show win4_2.index t (0 : Fin 2) * 1024 + 1 * (x 0).val = (k 0).val; rw [hi.1, hk0]; omega
  | ⟨1, _⟩ => show win4_2.index t (1 : Fin 2) * 128 + 1 * (x 1).val = (k 1).val; rw [hi.2, hk1]; omega

/-- Window 3's block at a point is `W3` whole: entry `x` of the block is the array's entry `k` with the same coordinates. -/
theorem w3B_apply (c : Dev nD) (t : Fin cfg4.N) (x : S128x128.Idx) (k : S128x128.Idx)
    (hk0 : (k 0).val = (x 0).val) (hk1 : (k 1).val = (x 1).val) :
    w3B V c t x = (V c main_arg6 : S128x128.Idx → Elt F .f32) k := by
  have hi : win4_3.index t (0 : Fin 2) = 0 ∧ win4_3.index t (1 : Fin 2) = 0 := idx4_3 t
  unfold w3B iblk4
  rw [View.read_apply]
  show V c main_arg6 _ = V c main_arg6 _
  congr 1
  funext a
  apply Fin.ext
  match a with
  | ⟨0, _⟩ => show win4_3.index t (0 : Fin 2) * 128 + 1 * (x 0).val = (k 0).val; rw [hi.1, hk0]; omega
  | ⟨1, _⟩ => show win4_3.index t (1 : Fin 2) * 128 + 1 * (x 1).val = (k 1).val; rw [hi.2, hk1]; omega

/-- Window 4's block at a point is `W4` whole: entry `x` of the block is the array's entry `k` with the same coordinates. -/
theorem w4B_apply (c : Dev nD) (t : Fin cfg4.N) (x : S128x128.Idx) (k : S128x128.Idx)
    (hk0 : (k 0).val = (x 0).val) (hk1 : (k 1).val = (x 1).val) :
    w4B V c t x = (V c main_arg7 : S128x128.Idx → Elt F .f32) k := by
  have hi : win4_4.index t (0 : Fin 2) = 0 ∧ win4_4.index t (1 : Fin 2) = 0 := idx4_4 t
  unfold w4B iblk4
  rw [View.read_apply]
  show V c main_arg7 _ = V c main_arg7 _
  congr 1
  funext a
  apply Fin.ext
  match a with
  | ⟨0, _⟩ => show win4_4.index t (0 : Fin 2) * 128 + 1 * (x 0).val = (k 0).val; rw [hi.1, hk0]; omega
  | ⟨1, _⟩ => show win4_4.index t (1 : Fin 2) * 128 + 1 * (x 1).val = (k 1).val; rw [hi.2, hk1]; omega

end Blocks

/-! ## What a point writes back, the cover, and the array after the region -/

section Final

variable (V : (c : Dev nD) → (b : Ref sig .tc) → Buf (Elt Ideal) ((c : Thread nD τ).loc b))

/-- What point `t = 4·i + j` writes back is block `(i, j)` of the score matrix of the arrays as the region finds them:
    tile entry `(p, q)` is score entry `(1024·i + p, 1024·j + q)`, the blocks of `Xs` and `Xt` being rows
    `1024·i + p` and `1024·j + q`. -/
theorem flushed5_eq (c : Dev nD) (t : Fin cfg4.N) :
    (dat4 V c).flushed 5 t = ((cfg4.win 5).blk t).view.read (Elt Ideal) (Cert.Spec.scores (V c main_v1) (V c main_v3) (V c main_arg6)) := by
  show (cfg4.win 5).cut (grid4.coords t) ((dat4 V c).after 5 t) = _
  rw [after4_5]
  have ht : t.val < 16 := lt_of_lt_of_eq t.isLt N_4
  obtain ⟨e50, e51⟩ := idx4_5 t
  refine funext fun (j : S1024x1024.Idx) => ?_
  obtain ⟨p, q, rfl⟩ : ∃ (p q : Fin 1024), j = ix2 p q := ⟨j 0, j 1, eq_ix2 j⟩
  have hemb : ((cfg4.win 5).blk t).view.emb (ix2 p q)
      = (ix2 (⟨1024 * (t.val / 4) + p.val, by omega⟩ : Fin 4096) (⟨1024 * (t.val % 4) + q.val, by omega⟩ : Fin 4096) : S4096x4096.Idx) := by
    funext a
    apply Fin.ext
    match a with
    | ⟨0, _⟩ => show win4_5.index t (0 : Fin 2) * 1024 + 1 * p.val = 1024 * (t.val / 4) + p.val; rw [e50]; omega
    | ⟨1, _⟩ => show win4_5.index t (1 : Fin 2) * 1024 + 1 * q.val = 1024 * (t.val % 4) + q.val; rw [e51]; omega
  rw [View.read_apply, hemb, Cert.Spec.scores_apply]
  show k4_pay8 (xsI V c t) (w3B V c t) (xtJ V c t) (ix2 p q) = _
  refine (tile_apply (xsI V c t) (w3B V c t) (xtJ V c t) p q).trans ?_
  refine congrArg Ideal.exp (Finset.sum_congr rfl fun k _ => ?_)
  refine congrArg₂ (· * ·) ?_ ?_
  · rw [Cert.Spec.mm_apply]
    refine Finset.sum_congr rfl fun l _ => ?_
    exact congrArg₂ (· * ·) (xsI_apply V c t _ _ rfl rfl) (w3B_apply V c t _ _ rfl rfl)
  · exact xtJ_apply V c t _ _ rfl rfl

/-- An index of the score array is in point `t`'s block iff each coordinate is in the block's range on its axis. -/
theorem mem_blk5 (t : Fin cfg4.N) (i : S4096x4096.Idx) :
    i ∈ ((cfg4.win 5).blk t).view.set ↔ ∀ a : Fin 2, win4_5.index t a * S1024x1024.size a ≤ (i a).val ∧ (i a).val < win4_5.index t a * S1024x1024.size a + S1024x1024.size a := by
  show i ∈ ((View.whole main_v4_0).slice (win4_5.rect t)).set ↔ _
  rw [View.set_slice_whole, Rect.mem_set_unit]
  exact Iff.rfl

/-- Entry `(r, n)` is in the block of the point `4·(r / 1024) + n / 1024`, which writes it back. -/
theorem cover5 (i : S4096x4096.Idx) :
    ∃ t : Fin cfg4.N, (cfg4.win 5).flush t = true ∧ i ∈ ((cfg4.win 5).blk t).view.set := by
  have h0 : (i 0).val < 4096 := idx2_lt0 i
  have h1 : (i 1).val < 4096 := idx2_lt1 i
  have hN : cfg4.N = 16 := N_4
  have hlt : 4 * ((i 0).val / 1024) + (i 1).val / 1024 < cfg4.N := by rw [hN]; omega
  refine ⟨⟨4 * ((i 0).val / 1024) + (i 1).val / 1024, hlt⟩, flush4_5 _, ?_⟩
  rw [mem_blk5]
  obtain ⟨e50, e51⟩ := idx4_5 ⟨4 * ((i 0).val / 1024) + (i 1).val / 1024, hlt⟩
  intro a
  match a with
  | ⟨0, _⟩ =>
    show win4_5.index ⟨4 * ((i 0).val / 1024) + (i 1).val / 1024, hlt⟩ (0 : Fin 2) * 1024 ≤ (i 0).val ∧ (i 0).val < win4_5.index ⟨4 * ((i 0).val / 1024) + (i 1).val / 1024, hlt⟩ (0 : Fin 2) * 1024 + 1024
    rw [e50]; dsimp only; omega
  | ⟨1, _⟩ =>
    show win4_5.index ⟨4 * ((i 0).val / 1024) + (i 1).val / 1024, hlt⟩ (1 : Fin 2) * 1024 ≤ (i 1).val ∧ (i 1).val < win4_5.index ⟨4 * ((i 0).val / 1024) + (i 1).val / 1024, hlt⟩ (1 : Fin 2) * 1024 + 1024
    rw [e51]; dsimp only; omega

/-- The score array after the region is the score matrix of `Xs`, `Xt` and `W3` as the region finds them. -/
theorem attn_final5 (c : Dev nD) :
    (dat4 (F := Ideal) V c).arrAt 5 cfg4.N = Cert.Spec.scores (V c main_v1) (V c main_v3) (V c main_arg6) :=
  (dat4 V c).arrAt_eq_of_cover 5 (Cert.Spec.scores (V c main_v1) (V c main_v3) (V c main_arg6)) (fun t _ => flushed5_eq V c t) cover5

end Final

end Cert.KernelIdeal.Hand

end
-- ==== Proof.AttnAccPay.lean ====
/-
  The arithmetic of the attention region's two accumulators, read entry by entry over the extended reals.

  At a grid point the body forms the score tile `T` (1024 × 1024), adds `T · X` to an accumulator for a 1024 × 128 row
  block `X` of a feature matrix, and at the end of a row of the grid multiplies the accumulator by the 128 × 128 matrix
  `W4`. Over the extended reals a format change is the identity and a matrix product into a zero accumulator is the plain
  finite sum, so: the projection's entry `(p, q)` is `∑ k, s[p,k] · W4[k,q]`; an update's entry `(p, k)` is
  `s[p,k] + ∑ n, T[p,n] · X[n,k]`; the block the reset stores is zero everywhere.
-/
import proofs.«178143_j39779987096265_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen
open scoped BigOperators

/-! ## The two matrix products of the accumulation, read at an index

`dotP`: a 1024 × 128 block times a 128 × 128 matrix (the projection by `W4`);
`dotQ`: a 1024 × 1024 tile times a 1024 × 128 row block (one block of the contraction over the 4096 rows). -/

abbrev dotP := dot_S1024x128_S128x128_S1024x128_1_0_0_1_n_n
abbrev dotQ := dot_S1024x1024_S1024x128_S1024x128_1_0_0_1_n_n

theorem lhs_dotP_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_dotP_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_dotP_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_dotP_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- A block times a 128 × 128 matrix into the zero accumulator: entry `(p, q)` is `∑ k, l[p,k] · r[k,q]`. -/
theorem matmulP_apply {φ₁ φ₂ : FTy} (l : FVec Ideal S1024x128 φ₁) (r : FVec Ideal S128x128 φ₂) (p : Fin 1024) (q : Fin 128) :
    matmul dot_S1024x128_S128x128_S1024x128_1_0_0_1_n_n none l r (constant S1024x128 .f32 0x00000000#32) (ix2 p q)
      = ∑ k : Fin 128, l (ix2 p k) * r (ix2 k q) := by
  refine (Ideal.matmul_constant_zero_apply dot_S1024x128_S128x128_S1024x128_1_0_0_1_n_n none l r (ix2 p q)).trans ?_
  rw [← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 p q) ((ValueIdx.contrEquiv1 dot_S1024x128_S128x128_S1024x128_1_0_0_1_n_n 128 rfl rfl).symm k) = ix2 p k := funext fun a => Fin.ext (by
    match a with
    | ⟨0, _⟩ => exact lhs_dotP_0 _ _
    | ⟨1, _⟩ => exact (lhs_dotP_1 _ _).trans hk)
  have er : dot_S1024x128_S128x128_S1024x128_1_0_0_1_n_n.rhsIdx (ix2 p q) ((ValueIdx.contrEquiv1 dot_S1024x128_S128x128_S1024x128_1_0_0_1_n_n 128 rfl rfl).symm k) = ix2 k q := funext fun a => Fin.ext (by
    match a with
    | ⟨0, _⟩ => exact (rhs_dotP_0 _ _).trans hk
    | ⟨1, _⟩ => exact rhs_dotP_1 _ _)
  rw [el, er]

theorem lhs_dotQ_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_dotQ_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_dotQ_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_dotQ_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- A 1024 × 1024 tile times a 1024 × 128 row block into the zero accumulator: entry `(p, k)` is `∑ n, l[p,n] · r[n,k]`. -/
theorem matmulQ_apply {φ₁ φ₂ : FTy} (l : FVec Ideal S1024x1024 φ₁) (r : FVec Ideal S1024x128 φ₂) (p : Fin 1024) (k : Fin 128) :
    matmul dot_S1024x1024_S1024x128_S1024x128_1_0_0_1_n_n none l r (constant S1024x128 .f32 0x00000000#32) (ix2 p k)
      = ∑ n : Fin 1024, l (ix2 p n) * r (ix2 n k) := by
  refine (Ideal.matmul_constant_zero_apply dot_S1024x1024_S1024x128_S1024x128_1_0_0_1_n_n none l r (ix2 p k)).trans ?_
  rw [← Equiv.sum_comp (ValueIdx.contrEquiv1 dot_S1024x1024_S1024x128_S1024x128_1_0_0_1_n_n 1024 rfl rfl).symm]
  refine Finset.sum_congr rfl fun n _ => ?_
  have hn := ValueIdx.contrEquiv1_symm_val dot_S1024x1024_S1024x128_S1024x128_1_0_0_1_n_n 1024 rfl rfl n
  have el : dot_S1024x1024_S1024x128_S1024x128_1_0_0_1_n_n.lhsIdx (ix2 p k) ((ValueIdx.contrEquiv1 dot_S1024x1024_S1024x128_S1024x128_1_0_0_1_n_n 1024 rfl rfl).symm n) = ix2 p n := funext fun a => Fin.ext (by
    match a with
    | ⟨0, _⟩ => exact lhs_dotQ_0 _ _
    | ⟨1, _⟩ => exact (lhs_dotQ_1 _ _).trans hn)
  have er : dot_S1024x1024_S1024x128_S1024x128_1_0_0_1_n_n.rhsIdx (ix2 p k) ((ValueIdx.contrEquiv1 dot_S1024x1024_S1024x128_S1024x128_1_0_0_1_n_n 1024 rfl rfl).symm n) = ix2 n k := funext fun a => Fin.ext (by
    match a with
    | ⟨0, _⟩ => exact (rhs_dotQ_0 _ _).trans hn
    | ⟨1, _⟩ => exact rhs_dotQ_1 _ _)
  rw [el, er]

/-! ## The payloads of the accumulation at an index -/

/-- The projection of an accumulator `s` by `W4`: entry `(p, q)` is `∑ k, s[p,k] · W4[k,q]`. -/
theorem accPay3_apply (w4 : Vec Ideal S128x128 .f32) (s : Vec Ideal S1024x128 .f32) (p : Fin 1024) (q : Fin 128) :
    k4_pay3 w4 s (ix2 p q) = ∑ k : Fin 128, s (ix2 p k) * w4 (ix2 k q) := by
  unfold k4_pay3 k4_pay2
  exact matmulP_apply _ _ p q
/-- The second projection is the same function. -/
theorem accPay4_apply (w4 : Vec Ideal S128x128 .f32) (s : Vec Ideal S1024x128 .f32) (p : Fin 1024) (q : Fin 128) :
    k4_pay4 w4 s (ix2 p q) = ∑ k : Fin 128, s (ix2 p k) * w4 (ix2 k q) := by
  unfold k4_pay4 k4_pay2
  exact matmulP_apply _ _ p q

/-- The zero block the reset stores. -/
theorem pay5_apply (j : S1024x128.Idx) : k4_pay5 (F := Ideal) j = 0 := by
  unfold k4_pay5
  refine (congrFun (shapeCast_self _ _) j).trans ?_
  exact Ideal.ofBits_zero_f32
theorem pay6_apply (j : S1024x128.Idx) : k4_pay6 (F := Ideal) j = 0 := by
  unfold k4_pay6
  refine (congrFun (shapeCast_self _ _) j).trans ?_
  exact Ideal.ofBits_zero_f32

/-- One accumulation step over a tile `T`: the accumulator plus the tile times the row block. -/
theorem accTerm_apply (T : FVec Ideal S1024x1024 .f32) (x s : FVec Ideal S1024x128 .f32) (h1 : FTy.bf16.bits < FTy.f32.bits) (h2 : FTy.bf16.bits < FTy.f32.bits) (p : Fin 1024) (k : Fin 128) :
    addf s (matmul dot_S1024x1024_S1024x128_S1024x128_1_0_0_1_n_n none (truncf .bf16 T h1) (truncf .bf16 x h2) (constant S1024x128 .f32 0x00000000#32)) (ix2 p k)
      = s (ix2 p k) + ∑ n : Fin 1024, T (ix2 p n) * x (ix2 n k) :=
  congrArg (s (ix2 p k) + ·) (matmulQ_apply _ _ p k)

/-- The first accumulator's update: `s + tile · x1`. -/
theorem pay10_apply (x0 : Vec Ideal S1024x128 .f32) (x3 : Vec Ideal S128x128 .f32) (x2 x1 s : Vec Ideal S1024x128 .f32) (p : Fin 1024) (k : Fin 128) :
    k4_pay10 x0 x3 x2 x1 s (ix2 p k) = s (ix2 p k) + ∑ n : Fin 1024, k4_pay8 x0 x3 x2 (ix2 p n) * x1 (ix2 n k) := by
  unfold k4_pay10 k4_pay9
  refine (congrFun (shapeCast_self _ _) (ix2 p k)).trans ?_
  rw [shapeCast_self]
  exact accTerm_apply (k4_pay8 x0 x3 x2) x1 s _ _ p k

/-- The second accumulator's update: `s + tile · x2`, the tile's own column block of `Xt`. -/
theorem pay11_apply (x0 : Vec Ideal S1024x128 .f32) (x3 : Vec Ideal S128x128 .f32) (x2 s : Vec Ideal S1024x128 .f32) (p : Fin 1024) (k : Fin 128) :
    k4_pay1 (k4_pay11 x0 x3 x2 s) (ix2 p k) = s (ix2 p k) + ∑ n : Fin 1024, k4_pay8 x0 x3 x2 (ix2 p n) * x2 (ix2 n k) := by
  unfold k4_pay1 k4_pay11 k4_pay9 k4_pay7
  refine (congrFun (shapeCast_self _ _) (ix2 p k)).trans ?_
  rw [shapeCast_self]
  exact accTerm_apply (k4_pay8 x0 x3 x2) x2 s _ _ p k

end Cert.KernelIdeal.Hand

end
-- ==== Proof.LibBlockSum.lean ====
/-
  Splitting a finite sum over `Fin (a * b)` into `a` consecutive blocks of `b` terms.

  The index `n < a * b` is written `b * j + n'` with `j < a` the block and `n' < b` the place inside the block; summing
  first inside each block and then over the blocks gives the same total, in any commutative additive monoid (only
  commutativity and associativity of the sum are used, so nothing needs to be finite: the extended reals qualify).
  A matrix product whose contraction axis is cut into row blocks, accumulated block after block into a buffer that
  starts at zero, produces the left-nested form `(((0 + g 0) + g 1) + g 2) + g 3`; the last lemma says that this is the
  whole sum when there are four blocks.
-/
import Mathlib.Algebra.BigOperators.Fin
import Mathlib.Data.Fintype.BigOperators
import Mathlib.Logic.Equiv.Fin.Basic

open scoped BigOperators

namespace Cert.BlockSum

variable {M : Type*} [AddCommMonoid M]

/-- The place `b * j + n'` of the `n'`-th term of block `j` lies below `N = a * b`. -/
theorem block_lt {a b N : ℕ} (h : a * b = N) (j : Fin a) (n' : Fin b) : b * j.val + n'.val < N := by
  have hj : j.val + 1 ≤ a := j.isLt
  have hn : n'.val < b := n'.isLt
  calc b * j.val + n'.val < b * j.val + b := Nat.add_lt_add_left hn _
    _ = (j.val + 1) * b := by rw [Nat.succ_mul, Nat.mul_comm]
    _ ≤ a * b := Nat.mul_le_mul_right _ hj
    _ = N := h

/-- A sum over `Fin N` with `N = a * b` is the sum over the `a` blocks of the sums inside each block of `b` terms. -/
theorem sum_blocks {a b N : ℕ} (h : a * b = N) (f : Fin N → M) :
    ∑ n : Fin N, f n = ∑ j : Fin a, ∑ n' : Fin b, f ⟨b * j.val + n'.val, block_lt h j n'⟩ := by
  subst h
  rw [← Equiv.sum_comp finProdFinEquiv f, Fintype.sum_prod_type]
  refine Finset.sum_congr rfl fun j _ => Finset.sum_congr rfl fun n' _ => congrArg f (Fin.ext ?_)
  show n'.val + b * j.val = b * j.val + n'.val
  exact Nat.add_comm _ _

/-- Four blocks, accumulated one after another onto a zero: the left-nested sum of the four block sums is the whole
    sum. -/
theorem sum_four_blocks {b N : ℕ} (h : 4 * b = N) (f : Fin N → M) :
    ∑ n : Fin N, f n =
      (((0 + ∑ n' : Fin b, f ⟨b * 0 + n'.val, block_lt h 0 n'⟩)
          + ∑ n' : Fin b, f ⟨b * 1 + n'.val, block_lt h 1 n'⟩)
          + ∑ n' : Fin b, f ⟨b * 2 + n'.val, block_lt h 2 n'⟩)
          + ∑ n' : Fin b, f ⟨b * 3 + n'.val, block_lt h 3 n'⟩ := by
  rw [sum_blocks h f, Fin.sum_univ_four, zero_add]
  rfl

end Cert.BlockSum
-- ==== Proof.AttnAccValue.lean ====
/-
  The two projected outputs of the attention region over the extended reals: `(S · Xs) · W4` and `(S · Xt) · W4`, with
  `S` the score matrix of the arrays as the region finds them.

  The grid is 4 × 4, point `t = 4·i + j`. At every point the body forms the score tile `(i, j)` — entries
  `(1024·i + p, 1024·j + q)` of `S` — and adds the tile times rows `1024·j …` of `Xs` (of `Xt`) to an accumulator that was
  reset to zero at `j = 0`. So after the point `j` the accumulator's entry `(p, k)` is the blocks `0 … j` of the contraction
  `∑ n, S[1024·i + p, n] · X[n, k]` added in order onto zero, and after `j = 3` it is the whole contraction: splitting
  `Fin 4096` into four blocks of 1024 is a reindexing of a finite sum in a commutative monoid, so nothing needs to be
  finite. The last point of a row multiplies the accumulator by `W4` and writes rows `1024·i …` of the output back; the
  four such points cover the 4096 rows.
-/
import proofs.«178143_j39779987096265_1_alg».proof.Proof.AttnTileValue
import proofs.«178143_j39779987096265_1_alg».proof.Proof.AttnAccPay
import proofs.«178143_j39779987096265_1_alg».proof.Proof.LibBlockSum
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-- One block of the contraction over the 4096 rows: for row `1024·i + p` of `S` and column `k` of `X`, the sum over
    the 1024 places `n'` of block `j` of `S[1024·i + p, 1024·j + n'] · X[1024·j + n', k]`. -/
def blkTerm (S : Cert.Spec.Mat 4096 4096) (X : Cert.Spec.Mat 4096 128) (i j : ℕ) (hi : i < 4) (hj : j < 4)
    (p : Fin 1024) (k : Fin 128) : EReal :=
  ∑ n' : Fin 1024, S (ix2 (⟨1024 * i + p.val, by omega⟩ : Fin 4096) (⟨1024 * j + n'.val, by omega⟩ : Fin 4096))
    * X (ix2 (⟨1024 * j + n'.val, by omega⟩ : Fin 4096) k)

/-- The four blocks, accumulated in order onto zero, are the whole contraction: an entry of `S · X`. -/
theorem blkTerm_sum (S : Cert.Spec.Mat 4096 4096) (X : Cert.Spec.Mat 4096 128) (i : ℕ) (hi : i < 4) (p : Fin 1024) (k : Fin 128) :
    (((0 + blkTerm S X i 0 hi (by decide) p k) + blkTerm S X i 1 hi (by decide) p k) + blkTerm S X i 2 hi (by decide) p k)
        + blkTerm S X i 3 hi (by decide) p k
      = Cert.Spec.mm S X (ix2 (⟨1024 * i + p.val, by omega⟩ : Fin 4096) k) := by
  rw [Cert.Spec.mm_apply]
  exact (Cert.BlockSum.sum_four_blocks (b := 1024) (N := 4096) rfl
    (fun n : Fin 4096 => S (ix2 (⟨1024 * i + p.val, by omega⟩ : Fin 4096) n) * X (ix2 n k))).symm

section Final

variable (V : (c : Dev nD) → (b : Ref sig .tc) → Buf (Elt Ideal) ((c : Thread nD τ).loc b))

/-- Entry `(p, q)` of the tile of point `t = 4·i + j` is entry `(1024·i + p, 1024·j + q)` of the score matrix. -/
theorem tile_entry (c : Dev nD) (t : Fin cfg4.N) (p q : Fin 1024) (r n : Fin 4096)
    (hr : r.val = 1024 * (t.val / 4) + p.val) (hn : n.val = 1024 * (t.val % 4) + q.val) :
    k4_pay8 (xsI V c t) (w3B V c t) (xtJ V c t) (ix2 p q)
      = Cert.Spec.scores (V c main_v1) (V c main_v3) (V c main_arg6) (ix2 r n) := by
  rw [Cert.Spec.scores_apply]
  refine (tile_apply (xsI V c t) (w3B V c t) (xtJ V c t) p q).trans ?_
  refine congrArg Ideal.exp (Finset.sum_congr rfl fun k _ => ?_)
  refine congrArg₂ (· * ·) ?_ ?_
  · rw [Cert.Spec.mm_apply]
    refine Finset.sum_congr rfl fun l _ => ?_
    exact congrArg₂ (· * ·) (xsI_apply V c t (ix2 p l) (ix2 r l) hr rfl) (w3B_apply V c t (ix2 l k) (ix2 l k) rfl rfl)
  · exact xtJ_apply V c t (ix2 q k) (ix2 n k) hn rfl

/-- One point's update of the first accumulator, entry `(p, k)`: what it held plus block `j` of the contraction of row
    `1024·i + p` of the scores with column `k` of `Xs`. -/
theorem step_fst (c : Dev nD) (t : Fin cfg4.N) (s : Vec Ideal S1024x128 .f32 × Vec Ideal S1024x128 .f32)
    (p : Fin 1024) (k : Fin 128) (i j : ℕ) (hi : t.val / 4 = i) (hj : t.val % 4 = j) (hi4 : i < 4) (hj4 : j < 4) :
    (accStep V c t s).1 (ix2 p k)
      = s.1 (ix2 p k) + blkTerm (Cert.Spec.scores (V c main_v1) (V c main_v3) (V c main_arg6)) (V c main_v1) i j hi4 hj4 p k := by
  show k4_pay10 (xsI V c t) (w3B V c t) (xtJ V c t) (xsJ V c t) s.1 (ix2 p k) = _
  refine (pay10_apply (xsI V c t) (w3B V c t) (xtJ V c t) (xsJ V c t) s.1 p k).trans ?_
  refine congrArg (s.1 (ix2 p k) + ·) ?_
  unfold blkTerm
  refine Finset.sum_congr rfl fun n' _ => ?_
  refine congrArg₂ (· * ·) ?_ ?_
  · exact tile_entry V c t p n' _ _ (by show 1024 * i + p.val = _; rw [hi]) (by show 1024 * j + n'.val = _; rw [hj])
  · exact xsJ_apply V c t (ix2 n' k) (ix2 (⟨1024 * j + n'.val, by omega⟩ : Fin 4096) k) (by show 1024 * j + n'.val = _; rw [hj]) rfl

/-! ## The first accumulator along a row of the grid

A row of the grid is the four points `4·i + j`, `j = 0 … 3`. The accumulator is reset to zero at `j = 0` and one block of
the contraction is added at each point, so after the point `j` it holds the blocks `0 … j` added in order onto zero. -/

/-- After the point with `j = 0`: zero plus block 0. -/
theorem acc_fst_0 (c : Dev nD) (t : Fin cfg4.N) (h : t.val % 4 = 0) (i : ℕ) (hi : t.val / 4 = i) (hi4 : i < 4)
    (p : Fin 1024) (k : Fin 128) :
    (accAt4 V c t.val t.isLt).1 (ix2 p k)
      = 0 + blkTerm (Cert.Spec.scores (V c main_v1) (V c main_v3) (V c main_arg6)) (V c main_v1) i 0 hi4 (by decide) p k := by
  rw [accAt4_reset V c t h]
  refine (step_fst V c t (k4_pay5 (F := Ideal), k4_pay6 (F := Ideal)) p k i 0 hi h hi4 (by decide)).trans ?_
  exact congrArg (· + blkTerm (Cert.Spec.scores (V c main_v1) (V c main_v3) (V c main_arg6)) (V c main_v1) i 0 hi4 (by decide) p k)
    (pay5_apply (ix2 p k))

/-- After the point with `j = 1`. -/
theorem acc_fst_1 (c : Dev nD) (t : Fin cfg4.N) (h : t.val % 4 = 1) (i : ℕ) (hi : t.val / 4 = i) (hi4 : i < 4)
    (p : Fin 1024) (k : Fin 128) :
    (accAt4 V c t.val t.isLt).1 (ix2 p k)
      = (0 + blkTerm (Cert.Spec.scores (V c main_v1) (V c main_v3) (V c main_arg6)) (V c main_v1) i 0 hi4 (by decide) p k)
        + blkTerm (Cert.Spec.scores (V c main_v1) (V c main_v3) (V c main_arg6)) (V c main_v1) i 1 hi4 (by decide) p k := by
  rw [accAt4_step V c t (by omega)]
  refine (step_fst V c t _ p k i 1 hi h hi4 (by decide)).trans ?_
  exact congrArg (· + blkTerm (Cert.Spec.scores (V c main_v1) (V c main_v3) (V c main_arg6)) (V c main_v1) i 1 hi4 (by decide) p k)
    (acc_fst_0 V c ⟨t.val - 1, Nat.lt_of_le_of_lt (Nat.sub_le _ _) t.isLt⟩ (by show (t.val - 1) % 4 = 0; omega) i
      (by show (t.val - 1) / 4 = i; omega) hi4 p k)

/-- After the point with `j = 2`. -/
theorem acc_fst_2 (c : Dev nD) (t : Fin cfg4.N) (h : t.val % 4 = 2) (i : ℕ) (hi : t.val / 4 = i) (hi4 : i < 4)
    (p : Fin 1024) (k : Fin 128) :
    (accAt4 V c t.val t.isLt).1 (ix2 p k)
      = ((0 + blkTerm (Cert.Spec.scores (V c main_v1) (V c main_v3) (V c main_arg6)) (V c main_v1) i 0 hi4 (by decide) p k)
        + blkTerm (Cert.Spec.scores (V c main_v1) (V c main_v3) (V c main_arg6)) (V c main_v1) i 1 hi4 (by decide) p k)
        + blkTerm (Cert.Spec.scores (V c main_v1) (V c main_v3) (V c main_arg6)) (V c main_v1) i 2 hi4 (by decide) p k := by
  rw [accAt4_step V c t (by omega)]
  refine (step_fst V c t _ p k i 2 hi h hi4 (by decide)).trans ?_
  exact congrArg (· + blkTerm (Cert.Spec.scores (V c main_v1) (V c main_v3) (V c main_arg6)) (V c main_v1) i 2 hi4 (by decide) p k)
    (acc_fst_1 V c ⟨t.val - 1, Nat.lt_of_le_of_lt (Nat.sub_le _ _) t.isLt⟩ (by show (t.val - 1) % 4 = 1; omega) i
      (by show (t.val - 1) / 4 = i; omega) hi4 p k)

/-- After the last point of the row, `j = 3`, the accumulator holds rows `1024·i …` of `S · Xs`. -/
theorem acc_fst_3 (c : Dev nD) (t : Fin cfg4.N) (h : t.val % 4 = 3) (i : ℕ) (hi : t.val / 4 = i) (hi4 : i < 4)
    (p : Fin 1024) (k : Fin 128) :
    (accAt4 V c t.val t.isLt).1 (ix2 p k)
      = Cert.Spec.mm (Cert.Spec.scores (V c main_v1) (V c main_v3) (V c main_arg6)) (V c main_v1)
          (ix2 (⟨1024 * i + p.val, by omega⟩ : Fin 4096) k) := by
  rw [accAt4_step V c t (by omega)]
  refine (step_fst V c t _ p k i 3 hi h hi4 (by decide)).trans ?_
  refine Eq.trans ?_ (blkTerm_sum (Cert.Spec.scores (V c main_v1) (V c main_v3) (V c main_arg6)) (V c main_v1) i hi4 p k)
  exact congrArg (· + blkTerm (Cert.Spec.scores (V c main_v1) (V c main_v3) (V c main_arg6)) (V c main_v1) i 3 hi4 (by decide) p k)
    (acc_fst_2 V c ⟨t.val - 1, Nat.lt_of_le_of_lt (Nat.sub_le _ _) t.isLt⟩ (by show (t.val - 1) % 4 = 2; omega) i
      (by show (t.val - 1) / 4 = i; omega) hi4 p k)

/-! ## What the last point of a row writes back, the cover, and the array after the region -/

theorem idx4_6 : ∀ t : Fin cfg4.N, win4_6.index t (0 : Fin 2) = t.val / 4 ∧ win4_6.index t (1 : Fin 2) = 0 :=
  (by decide +kernel : ∀ t : Fin grid4.N, win4_6.index t (0 : Fin 2) = t.val / 4 ∧ win4_6.index t (1 : Fin 2) = 0)

/-- The point `4·i + 3` writes back rows `1024·i …` of `(S · Xs) · W4`. -/
theorem flushed6_eq (c : Dev nD) (t : Fin cfg4.N) (hf : (cfg4.win 6).flush t = true) :
    (dat4 V c).flushed 6 t = ((cfg4.win 6).blk t).view.read (Elt Ideal)
      (Cert.Spec.proj (Cert.Spec.scores (V c main_v1) (V c main_v3) (V c main_arg6)) (V c main_v1) (V c main_arg7)) := by
  have h3 : t.val % 4 = 3 := (flush4_6 t).mp hf
  have ht : t.val < 16 := lt_of_lt_of_eq t.isLt N_4
  have hi4 : t.val / 4 < 4 := by omega
  show (cfg4.win 6).cut (grid4.coords t) ((dat4 V c).after 6 t) = _
  rw [after4_6]
  obtain ⟨e60, e61⟩ := idx4_6 t
  refine funext fun (j : S1024x128.Idx) => ?_
  obtain ⟨p, q, rfl⟩ : ∃ (p : Fin 1024) (q : Fin 128), j = ix2 p q := ⟨j 0, j 1, eq_ix2 j⟩
  have hemb : ((cfg4.win 6).blk t).view.emb (ix2 p q)
      = (ix2 (⟨1024 * (t.val / 4) + p.val, by omega⟩ : Fin 4096) q : S4096x128.Idx) := by
    funext a
    apply Fin.ext
    match a with
    | ⟨0, _⟩ => show win4_6.index t (0 : Fin 2) * 1024 + 1 * p.val = 1024 * (t.val / 4) + p.val; rw [e60]; omega
    | ⟨1, _⟩ => show win4_6.index t (1 : Fin 2) * 128 + 1 * q.val = q.val; rw [e61]; omega
  rw [View.read_apply, hemb]
  show k4_pay3 (w4B V c t) (accAt4 V c t.val t.isLt).1 (ix2 p q) = _
  refine (accPay3_apply (w4B V c t) (accAt4 V c t.val t.isLt).1 p q).trans ?_
  unfold Cert.Spec.proj
  rw [Cert.Spec.mm_apply]
  refine Finset.sum_congr rfl fun k _ => ?_
  exact congrArg₂ (· * ·) (acc_fst_3 V c t h3 (t.val / 4) rfl hi4 p k) (w4B_apply V c t (ix2 k q) (ix2 k q) rfl rfl)

/-- An index of the first projected array is in point `t`'s block iff each coordinate is in the block's range. -/
theorem mem_blk6 (t : Fin cfg4.N) (i : S4096x128.Idx) :
    i ∈ ((cfg4.win 6).blk t).view.set ↔ ∀ a : Fin 2, win4_6.index t a * S1024x128.size a ≤ (i a).val ∧ (i a).val < win4_6.index t a * S1024x128.size a + S1024x128.size a := by
  show i ∈ ((View.whole main_v4_1).slice (win4_6.rect t)).set ↔ _
  rw [View.set_slice_whole, Rect.mem_set_unit]
  exact Iff.rfl

/-- Row `r` is in the block of the point `4·(r / 1024) + 3`, the last of its row of the grid, which writes it back. -/
theorem cover6 (i : S4096x128.Idx) :
    ∃ t : Fin cfg4.N, (cfg4.win 6).flush t = true ∧ i ∈ ((cfg4.win 6).blk t).view.set := by
  have h0 : (i 0).val < 4096 := idx2_lt0 i
  have h1 : (i 1).val < 128 := idx2_lt1 i
  have hN : cfg4.N = 16 := N_4
  have hlt : 4 * ((i 0).val / 1024) + 3 < cfg4.N := by rw [hN]; omega
  refine ⟨⟨4 * ((i 0).val / 1024) + 3, hlt⟩, (flush4_6 _).mpr (by show (4 * ((i 0).val / 1024) + 3) % 4 = 3; omega), ?_⟩
  rw [mem_blk6]
  obtain ⟨e60, e61⟩ := idx4_6 ⟨4 * ((i 0).val / 1024) + 3, hlt⟩
  intro a
  match a with
  | ⟨0, _⟩ =>
    show win4_6.index ⟨4 * ((i 0).val / 1024) + 3, hlt⟩ (0 : Fin 2) * 1024 ≤ (i 0).val ∧ (i 0).val < win4_6.index ⟨4 * ((i 0).val / 1024) + 3, hlt⟩ (0 : Fin 2) * 1024 + 1024
    rw [e60]; dsimp only; omega
  | ⟨1, _⟩ =>
    show win4_6.index ⟨4 * ((i 0).val / 1024) + 3, hlt⟩ (1 : Fin 2) * 128 ≤ (i 1).val ∧ (i 1).val < win4_6.index ⟨4 * ((i 0).val / 1024) + 3, hlt⟩ (1 : Fin 2) * 128 + 128
    rw [e61]; omega

/-- The first projected array after the region is `(S · Xs) · W4` of the arrays as the region finds them. -/
theorem attn_final6 (c : Dev nD) :
    (dat4 (F := Ideal) V c).arrAt 6 cfg4.N
      = Cert.Spec.proj (Cert.Spec.scores (V c main_v1) (V c main_v3) (V c main_arg6)) (V c main_v1) (V c main_arg7) :=
  (dat4 V c).arrAt_eq_of_cover 6
    (Cert.Spec.proj (Cert.Spec.scores (V c main_v1) (V c main_v3) (V c main_arg6)) (V c main_v1) (V c main_arg7))
    (fun t hf => flushed6_eq V c t hf) cover6

/-- One point's update of the second accumulator, entry `(p, k)`: what it held plus block `j` of the contraction of row
    `1024·i + p` of the scores with column `k` of `Xt`. -/
theorem step_snd (c : Dev nD) (t : Fin cfg4.N) (s : Vec Ideal S1024x128 .f32 × Vec Ideal S1024x128 .f32)
    (p : Fin 1024) (k : Fin 128) (i j : ℕ) (hi : t.val / 4 = i) (hj : t.val % 4 = j) (hi4 : i < 4) (hj4 : j < 4) :
    (accStep V c t s).2 (ix2 p k)
      = s.2 (ix2 p k) + blkTerm (Cert.Spec.scores (V c main_v1) (V c main_v3) (V c main_arg6)) (V c main_v3) i j hi4 hj4 p k := by
  show k4_pay1 (k4_pay11 (xsI V c t) (w3B V c t) (xtJ V c t) s.2) (ix2 p k) = _
  refine (pay11_apply (xsI V c t) (w3B V c t) (xtJ V c t) s.2 p k).trans ?_
  refine congrArg (s.2 (ix2 p k) + ·) ?_
  unfold blkTerm
  refine Finset.sum_congr rfl fun n' _ => ?_
  refine congrArg₂ (· * ·) ?_ ?_
  · exact tile_entry V c t p n' _ _ (by show 1024 * i + p.val = _; rw [hi]) (by show 1024 * j + n'.val = _; rw [hj])
  · exact xtJ_apply V c t (ix2 n' k) (ix2 (⟨1024 * j + n'.val, by omega⟩ : Fin 4096) k) (by show 1024 * j + n'.val = _; rw [hj]) rfl

/-! ## The second accumulator along a row of the grid

The same along a row of the grid, with the row blocks of `Xt` in place of those of `Xs`. -/

/-- After the point with `j = 0`: zero plus block 0. -/
theorem acc_snd_0 (c : Dev nD) (t : Fin cfg4.N) (h : t.val % 4 = 0) (i : ℕ) (hi : t.val / 4 = i) (hi4 : i < 4)
    (p : Fin 1024) (k : Fin 128) :
    (accAt4 V c t.val t.isLt).2 (ix2 p k)
      = 0 + blkTerm (Cert.Spec.scores (V c main_v1) (V c main_v3) (V c main_arg6)) (V c main_v3) i 0 hi4 (by decide) p k := by
  rw [accAt4_reset V c t h]
  refine (step_snd V c t (k4_pay5 (F := Ideal), k4_pay6 (F := Ideal)) p k i 0 hi h hi4 (by decide)).trans ?_
  exact congrArg (· + blkTerm (Cert.Spec.scores (V c main_v1) (V c main_v3) (V c main_arg6)) (V c main_v3) i 0 hi4 (by decide) p k)
    (pay6_apply (ix2 p k))

/-- After the point with `j = 1`. -/
theorem acc_snd_1 (c : Dev nD) (t : Fin cfg4.N) (h : t.val % 4 = 1) (i : ℕ) (hi : t.val / 4 = i) (hi4 : i < 4)
    (p : Fin 1024) (k : Fin 128) :
    (accAt4 V c t.val t.isLt).2 (ix2 p k)
      = (0 + blkTerm (Cert.Spec.scores (V c main_v1) (V c main_v3) (V c main_arg6)) (V c main_v3) i 0 hi4 (by decide) p k)
        + blkTerm (Cert.Spec.scores (V c main_v1) (V c main_v3) (V c main_arg6)) (V c main_v3) i 1 hi4 (by decide) p k := by
  rw [accAt4_step V c t (by omega)]
  refine (step_snd V c t _ p k i 1 hi h hi4 (by decide)).trans ?_
  exact congrArg (· + blkTerm (Cert.Spec.scores (V c main_v1) (V c main_v3) (V c main_arg6)) (V c main_v3) i 1 hi4 (by decide) p k)
    (acc_snd_0 V c ⟨t.val - 1, Nat.lt_of_le_of_lt (Nat.sub_le _ _) t.isLt⟩ (by show (t.val - 1) % 4 = 0; omega) i
      (by show (t.val - 1) / 4 = i; omega) hi4 p k)

/-- After the point with `j = 2`. -/
theorem acc_snd_2 (c : Dev nD) (t : Fin cfg4.N) (h : t.val % 4 = 2) (i : ℕ) (hi : t.val / 4 = i) (hi4 : i < 4)
    (p : Fin 1024) (k : Fin 128) :
    (accAt4 V c t.val t.isLt).2 (ix2 p k)
      = ((0 + blkTerm (Cert.Spec.scores (V c main_v1) (V c main_v3) (V c main_arg6)) (V c main_v3) i 0 hi4 (by decide) p k)
        + blkTerm (Cert.Spec.scores (V c main_v1) (V c main_v3) (V c main_arg6)) (V c main_v3) i 1 hi4 (by decide) p k)
        + blkTerm (Cert.Spec.scores (V c main_v1) (V c main_v3) (V c main_arg6)) (V c main_v3) i 2 hi4 (by decide) p k := by
  rw [accAt4_step V c t (by omega)]
  refine (step_snd V c t _ p k i 2 hi h hi4 (by decide)).trans ?_
  exact congrArg (· + blkTerm (Cert.Spec.scores (V c main_v1) (V c main_v3) (V c main_arg6)) (V c main_v3) i 2 hi4 (by decide) p k)
    (acc_snd_1 V c ⟨t.val - 1, Nat.lt_of_le_of_lt (Nat.sub_le _ _) t.isLt⟩ (by show (t.val - 1) % 4 = 1; omega) i
      (by show (t.val - 1) / 4 = i; omega) hi4 p k)

/-- After the last point of the row, `j = 3`, the accumulator holds rows `1024·i …` of `S · Xt`. -/
theorem acc_snd_3 (c : Dev nD) (t : Fin cfg4.N) (h : t.val % 4 = 3) (i : ℕ) (hi : t.val / 4 = i) (hi4 : i < 4)
    (p : Fin 1024) (k : Fin 128) :
    (accAt4 V c t.val t.isLt).2 (ix2 p k)
      = Cert.Spec.mm (Cert.Spec.scores (V c main_v1) (V c main_v3) (V c main_arg6)) (V c main_v3)
          (ix2 (⟨1024 * i + p.val, by omega⟩ : Fin 4096) k) := by
  rw [accAt4_step V c t (by omega)]
  refine (step_snd V c t _ p k i 3 hi h hi4 (by decide)).trans ?_
  refine Eq.trans ?_ (blkTerm_sum (Cert.Spec.scores (V c main_v1) (V c main_v3) (V c main_arg6)) (V c main_v3) i hi4 p k)
  exact congrArg (· + blkTerm (Cert.Spec.scores (V c main_v1) (V c main_v3) (V c main_arg6)) (V c main_v3) i 3 hi4 (by decide) p k)
    (acc_snd_2 V c ⟨t.val - 1, Nat.lt_of_le_of_lt (Nat.sub_le _ _) t.isLt⟩ (by show (t.val - 1) % 4 = 2; omega) i
      (by show (t.val - 1) / 4 = i; omega) hi4 p k)

/-! ## The same for the second projection -/

theorem idx4_7 : ∀ t : Fin cfg4.N, win4_7.index t (0 : Fin 2) = t.val / 4 ∧ win4_7.index t (1 : Fin 2) = 0 :=
  (by decide +kernel : ∀ t : Fin grid4.N, win4_7.index t (0 : Fin 2) = t.val / 4 ∧ win4_7.index t (1 : Fin 2) = 0)

/-- The point `4·i + 3` writes back rows `1024·i …` of `(S · Xt) · W4`. -/
theorem flushed7_eq (c : Dev nD) (t : Fin cfg4.N) (hf : (cfg4.win 7).flush t = true) :
    (dat4 V c).flushed 7 t = ((cfg4.win 7).blk t).view.read (Elt Ideal)
      (Cert.Spec.proj (Cert.Spec.scores (V c main_v1) (V c main_v3) (V c main_arg6)) (V c main_v3) (V c main_arg7)) := by
  have h3 : t.val % 4 = 3 := (flush4_7 t).mp hf
  have ht : t.val < 16 := lt_of_lt_of_eq t.isLt N_4
  have hi4 : t.val / 4 < 4 := by omega
  show (cfg4.win 7).cut (grid4.coords t) ((dat4 V c).after 7 t) = _
  rw [after4_7]
  obtain ⟨e70, e71⟩ := idx4_7 t
  refine funext fun (j : S1024x128.Idx) => ?_
  obtain ⟨p, q, rfl⟩ : ∃ (p : Fin 1024) (q : Fin 128), j = ix2 p q := ⟨j 0, j 1, eq_ix2 j⟩
  have hemb : ((cfg4.win 7).blk t).view.emb (ix2 p q)
      = (ix2 (⟨1024 * (t.val / 4) + p.val, by omega⟩ : Fin 4096) q : S4096x128.Idx) := by
    funext a
    apply Fin.ext
    match a with
    | ⟨0, _⟩ => show win4_7.index t (0 : Fin 2) * 1024 + 1 * p.val = 1024 * (t.val / 4) + p.val; rw [e70]; omega
    | ⟨1, _⟩ => show win4_7.index t (1 : Fin 2) * 128 + 1 * q.val = q.val; rw [e71]; omega
  rw [View.read_apply, hemb]
  show k4_pay4 (w4B V c t) (accAt4 V c t.val t.isLt).2 (ix2 p q) = _
  refine (accPay4_apply (w4B V c t) (accAt4 V c t.val t.isLt).2 p q).trans ?_
  unfold Cert.Spec.proj
  rw [Cert.Spec.mm_apply]
  refine Finset.sum_congr rfl fun k _ => ?_
  exact congrArg₂ (· * ·) (acc_snd_3 V c t h3 (t.val / 4) rfl hi4 p k) (w4B_apply V c t (ix2 k q) (ix2 k q) rfl rfl)

/-- An index of the second projected array is in point `t`'s block iff each coordinate is in the block's range. -/
theorem mem_blk7 (t : Fin cfg4.N) (i : S4096x128.Idx) :
    i ∈ ((cfg4.win 7).blk t).view.set ↔ ∀ a : Fin 2, win4_7.index t a * S1024x128.size a ≤ (i a).val ∧ (i a).val < win4_7.index t a * S1024x128.size a + S1024x128.size a := by
  show i ∈ ((View.whole main_v4_2).slice (win4_7.rect t)).set ↔ _
  rw [View.set_slice_whole, Rect.mem_set_unit]
  exact Iff.rfl

/-- Row `r` is in the block of the point `4·(r / 1024) + 3`, the last of its row of the grid, which writes it back. -/
theorem cover7 (i : S4096x128.Idx) :
    ∃ t : Fin cfg4.N, (cfg4.win 7).flush t = true ∧ i ∈ ((cfg4.win 7).blk t).view.set := by
  have h0 : (i 0).val < 4096 := idx2_lt0 i
  have h1 : (i 1).val < 128 := idx2_lt1 i
  have hN : cfg4.N = 16 := N_4
  have hlt : 4 * ((i 0).val / 1024) + 3 < cfg4.N := by rw [hN]; omega
  refine ⟨⟨4 * ((i 0).val / 1024) + 3, hlt⟩, (flush4_7 _).mpr (by show (4 * ((i 0).val / 1024) + 3) % 4 = 3; omega), ?_⟩
  rw [mem_blk7]
  obtain ⟨e70, e71⟩ := idx4_7 ⟨4 * ((i 0).val / 1024) + 3, hlt⟩
  intro a
  match a with
  | ⟨0, _⟩ =>
    show win4_7.index ⟨4 * ((i 0).val / 1024) + 3, hlt⟩ (0 : Fin 2) * 1024 ≤ (i 0).val ∧ (i 0).val < win4_7.index ⟨4 * ((i 0).val / 1024) + 3, hlt⟩ (0 : Fin 2) * 1024 + 1024
    rw [e70]; dsimp only; omega
  | ⟨1, _⟩ =>
    show win4_7.index ⟨4 * ((i 0).val / 1024) + 3, hlt⟩ (1 : Fin 2) * 128 ≤ (i 1).val ∧ (i 1).val < win4_7.index ⟨4 * ((i 0).val / 1024) + 3, hlt⟩ (1 : Fin 2) * 128 + 128
    rw [e71]; omega

/-- The second projected array after the region is `(S · Xt) · W4` of the arrays as the region finds them. -/
theorem attn_final7 (c : Dev nD) :
    (dat4 (F := Ideal) V c).arrAt 7 cfg4.N
      = Cert.Spec.proj (Cert.Spec.scores (V c main_v1) (V c main_v3) (V c main_arg6)) (V c main_v3) (V c main_arg7) :=
  (dat4 V c).arrAt_eq_of_cover 7
    (Cert.Spec.proj (Cert.Spec.scores (V c main_v1) (V c main_v3) (V c main_arg6)) (V c main_v3) (V c main_arg7))
    (fun t hf => flushed7_eq V c t hf) cover7

end Final

end Cert.KernelIdeal.Hand

end
-- ==== Proof.KernelValue.lean ====
/-
  The kernel program's three results as the specification's functions of the eight arguments, at the ideal instance: the
  buffers' contents between the regions are the launch contents updated by each region's output, each region's output is
  its layer (or the score matrix, or a projection) of what its input arrays hold when it is entered, and no region writes
  an argument or an earlier region's output. So the first source layer is `gcn a0 a1 a4`, the second the layer of that,
  likewise for the target graph, and region 4's three outputs are the score matrix of the two feature sets and its two
  projections.
-/
import proofs.«178143_j39779987096265_1_alg».proof.Proof.Fold
import proofs.«178143_j39779987096265_1_alg».proof.Proof.GcnValue
import proofs.«178143_j39779987096265_1_alg».proof.Proof.AttnTileValue
import proofs.«178143_j39779987096265_1_alg».proof.Proof.AttnAccValue
import proofs.«178143_j39779987096265_1_alg».proof.Proof.Spec

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable (m : (ℓ : Loc nD τ sig) → Buf (Elt Ideal) ℓ) (c : Dev nD)

/-! ## An argument's buffer between the regions: its launch contents -/

theorem W1_arg (r : Ref sig .tc) (h0 : r ≠ main_v0) : W1 m c r = m ((c : Thread nD τ).loc r) :=
  W1_of m c r h0
theorem W2_arg (r : Ref sig .tc) (h0 : r ≠ main_v0) (h1 : r ≠ main_v1) : W2 m c r = m ((c : Thread nD τ).loc r) :=
  (W2_of m c r h1).trans (W1_arg m c r h0)
theorem W3_arg (r : Ref sig .tc) (h0 : r ≠ main_v0) (h1 : r ≠ main_v1) (h2 : r ≠ main_v2) : W3 m c r = m ((c : Thread nD τ).loc r) :=
  (W3_of m c r h2).trans (W2_arg m c r h0 h1)
theorem W4_arg (r : Ref sig .tc) (h0 : r ≠ main_v0) (h1 : r ≠ main_v1) (h2 : r ≠ main_v2) (h3 : r ≠ main_v3) :
    W4 m c r = m ((c : Thread nD τ).loc r) :=
  (W4_of m c r h3).trans (W3_arg m c r h0 h1 h2)

/-! ## The source graph's two layers -/

/-- After region 0 its output holds the first source layer of the arguments. -/
theorem W_xs1 : W1 m c main_v0
    = Cert.Spec.gcn (d := 256) (m ((c : Thread nD τ).loc main_arg0)) (m ((c : Thread nD τ).loc main_arg1)) (m ((c : Thread nD τ).loc main_arg4)) :=
  (W1_out m c).trans (gcn_final0 (VV0 m) c)

/-- Region 1 reads the first layer from region 0's output and the arguments from their buffers; regions 2 and 3 leave its
    output alone. -/
theorem W_xs2 : W4 m c main_v1
    = Cert.Spec.xs2 (m ((c : Thread nD τ).loc main_arg0)) (m ((c : Thread nD τ).loc main_arg1)) (m ((c : Thread nD τ).loc main_arg4)) (m ((c : Thread nD τ).loc main_arg5)) := by
  refine (W4_of m c main_v1 (by decide)).trans ((W3_of m c main_v1 (by decide)).trans ((W2_out m c).trans ((gcn_final1 (VV1 m) c).trans ?_)))
  show Cert.Spec.gcn (d := 128) (W1 m c main_arg0) (W1 m c main_v0) (W1 m c main_arg5) = _
  rw [W1_arg m c main_arg0 (by decide), W1_arg m c main_arg5 (by decide), W_xs1 m c]
  rfl

/-! ## The target graph's two layers -/

/-- After region 2 its output holds the first target layer of the arguments. -/
theorem W_xt1 : W3 m c main_v2
    = Cert.Spec.gcn (d := 256) (m ((c : Thread nD τ).loc main_arg2)) (m ((c : Thread nD τ).loc main_arg3)) (m ((c : Thread nD τ).loc main_arg4)) := by
  refine (W3_out m c).trans ((gcn_final2 (VV2 m) c).trans ?_)
  show Cert.Spec.gcn (d := 256) (W2 m c main_arg2) (W2 m c main_arg3) (W2 m c main_arg4) = _
  rw [W2_arg m c main_arg2 (by decide) (by decide), W2_arg m c main_arg3 (by decide) (by decide), W2_arg m c main_arg4 (by decide) (by decide)]

/-- Region 3 reads the first target layer from region 2's output. -/
theorem W_xt2 : W4 m c main_v3
    = Cert.Spec.xt2 (m ((c : Thread nD τ).loc main_arg2)) (m ((c : Thread nD τ).loc main_arg3)) (m ((c : Thread nD τ).loc main_arg4)) (m ((c : Thread nD τ).loc main_arg5)) := by
  refine (W4_out m c).trans ((gcn_final3 (VV3 m) c).trans ?_)
  show Cert.Spec.gcn (d := 128) (W3 m c main_arg2) (W3 m c main_v2) (W3 m c main_arg5) = _
  rw [W3_arg m c main_arg2 (by decide) (by decide) (by decide), W3_arg m c main_arg5 (by decide) (by decide) (by decide), W_xt1 m c]
  rfl

/-! ## Region 4's three outputs -/

/-- The score matrix region 4 computes from what it finds, as a function of the arguments. -/
theorem scores_W4 : Cert.Spec.scores (W4 m c main_v1) (W4 m c main_v3) (W4 m c main_arg6)
    = Cert.Spec.sMat (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  rw [W_xs2 m c, W_xt2 m c, W4_arg m c main_arg6 (by decide) (by decide) (by decide) (by decide)]
  rfl

theorem W5_S : W5 m c main_v4_0
    = Cert.Spec.sMat (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) :=
  (W5_out0 m c).trans ((attn_final5 (VV4 m) c).trans (scores_W4 m c))

theorem W5_outS : W5 m c main_v4_1
    = Cert.Spec.outS (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  refine (W5_out1 m c).trans ((attn_final6 (VV4 m) c).trans ?_)
  show Cert.Spec.proj (Cert.Spec.scores (W4 m c main_v1) (W4 m c main_v3) (W4 m c main_arg6)) (W4 m c main_v1) (W4 m c main_arg7) = _
  rw [scores_W4 m c, W_xs2 m c, W4_arg m c main_arg7 (by decide) (by decide) (by decide) (by decide)]
  rfl

theorem W5_outT : W5 m c main_v4_2
    = Cert.Spec.outT (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  refine (W5_out2 m c).trans ((attn_final7 (VV4 m) c).trans ?_)
  show Cert.Spec.proj (Cert.Spec.scores (W4 m c main_v1) (W4 m c main_v3) (W4 m c main_arg6)) (W4 m c main_v3) (W4 m c main_arg7) = _
  rw [scores_W4 m c, W_xt2 m c, W4_arg m c main_arg7 (by decide) (by decide) (by decide) (by decide)]
  rfl

end Cert.KernelIdeal.Hand

end
-- ==== Proof.RefValue.lean ====
/-
  The reference's results as the specification's functions of the arguments.

  Each host contraction is a finite sum over its one contracted axis, so a `dot_general` of two matrices is the
  matrix product `mm`; the maximum with the broadcast zero word is `relu`; the exponential of the contraction of
  `Xs · W3` with the transpose of `Xt` is `scores`. The three result terms are then compositions of these.
-/
import proofs.«178143_j39779987096265_1_alg».proof.Proof.Gen.ReferenceIdeal.Run
import proofs.«178143_j39779987096265_1_alg».proof.Proof.Gen.ReferenceIdeal.Read
import proofs.«178143_j39779987096265_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## A contraction over one axis is the matrix product -/

/-- The contraction of a `4096 × 4096` matrix with a `4096 × 256` one, entry by entry. -/
theorem dot_4096x4096_4096x256_apply (L : Spec.Mat 4096 4096) (R : Spec.Mat 4096 256) (i : (⟨2, ![4096, 256]⟩ : Shape).Idx) :
    Host.dotGeneral (F := Ideal) dot_S4096x4096_S4096x256_S4096x256_1_0_0_1_n_n none L R i
      = ∑ q : Fin 4096, L (ix2 (n0 := 4096) (n1 := 4096) (i 0) q) * R (ix2 (n0 := 4096) (n1 := 256) q (i 1)) := by
  simp only [Host.dotGeneral]
  rw [Ideal.dotGeneral_apply, ← Equiv.sum_comp (contrEquiv1 dot_S4096x4096_S4096x256_S4096x256_1_0_0_1_n_n 4096 rfl rfl).symm]
  refine Finset.sum_congr rfl fun q _ => ?_
  have hq := contrEquiv1_symm_val dot_S4096x4096_S4096x256_S4096x256_1_0_0_1_n_n 4096 rfl rfl q
  have el : dot_S4096x4096_S4096x256_S4096x256_1_0_0_1_n_n.lhsIdx i ((contrEquiv1 dot_S4096x4096_S4096x256_S4096x256_1_0_0_1_n_n 4096 rfl rfl).symm q)
      = ix2 (n0 := 4096) (n1 := 4096) (i 0) q := funext fun x => Fin.ext (by
    match x with
    | ⟨0, _⟩ => exact Read.lhs_main_v0_0 _ _
    | ⟨1, _⟩ => exact (Read.lhs_main_v0_1 _ _).trans hq)
  have er : dot_S4096x4096_S4096x256_S4096x256_1_0_0_1_n_n.rhsIdx i ((contrEquiv1 dot_S4096x4096_S4096x256_S4096x256_1_0_0_1_n_n 4096 rfl rfl).symm q)
      = ix2 (n0 := 4096) (n1 := 256) q (i 1) := funext fun x => Fin.ext (by
    match x with
    | ⟨0, _⟩ => exact (Read.rhs_main_v0_0 _ _).trans hq
    | ⟨1, _⟩ => exact Read.rhs_main_v0_1 _ _)
  rw [el, er]

theorem dot_4096x4096_4096x256 (L : Spec.Mat 4096 4096) (R : Spec.Mat 4096 256) :
    Host.dotGeneral (F := Ideal) dot_S4096x4096_S4096x256_S4096x256_1_0_0_1_n_n none L R = Spec.mm L R :=
  funext fun i => dot_4096x4096_4096x256_apply L R i

/-- The contraction of a `4096 × 256` matrix with a `256 × 128` one, entry by entry. -/
theorem dot_4096x256_256x128_apply (L : Spec.Mat 4096 256) (R : Spec.Mat 256 128) (i : (⟨2, ![4096, 128]⟩ : Shape).Idx) :
    Host.dotGeneral (F := Ideal) dot_S4096x256_S256x128_S4096x128_1_0_0_1_n_n none L R i
      = ∑ q : Fin 256, L (ix2 (n0 := 4096) (n1 := 256) (i 0) q) * R (ix2 (n0 := 256) (n1 := 128) q (i 1)) := by
  simp only [Host.dotGeneral]
  rw [Ideal.dotGeneral_apply, ← Equiv.sum_comp (contrEquiv1 dot_S4096x256_S256x128_S4096x128_1_0_0_1_n_n 256 rfl rfl).symm]
  refine Finset.sum_congr rfl fun q _ => ?_
  have hq := contrEquiv1_symm_val dot_S4096x256_S256x128_S4096x128_1_0_0_1_n_n 256 rfl rfl q
  have el : dot_S4096x256_S256x128_S4096x128_1_0_0_1_n_n.lhsIdx i ((contrEquiv1 dot_S4096x256_S256x128_S4096x128_1_0_0_1_n_n 256 rfl rfl).symm q)
      = ix2 (n0 := 4096) (n1 := 256) (i 0) q := funext fun x => Fin.ext (by
    match x with
    | ⟨0, _⟩ => exact Read.lhs_main_v1_0 _ _
    | ⟨1, _⟩ => exact (Read.lhs_main_v1_1 _ _).trans hq)
  have er : dot_S4096x256_S256x128_S4096x128_1_0_0_1_n_n.rhsIdx i ((contrEquiv1 dot_S4096x256_S256x128_S4096x128_1_0_0_1_n_n 256 rfl rfl).symm q)
      = ix2 (n0 := 256) (n1 := 128) q (i 1) := funext fun x => Fin.ext (by
    match x with
    | ⟨0, _⟩ => exact (Read.rhs_main_v1_0 _ _).trans hq
    | ⟨1, _⟩ => exact Read.rhs_main_v1_1 _ _)
  rw [el, er]

theorem dot_4096x256_256x128 (L : Spec.Mat 4096 256) (R : Spec.Mat 256 128) :
    Host.dotGeneral (F := Ideal) dot_S4096x256_S256x128_S4096x128_1_0_0_1_n_n none L R = Spec.mm L R :=
  funext fun i => dot_4096x256_256x128_apply L R i

/-- The contraction of a `4096 × 4096` matrix with a `4096 × 128` one, entry by entry. -/
theorem dot_4096x4096_4096x128_apply (L : Spec.Mat 4096 4096) (R : Spec.Mat 4096 128) (i : (⟨2, ![4096, 128]⟩ : Shape).Idx) :
    Host.dotGeneral (F := Ideal) dot_S4096x4096_S4096x128_S4096x128_1_0_0_1_n_n none L R i
      = ∑ q : Fin 4096, L (ix2 (n0 := 4096) (n1 := 4096) (i 0) q) * R (ix2 (n0 := 4096) (n1 := 128) q (i 1)) := by
  simp only [Host.dotGeneral]
  rw [Ideal.dotGeneral_apply, ← Equiv.sum_comp (contrEquiv1 dot_S4096x4096_S4096x128_S4096x128_1_0_0_1_n_n 4096 rfl rfl).symm]
  refine Finset.sum_congr rfl fun q _ => ?_
  have hq := contrEquiv1_symm_val dot_S4096x4096_S4096x128_S4096x128_1_0_0_1_n_n 4096 rfl rfl q
  have el : dot_S4096x4096_S4096x128_S4096x128_1_0_0_1_n_n.lhsIdx i ((contrEquiv1 dot_S4096x4096_S4096x128_S4096x128_1_0_0_1_n_n 4096 rfl rfl).symm q)
      = ix2 (n0 := 4096) (n1 := 4096) (i 0) q := funext fun x => Fin.ext (by
    match x with
    | ⟨0, _⟩ => exact Read.lhs_main_v3_0 _ _
    | ⟨1, _⟩ => exact (Read.lhs_main_v3_1 _ _).trans hq)
  have er : dot_S4096x4096_S4096x128_S4096x128_1_0_0_1_n_n.rhsIdx i ((contrEquiv1 dot_S4096x4096_S4096x128_S4096x128_1_0_0_1_n_n 4096 rfl rfl).symm q)
      = ix2 (n0 := 4096) (n1 := 128) q (i 1) := funext fun x => Fin.ext (by
    match x with
    | ⟨0, _⟩ => exact (Read.rhs_main_v3_0 _ _).trans hq
    | ⟨1, _⟩ => exact Read.rhs_main_v3_1 _ _)
  rw [el, er]

theorem dot_4096x4096_4096x128 (L : Spec.Mat 4096 4096) (R : Spec.Mat 4096 128) :
    Host.dotGeneral (F := Ideal) dot_S4096x4096_S4096x128_S4096x128_1_0_0_1_n_n none L R = Spec.mm L R :=
  funext fun i => dot_4096x4096_4096x128_apply L R i

/-- The contraction of a `4096 × 128` matrix with a `128 × 128` one, entry by entry. -/
theorem dot_4096x128_128x128_apply (L : Spec.Mat 4096 128) (R : Spec.Mat 128 128) (i : (⟨2, ![4096, 128]⟩ : Shape).Idx) :
    Host.dotGeneral (F := Ideal) dot_S4096x128_S128x128_S4096x128_1_0_0_1_n_n none L R i
      = ∑ q : Fin 128, L (ix2 (n0 := 4096) (n1 := 128) (i 0) q) * R (ix2 (n0 := 128) (n1 := 128) q (i 1)) := by
  simp only [Host.dotGeneral]
  rw [Ideal.dotGeneral_apply, ← Equiv.sum_comp (contrEquiv1 dot_S4096x128_S128x128_S4096x128_1_0_0_1_n_n 128 rfl rfl).symm]
  refine Finset.sum_congr rfl fun q _ => ?_
  have hq := contrEquiv1_symm_val dot_S4096x128_S128x128_S4096x128_1_0_0_1_n_n 128 rfl rfl q
  have el : dot_S4096x128_S128x128_S4096x128_1_0_0_1_n_n.lhsIdx i ((contrEquiv1 dot_S4096x128_S128x128_S4096x128_1_0_0_1_n_n 128 rfl rfl).symm q)
      = ix2 (n0 := 4096) (n1 := 128) (i 0) q := funext fun x => Fin.ext (by
    match x with
    | ⟨0, _⟩ => exact Read.lhs_main_v4_0 _ _
    | ⟨1, _⟩ => exact (Read.lhs_main_v4_1 _ _).trans hq)
  have er : dot_S4096x128_S128x128_S4096x128_1_0_0_1_n_n.rhsIdx i ((contrEquiv1 dot_S4096x128_S128x128_S4096x128_1_0_0_1_n_n 128 rfl rfl).symm q)
      = ix2 (n0 := 128) (n1 := 128) q (i 1) := funext fun x => Fin.ext (by
    match x with
    | ⟨0, _⟩ => exact (Read.rhs_main_v4_0 _ _).trans hq
    | ⟨1, _⟩ => exact Read.rhs_main_v4_1 _ _)
  rw [el, er]

theorem dot_4096x128_128x128 (L : Spec.Mat 4096 128) (R : Spec.Mat 128 128) :
    Host.dotGeneral (F := Ideal) dot_S4096x128_S128x128_S4096x128_1_0_0_1_n_n none L R = Spec.mm L R :=
  funext fun i => dot_4096x128_128x128_apply L R i

/-- The contraction of a `4096 × 128` matrix with a `128 × 4096` one, entry by entry. -/
theorem dot_4096x128_128x4096_apply (L : Spec.Mat 4096 128) (R : Spec.Mat 128 4096) (i : (⟨2, ![4096, 4096]⟩ : Shape).Idx) :
    Host.dotGeneral (F := Ideal) dot_S4096x128_S128x4096_S4096x4096_1_0_0_1_n_n none L R i
      = ∑ q : Fin 128, L (ix2 (n0 := 4096) (n1 := 128) (i 0) q) * R (ix2 (n0 := 128) (n1 := 4096) q (i 1)) := by
  simp only [Host.dotGeneral]
  rw [Ideal.dotGeneral_apply, ← Equiv.sum_comp (contrEquiv1 dot_S4096x128_S128x4096_S4096x4096_1_0_0_1_n_n 128 rfl rfl).symm]
  refine Finset.sum_congr rfl fun q _ => ?_
  have hq := contrEquiv1_symm_val dot_S4096x128_S128x4096_S4096x4096_1_0_0_1_n_n 128 rfl rfl q
  have el : dot_S4096x128_S128x4096_S4096x4096_1_0_0_1_n_n.lhsIdx i ((contrEquiv1 dot_S4096x128_S128x4096_S4096x4096_1_0_0_1_n_n 128 rfl rfl).symm q)
      = ix2 (n0 := 4096) (n1 := 128) (i 0) q := funext fun x => Fin.ext (by
    match x with
    | ⟨0, _⟩ => exact Read.lhs_main_v14_0 _ _
    | ⟨1, _⟩ => exact (Read.lhs_main_v14_1 _ _).trans hq)
  have er : dot_S4096x128_S128x4096_S4096x4096_1_0_0_1_n_n.rhsIdx i ((contrEquiv1 dot_S4096x128_S128x4096_S4096x4096_1_0_0_1_n_n 128 rfl rfl).symm q)
      = ix2 (n0 := 128) (n1 := 4096) q (i 1) := funext fun x => Fin.ext (by
    match x with
    | ⟨0, _⟩ => exact (Read.rhs_main_v14_0 _ _).trans hq
    | ⟨1, _⟩ => exact Read.rhs_main_v14_1 _ _)
  rw [el, er]

theorem dot_4096x128_128x4096 (L : Spec.Mat 4096 128) (R : Spec.Mat 128 4096) :
    Host.dotGeneral (F := Ideal) dot_S4096x128_S128x4096_S4096x4096_1_0_0_1_n_n none L R = Spec.mm L R :=
  funext fun i => dot_4096x128_128x4096_apply L R i

/-! ## The maximum with the broadcast zero is `relu` -/

/-- The broadcast of the scalar zero word reads that word at every index. -/
theorem zeros_apply (i : S4096x128.Idx) :
    broadcastInDim S4096x128 ![] bcast_S_S4096x128 (constant (F := Ideal) S_ .f32 0x00000000#32) i
      = Ideal.ofBits .f32 0x00000000#32 :=
  (broadcastInDim_apply _ bcast_S_S4096x128 (constant (F := Ideal) S_ .f32 0x00000000#32) i (fun a => a.elim0)
    (fun a => a.elim0)).trans rfl

theorem host_relu (Y : Spec.Mat 4096 128) :
    maximumf (F := Ideal) Y (broadcastInDim S4096x128 ![] bcast_S_S4096x128 (constant (F := Ideal) S_ .f32 0x00000000#32))
      = Spec.relu Y := by
  funext i
  show FloatOps.maximumf (Y i) _ = max (Y i) (Ideal.ofBits .f32 0x00000000#32)
  rw [zeros_apply i]
  rfl

/-! ## One graph layer -/

/-- The first layer (features `256` wide): `relu ((A · X) · W)`. -/
theorem host_gcn256 (A : Spec.Mat 4096 4096) (X : Spec.Mat 4096 256) (W : Spec.Mat 256 128) :
    maximumf (F := Ideal)
        (Host.dotGeneral (F := Ideal) dot_S4096x256_S256x128_S4096x128_1_0_0_1_n_n none
          (Host.dotGeneral (F := Ideal) dot_S4096x4096_S4096x256_S4096x256_1_0_0_1_n_n none A X) W)
        (broadcastInDim S4096x128 ![] bcast_S_S4096x128 (constant (F := Ideal) S_ .f32 0x00000000#32))
      = Spec.gcn A X W := by
  rw [dot_4096x4096_4096x256, dot_4096x256_256x128, host_relu]
  rfl

/-- The second layer (features `128` wide): `relu ((A · X) · W)`. -/
theorem host_gcn128 (A : Spec.Mat 4096 4096) (X : Spec.Mat 4096 128) (W : Spec.Mat 128 128) :
    maximumf (F := Ideal)
        (Host.dotGeneral (F := Ideal) dot_S4096x128_S128x128_S4096x128_1_0_0_1_n_n none
          (Host.dotGeneral (F := Ideal) dot_S4096x4096_S4096x128_S4096x128_1_0_0_1_n_n none A X) W)
        (broadcastInDim S4096x128 ![] bcast_S_S4096x128 (constant (F := Ideal) S_ .f32 0x00000000#32))
      = Spec.gcn A X W := by
  rw [dot_4096x4096_4096x128, dot_4096x128_128x128, host_relu]
  rfl

/-! ## The scores -/

/-- The transpose of a `4096 × 128` matrix read at `(k, n)` is the matrix at `(n, k)`. -/
theorem transpose_apply2 (X : Spec.Mat 4096 128) (k : Fin 128) (n : Fin 4096) :
    transpose S128x4096 [1, 0] X transposes_S4096x128_S128x4096_1_0 (ix2 (n0 := 128) (n1 := 4096) k n)
      = X (ix2 (n0 := 4096) (n1 := 128) n k) :=
  transpose_apply [1, 0] X transposes_S4096x128_S128x4096_1_0 _ _ (fun b => match b with
    | ⟨0, _⟩ => rfl
    | ⟨1, _⟩ => rfl)

theorem host_scores (Xs Xt : Spec.Mat 4096 128) (W3 : Spec.Mat 128 128) :
    Host.exp (F := Ideal)
        (Host.dotGeneral (F := Ideal) dot_S4096x128_S128x4096_S4096x4096_1_0_0_1_n_n none
          (Host.dotGeneral (F := Ideal) dot_S4096x128_S128x128_S4096x128_1_0_0_1_n_n none Xs W3)
          (transpose S128x4096 [1, 0] Xt transposes_S4096x128_S128x4096_1_0))
      = Spec.scores Xs Xt W3 := by
  rw [dot_4096x128_128x128]
  funext i
  show FloatOps.hostUnary .exp (Host.dotGeneral (F := Ideal) dot_S4096x128_S128x4096_S4096x4096_1_0_0_1_n_n none
      (Spec.mm Xs W3) (transpose S128x4096 [1, 0] Xt transposes_S4096x128_S128x4096_1_0) i) = _
  rw [dot_4096x128_128x4096_apply, Ideal.hostUnary_exp_def]
  refine congrArg Ideal.exp (Finset.sum_congr rfl fun k _ => ?_)
  exact congrArg (fun z => Spec.mm Xs W3 (ix2 (n0 := 4096) (n1 := 128) (i 0) k) * z) (transpose_apply2 Xt k (i 1))

/-! ## A projection -/

theorem host_proj (S : Spec.Mat 4096 4096) (X : Spec.Mat 4096 128) (W4 : Spec.Mat 128 128) :
    Host.dotGeneral (F := Ideal) dot_S4096x128_S128x128_S4096x128_1_0_0_1_n_n none
        (Host.dotGeneral (F := Ideal) dot_S4096x4096_S4096x128_S4096x128_1_0_0_1_n_n none S X) W4
      = Spec.proj S X W4 := by
  rw [dot_4096x4096_4096x128, dot_4096x128_128x128]
  rfl

/-! ## The three results, from the eight arguments -/

section
variable (As : Spec.Mat 4096 4096) (Xs0 : Spec.Mat 4096 256) (At : Spec.Mat 4096 4096) (Xt0 : Spec.Mat 4096 256)
  (W1 : Spec.Mat 256 128) (W2 W3 W4 : Spec.Mat 128 128)

/-- The score matrix the reference returns is `sMat`. -/
theorem ref_v15 :
    Host.exp (F := Ideal) (Host.dotGeneral (F := Ideal) dot_S4096x128_S128x4096_S4096x4096_1_0_0_1_n_n none (Host.dotGeneral (F := Ideal) dot_S4096x128_S128x128_S4096x128_1_0_0_1_n_n none (maximumf (F := Ideal) (Host.dotGeneral (F := Ideal) dot_S4096x128_S128x128_S4096x128_1_0_0_1_n_n none (Host.dotGeneral (F := Ideal) dot_S4096x4096_S4096x128_S4096x128_1_0_0_1_n_n none As (maximumf (F := Ideal) (Host.dotGeneral (F := Ideal) dot_S4096x256_S256x128_S4096x128_1_0_0_1_n_n none (Host.dotGeneral (F := Ideal) dot_S4096x4096_S4096x256_S4096x256_1_0_0_1_n_n none As Xs0) W1) (broadcastInDim S4096x128 ![] bcast_S_S4096x128 (constant (F := Ideal) S_ .f32 0x00000000#32)))) W2) (broadcastInDim S4096x128 ![] bcast_S_S4096x128 (constant (F := Ideal) S_ .f32 0x00000000#32))) W3) (transpose S128x4096 [1, 0] (maximumf (F := Ideal) (Host.dotGeneral (F := Ideal) dot_S4096x128_S128x128_S4096x128_1_0_0_1_n_n none (Host.dotGeneral (F := Ideal) dot_S4096x4096_S4096x128_S4096x128_1_0_0_1_n_n none At (maximumf (F := Ideal) (Host.dotGeneral (F := Ideal) dot_S4096x256_S256x128_S4096x128_1_0_0_1_n_n none (Host.dotGeneral (F := Ideal) dot_S4096x4096_S4096x256_S4096x256_1_0_0_1_n_n none At Xt0) W1) (broadcastInDim S4096x128 ![] bcast_S_S4096x128 (constant (F := Ideal) S_ .f32 0x00000000#32)))) W2) (broadcastInDim S4096x128 ![] bcast_S_S4096x128 (constant (F := Ideal) S_ .f32 0x00000000#32))) transposes_S4096x128_S128x4096_1_0))
      = Cert.Spec.sMat As Xs0 At Xt0 W1 W2 W3 := by
  rw [host_gcn256 As Xs0 W1, host_gcn128 As _ W2, host_gcn256 At Xt0 W1, host_gcn128 At _ W2, host_scores]
  rfl

/-- The first projection the reference returns is `outS`. -/
theorem ref_v17 :
    Host.dotGeneral (F := Ideal) dot_S4096x128_S128x128_S4096x128_1_0_0_1_n_n none (Host.dotGeneral (F := Ideal) dot_S4096x4096_S4096x128_S4096x128_1_0_0_1_n_n none (Host.exp (F := Ideal) (Host.dotGeneral (F := Ideal) dot_S4096x128_S128x4096_S4096x4096_1_0_0_1_n_n none (Host.dotGeneral (F := Ideal) dot_S4096x128_S128x128_S4096x128_1_0_0_1_n_n none (maximumf (F := Ideal) (Host.dotGeneral (F := Ideal) dot_S4096x128_S128x128_S4096x128_1_0_0_1_n_n none (Host.dotGeneral (F := Ideal) dot_S4096x4096_S4096x128_S4096x128_1_0_0_1_n_n none As (maximumf (F := Ideal) (Host.dotGeneral (F := Ideal) dot_S4096x256_S256x128_S4096x128_1_0_0_1_n_n none (Host.dotGeneral (F := Ideal) dot_S4096x4096_S4096x256_S4096x256_1_0_0_1_n_n none As Xs0) W1) (broadcastInDim S4096x128 ![] bcast_S_S4096x128 (constant (F := Ideal) S_ .f32 0x00000000#32)))) W2) (broadcastInDim S4096x128 ![] bcast_S_S4096x128 (constant (F := Ideal) S_ .f32 0x00000000#32))) W3) (transpose S128x4096 [1, 0] (maximumf (F := Ideal) (Host.dotGeneral (F := Ideal) dot_S4096x128_S128x128_S4096x128_1_0_0_1_n_n none (Host.dotGeneral (F := Ideal) dot_S4096x4096_S4096x128_S4096x128_1_0_0_1_n_n none At (maximumf (F := Ideal) (Host.dotGeneral (F := Ideal) dot_S4096x256_S256x128_S4096x128_1_0_0_1_n_n none (Host.dotGeneral (F := Ideal) dot_S4096x4096_S4096x256_S4096x256_1_0_0_1_n_n none At Xt0) W1) (broadcastInDim S4096x128 ![] bcast_S_S4096x128 (constant (F := Ideal) S_ .f32 0x00000000#32)))) W2) (broadcastInDim S4096x128 ![] bcast_S_S4096x128 (constant (F := Ideal) S_ .f32 0x00000000#32))) transposes_S4096x128_S128x4096_1_0))) (maximumf (F := Ideal) (Host.dotGeneral (F := Ideal) dot_S4096x128_S128x128_S4096x128_1_0_0_1_n_n none (Host.dotGeneral (F := Ideal) dot_S4096x4096_S4096x128_S4096x128_1_0_0_1_n_n none As (maximumf (F := Ideal) (Host.dotGeneral (F := Ideal) dot_S4096x256_S256x128_S4096x128_1_0_0_1_n_n none (Host.dotGeneral (F := Ideal) dot_S4096x4096_S4096x256_S4096x256_1_0_0_1_n_n none As Xs0) W1) (broadcastInDim S4096x128 ![] bcast_S_S4096x128 (constant (F := Ideal) S_ .f32 0x00000000#32)))) W2) (broadcastInDim S4096x128 ![] bcast_S_S4096x128 (constant (F := Ideal) S_ .f32 0x00000000#32)))) W4
      = Cert.Spec.outS As Xs0 At Xt0 W1 W2 W3 W4 := by
  rw [host_gcn256 As Xs0 W1, host_gcn128 As _ W2, host_gcn256 At Xt0 W1, host_gcn128 At _ W2, host_scores, host_proj]
  rfl

/-- The second projection the reference returns is `outT`. -/
theorem ref_v19 :
    Host.dotGeneral (F := Ideal) dot_S4096x128_S128x128_S4096x128_1_0_0_1_n_n none (Host.dotGeneral (F := Ideal) dot_S4096x4096_S4096x128_S4096x128_1_0_0_1_n_n none (Host.exp (F := Ideal) (Host.dotGeneral (F := Ideal) dot_S4096x128_S128x4096_S4096x4096_1_0_0_1_n_n none (Host.dotGeneral (F := Ideal) dot_S4096x128_S128x128_S4096x128_1_0_0_1_n_n none (maximumf (F := Ideal) (Host.dotGeneral (F := Ideal) dot_S4096x128_S128x128_S4096x128_1_0_0_1_n_n none (Host.dotGeneral (F := Ideal) dot_S4096x4096_S4096x128_S4096x128_1_0_0_1_n_n none As (maximumf (F := Ideal) (Host.dotGeneral (F := Ideal) dot_S4096x256_S256x128_S4096x128_1_0_0_1_n_n none (Host.dotGeneral (F := Ideal) dot_S4096x4096_S4096x256_S4096x256_1_0_0_1_n_n none As Xs0) W1) (broadcastInDim S4096x128 ![] bcast_S_S4096x128 (constant (F := Ideal) S_ .f32 0x00000000#32)))) W2) (broadcastInDim S4096x128 ![] bcast_S_S4096x128 (constant (F := Ideal) S_ .f32 0x00000000#32))) W3) (transpose S128x4096 [1, 0] (maximumf (F := Ideal) (Host.dotGeneral (F := Ideal) dot_S4096x128_S128x128_S4096x128_1_0_0_1_n_n none (Host.dotGeneral (F := Ideal) dot_S4096x4096_S4096x128_S4096x128_1_0_0_1_n_n none At (maximumf (F := Ideal) (Host.dotGeneral (F := Ideal) dot_S4096x256_S256x128_S4096x128_1_0_0_1_n_n none (Host.dotGeneral (F := Ideal) dot_S4096x4096_S4096x256_S4096x256_1_0_0_1_n_n none At Xt0) W1) (broadcastInDim S4096x128 ![] bcast_S_S4096x128 (constant (F := Ideal) S_ .f32 0x00000000#32)))) W2) (broadcastInDim S4096x128 ![] bcast_S_S4096x128 (constant (F := Ideal) S_ .f32 0x00000000#32))) transposes_S4096x128_S128x4096_1_0))) (maximumf (F := Ideal) (Host.dotGeneral (F := Ideal) dot_S4096x128_S128x128_S4096x128_1_0_0_1_n_n none (Host.dotGeneral (F := Ideal) dot_S4096x4096_S4096x128_S4096x128_1_0_0_1_n_n none At (maximumf (F := Ideal) (Host.dotGeneral (F := Ideal) dot_S4096x256_S256x128_S4096x128_1_0_0_1_n_n none (Host.dotGeneral (F := Ideal) dot_S4096x4096_S4096x256_S4096x256_1_0_0_1_n_n none At Xt0) W1) (broadcastInDim S4096x128 ![] bcast_S_S4096x128 (constant (F := Ideal) S_ .f32 0x00000000#32)))) W2) (broadcastInDim S4096x128 ![] bcast_S_S4096x128 (constant (F := Ideal) S_ .f32 0x00000000#32)))) W4
      = Cert.Spec.outT As Xs0 At Xt0 W1 W2 W3 W4 := by
  rw [host_gcn256 As Xs0 W1, host_gcn128 As _ W2, host_gcn256 At Xt0 W1, host_gcn128 At _ W2, host_scores, host_proj]
  rfl

end

/-! ## The same, over the stages' names -/

section
variable (As : Spec.Mat 4096 4096) (Xs0 : Spec.Mat 4096 256) (At : Spec.Mat 4096 4096) (Xt0 : Spec.Mat 4096 256)
  (W1 : Spec.Mat 256 128) (W2 W3 W4 : Spec.Mat 128 128)

theorem ref_val_v15 : Read.val_main_v15 (F := Ideal) As Xs0 At Xt0 W1 W2 W3 = Cert.Spec.sMat As Xs0 At Xt0 W1 W2 W3 :=
  (Read.val_main_v15_eq (F := Ideal) As Xs0 At Xt0 W1 W2 W3).symm.trans (ref_v15 As Xs0 At Xt0 W1 W2 W3)

theorem ref_val_v17 :
    Read.val_main_v17 (F := Ideal) As Xs0 At Xt0 W1 W2 W3 W4 = Cert.Spec.outS As Xs0 At Xt0 W1 W2 W3 W4 :=
  (Read.val_main_v17_eq (F := Ideal) As Xs0 At Xt0 W1 W2 W3 W4).symm.trans (ref_v17 As Xs0 At Xt0 W1 W2 W3 W4)

theorem ref_val_v19 :
    Read.val_main_v19 (F := Ideal) As Xs0 At Xt0 W1 W2 W3 W4 = Cert.Spec.outT As Xs0 At Xt0 W1 W2 W3 W4 :=
  (Read.val_main_v19_eq (F := Ideal) As Xs0 At Xt0 W1 W2 W3 W4).symm.trans (ref_v19 As Xs0 At Xt0 W1 W2 W3 W4)

end

end Cert.ReferenceIdeal.RefValue

end
-- ==== Proof.lean ====
/-
  The certificate's claim. Both programs compute, from the eight arguments, the two graph layers per graph
  `relu ((A · X) · W)`, the score matrix `exp ((Xs · W3) · Xtᵀ)` and the two projections `(S · X) · W4` (the specification of
  Proof/Spec.lean). The kernel program does it in five pipelined regions: a layer's rows in blocks of 512, the score
  matrix in 1024 × 1024 tiles, each projection's inner sum over 4096 accumulated tile by tile in four blocks of 1024 —
  the same finite sums of extended reals, regrouped. Its frame holds at any float instance (the word-level program's is
  the same text); the reference is a host program whose run is read back operation by operation.
-/
import proofs.«178143_j39779987096265_1_alg».proof.Defs
import proofs.«178143_j39779987096265_1_alg».proof.Proof.Gen.Kernel
import proofs.«178143_j39779987096265_1_alg».proof.Proof.Gen.KernelIdeal
import proofs.«178143_j39779987096265_1_alg».proof.Proof.Gen.ReferenceIdeal
import proofs.«178143_j39779987096265_1_alg».proof.Proof.Gen.Pre_finite_inputs
import proofs.«178143_j39779987096265_1_alg».proof.Proof.Gen.ReferenceIdeal.Run
import proofs.«178143_j39779987096265_1_alg».proof.Proof.Regs
import proofs.«178143_j39779987096265_1_alg».proof.Proof.KRegs
import proofs.«178143_j39779987096265_1_alg».proof.Proof.KernelValue
import proofs.«178143_j39779987096265_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_p : Cert.frame_Kernel := fun m ρ _ => Cert.Kernel.Hand.frame m ρ
/-- So does the idealized program. -/
theorem frame_pi : Cert.frame_KernelIdeal := fun m ρ _ => Cert.KernelIdeal.Hand.frame m ρ
/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- From memories agreeing on the arguments both programs end with the specification's three results of those arguments. -/
theorem algebraic : Cert.algebraic_KernelIdeal_ReferenceIdeal := by
  intro m ρ m' ρ' _ hagree
  refine ⟨fun c => Cert.Spec.outS (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Spec.outT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Spec.sMat (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v4_1 (by decide))).trans (Cert.KernelIdeal.Hand.W5_outS m c),
      (h c _ (Cert.KernelIdeal.Hand.mem_uc Cert.KernelIdeal.main_v4_2 (by decide))).trans (Cert.KernelIdeal.Hand.W5_outT m c),
      (h c _ (Cert.KernelIdeal.Hand.mem_uc Cert.KernelIdeal.main_v4_0 (by decide))).trans (Cert.KernelIdeal.Hand.W5_S m c),
      (h c _ (Cert.KernelIdeal.Hand.mem_uc Cert.KernelIdeal.main_arg0 (by decide))).trans (Cert.KernelIdeal.Hand.W5_arg m c Cert.KernelIdeal.main_arg0 (by decide)),
      (h c _ (Cert.KernelIdeal.Hand.mem_uc Cert.KernelIdeal.main_arg1 (by decide))).trans (Cert.KernelIdeal.Hand.W5_arg m c Cert.KernelIdeal.main_arg1 (by decide)),
      (h c _ (Cert.KernelIdeal.Hand.mem_uc Cert.KernelIdeal.main_arg2 (by decide))).trans (Cert.KernelIdeal.Hand.W5_arg m c Cert.KernelIdeal.main_arg2 (by decide)),
      (h c _ (Cert.KernelIdeal.Hand.mem_uc Cert.KernelIdeal.main_arg3 (by decide))).trans (Cert.KernelIdeal.Hand.W5_arg m c Cert.KernelIdeal.main_arg3 (by decide)),
      (h c _ (Cert.KernelIdeal.Hand.mem_uc Cert.KernelIdeal.main_arg4 (by decide))).trans (Cert.KernelIdeal.Hand.W5_arg m c Cert.KernelIdeal.main_arg4 (by decide)),
      (h c _ (Cert.KernelIdeal.Hand.mem_uc Cert.KernelIdeal.main_arg5 (by decide))).trans (Cert.KernelIdeal.Hand.W5_arg m c Cert.KernelIdeal.main_arg5 (by decide)),
      (h c _ (Cert.KernelIdeal.Hand.mem_uc Cert.KernelIdeal.main_arg6 (by decide))).trans (Cert.KernelIdeal.Hand.W5_arg m c Cert.KernelIdeal.main_arg6 (by decide)),
      (h c _ (Cert.KernelIdeal.Hand.mem_uc Cert.KernelIdeal.main_arg7 (by decide))).trans (Cert.KernelIdeal.Hand.W5_arg m c Cert.KernelIdeal.main_arg7 (by decide))⟩
  · refine (θ_run Cert.ReferenceIdeal.defs _ _).mono (fun r h c => ?_) (Cert.ReferenceIdeal.Value.run (F := Ideal) m' ρ')
    obtain ⟨h17, h19, h15, hargs⟩ := h c
    refine ⟨h17.trans ?_, h19.trans ?_, h15.trans ?_, hargs⟩
    · refine (Cert.ReferenceIdeal.RefValue.ref_v17 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2]
    · refine (Cert.ReferenceIdeal.RefValue.ref_v19 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2]
    · refine (Cert.ReferenceIdeal.RefValue.ref_v15 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))).trans ?_
      rw [(hagree c).1, (hagree c).2.1, (hagree c).2.2.1, (hagree c).2.2.2.1, (hagree c).2.2.2.2.1, (hagree c).2.2.2.2.2.1, (hagree c).2.2.2.2.2.2.1]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
